-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S4096x32 : Shape := ⟨2, ![4096, 32]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x1024 .f32) (main_arg1 : IVec S4096 32) (main_arg2 : FVec F S4096x32 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x32 .f32 := Host.absf main_arg2
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_c_2 : IVec S_ 32 := constantI S_ 32 0#32
  let main_v9 : IVec S4096 32 := broadcastInDim S4096 ![] bcast_S_S4096 main_c_2
  let main_v10 : IVec S4096 1 := cmpi .sge main_arg1 main_v9
  let main_c_3 : IVec S_ 32 := constantI S_ 32 32#32
  let main_v11 : IVec S4096 32 := broadcastInDim S4096 ![] bcast_S_S4096 main_c_3
  let main_v12 : IVec S4096 1 := cmpi .slt main_arg1 main_v11
  let main_v13 : IVec S4096 1 := andi main_v10 main_v12
  let main_c_4 : IVec S_ 1 := constantI S_ 1 1#1
  let main_v14 : IVec S_ 1 := (fun x v => Host.reduce IntOp.andi x v reducesTo_S4096_S_d0 h_S_) main_v13 main_c_4
  let main_v15 : IVec S_ 1 := andi main_v8 main_v14
  main_v15
-- ==== Kernel.lean ====
abbrev S4096x1024 : Shape := ⟨2, ![4096, 1024]⟩
abbrev S4096 : Shape := ⟨1, ![4096]⟩
abbrev S4096x32 : Shape := ⟨2, ![4096, 32]⟩
abbrev S_ : Shape := ⟨0, ![]⟩
abbrev S4096x1 : Shape := ⟨2, ![4096, 1]⟩
abbrev S1x32 : Shape := ⟨2, ![1, 32]⟩
abbrev S1024x1024 : Shape := ⟨2, ![1024, 1024]⟩
abbrev S512x1024 : Shape := ⟨2, ![512, 1024]⟩
abbrev S1024x32 : Shape := ⟨2, ![1024, 32]⟩
abbrev S512x32 : Shape := ⟨2, ![512, 32]⟩
abbrev S1024x1 : Shape := ⟨2, ![1024, 1]⟩
abbrev S1024x512 : Shape := ⟨2, ![1024, 512]⟩
abbrev S32x512 : Shape := ⟨2, ![32, 512]⟩
abbrev S1024 : Shape := ⟨1, ![1024]⟩

abbrev nBuf : Space → Nat
  | .hbm => 31
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S4096x32, .f32⟩
  | .hbm, ⟨3, _⟩ => ⟨S_, .f32⟩
  | .hbm, ⟨4, _⟩ => ⟨S4096, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S4096x1, .f32⟩
  | .hbm, ⟨9, _⟩ => ⟨S4096x32, .f32⟩
  | .hbm, ⟨10, _⟩ => ⟨S4096x32, .f32⟩
  | .hbm, ⟨11, _⟩ => ⟨S4096x32, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S4096x32, .f32⟩
  | .hbm, ⟨16, _⟩ => ⟨S4096x32, .f32⟩
  | .hbm, ⟨17, _⟩ => ⟨S4096x1, .i32⟩
  | .hbm, ⟨18, _⟩ => ⟨S1x32, .i32⟩
  | .hbm, ⟨19, _⟩ => ⟨S4096x32, .i32⟩
  | .hbm, ⟨20, _⟩ => ⟨S4096x32, .i32⟩
  | .hbm, ⟨21, _⟩ => ⟨S4096x32, .i1⟩
  | .hbm, ⟨22, _⟩ => ⟨S4096x32, .f32⟩
  | .hbm, ⟨23, _⟩ => ⟨S4096x1024, .bf16⟩
  | .hbm, ⟨24, _⟩ => ⟨S4096x1, .f32⟩
  | .hbm, ⟨25, _⟩ => ⟨S4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x32, .f32⟩
  | .local _ .vmem, ⟨5, _⟩ => ⟨S1024x32, .f32⟩
  | .local _ .vmem, ⟨6, _⟩ => ⟨S1024x32, .f32⟩
  | .local _ .vmem, ⟨7, _⟩ => ⟨S1024x32, .f32⟩
  | .local _ .vmem, ⟨8, _⟩ => ⟨S512x32, .f32⟩
  | .local _ .vmem, ⟨9, _⟩ => ⟨S512x32, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v80 : BitVec 1 := Scalar.cmpi .eq arg1 c7_i32
  let v81 : BitVec 32 := Scalar.extui v80
  let c0_i32_40 : BitVec 32 := 0#32
  let v82 : BitVec 1 := Scalar.cmpi .ne v81 c0_i32_40
  v82

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S4096x32_S4096_d1 : S4096x32.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32_0_1 : S4096x1.BroadcastsInDim S4096x32 (![0, 1] : Fin 2 → Fin S4096x32.rank)
  bcast_S1x32_S4096x32_0_1 : S1x32.BroadcastsInDim S4096x32 (![0, 1] : Fin 2 → Fin S4096x32.rank)
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  transposes_S512x1024_p1_0_S1024x512 : S512x1024.Transposes [1, 0] S1024x512
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S512x32_S512x32_0_0 : ∀ a, (![0, 0] : Fin 2 → Nat) a + S512x32.size a ≤ S512x32.size a
  h_S512x32 : 0 < S512x32.numel
  shapeCasts_S512x32_S512x32 : S512x32.ShapeCasts S512x32
  transposes_S512x32_p1_0_S32x512 : S512x32.Transposes [1, 0] S32x512
  iota_S1024x512_d0_w32 : S1024x512.Iotas .tc 32 [0]
  iota_S1024x512_d1_w32 : S1024x512.Iotas .tc 32 [1]
  natLt_1_32 : 1 < 32
  reduces_S1024x512_S1024 : S1024x512.Reduces [1] S1024
  shapeCasts_S1024_S1024x1 : S1024.ShapeCasts S1024x1
  broadcasts_S1024x1_S1024x512 : S1024x1.Broadcasts S1024x512
  shapeCasts_S4096x1_S4096 : S4096x1.ShapeCasts S4096
  reducesTo_S4096_S_d0 : S4096.ReducesTo [0] S_
  dot_S1024x1024_S1024x512_S1024x512_1_0_0_1_n_n_wf : DotDims.WF S1024x1024 S1024x512 S1024x512 [1] [0] [0] [1] [] []
  dot_S1024x32_S32x512_S1024x512_1_0_0_1_n_n_wf : DotDims.WF S1024x32 S32x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .bf16 = 32 ∨ (Rect.block (s := S4096x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S4096x32.size a
  hwx0_2 : ∀ i : grid0.Coords, EltTy.bits .f32 = 32 ∨ (Rect.block (s := S4096x32) S1024x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S4096x32.size a
  hwx0_3 : ∀ i : grid0.Coords, EltTy.bits .f32 = 32 ∨ (Rect.block (s := S4096x32) S1024x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x32.size a ≤ S4096x32.size a
  hwx0_4 : ∀ i : grid0.Coords, EltTy.bits .f32 = 32 ∨ (Rect.block (s := S4096x32) S512x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S4096x1.size a
  hwx0_5 : ∀ i : grid0.Coords, EltTy.bits .f32 = 32 ∨ (Rect.block (s := S4096x1) S1024x1.size (cc0_transform_5 i) (hinb0_5 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x32_S32x512_S1024x512_1_0_0_1_n_n : DotDims S1024x32 S32x512 S1024x512 where
  lhsContracting := [1]
  rhsContracting := [0]
  lhsNonContracting := [0]
  rhsNonContracting := [1]
  lhsBatch := []
  rhsBatch := []
  wf := dot_S1024x32_S32x512_S1024x512_1_0_0_1_n_n_wf

abbrev win0_0 : Pipeline.Window sig grid0 :=
  Pipeline.Window.ofSpec (Memref.whole main_v12) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S512x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096 : Shape := ⟨1, ![4096]⟩
abbrev S4096x32 : Shape := ⟨2, ![4096, 32]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S1024x4096 : Shape := ⟨2, ![1024, 4096]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S4096x32, .f32⟩
  | .hbm, ⟨3, _⟩ => ⟨S_, .f32⟩
  | .hbm, ⟨4, _⟩ => ⟨S4096, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S4096x1, .f32⟩
  | .hbm, ⟨9, _⟩ => ⟨S4096x32, .f32⟩
  | .hbm, ⟨10, _⟩ => ⟨S4096x32, .f32⟩
  | .hbm, ⟨11, _⟩ => ⟨S4096x32, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S4096x32, .f32⟩
  | .hbm, ⟨16, _⟩ => ⟨S4096x32, .f32⟩
  | .hbm, ⟨17, _⟩ => ⟨S4096x1, .i32⟩
  | .hbm, ⟨18, _⟩ => ⟨S1x4096, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S4096x4096, .f32⟩
  | .hbm, ⟨23, _⟩ => ⟨S4096x4096, .i32⟩
  | .hbm, ⟨24, _⟩ => ⟨S4096x4096, .i32⟩
  | .hbm, ⟨25, _⟩ => ⟨S_, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096, .i32⟩
  | .hbm, ⟨41, _⟩ => ⟨S4096x1, .i32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S1024x4096, .f32⟩
  | .hbm, ⟨46, _⟩ => ⟨S4096x4096, .f32⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S4096x4096, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x1, .f32⟩
  | .hbm, ⟨61, _⟩ => ⟨S4096x4096, .f32⟩
  | .hbm, ⟨62, _⟩ => ⟨S4096x4096, .f32⟩
  | .hbm, ⟨63, _⟩ => ⟨S4096x4096, .f32⟩
  | .hbm, ⟨64, _⟩ => ⟨S_, .f32⟩
  | .hbm, ⟨65, _⟩ => ⟨S4096, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_3 : Ref sig .tc := ⟨.hbm, 34, rfl⟩
abbrev main_v26 : Ref sig .tc := ⟨.hbm, 35, rfl⟩
abbrev main_v27 : Ref sig .tc := ⟨.hbm, 36, rfl⟩
abbrev main_c_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩
abbrev main_cst_9 : Ref sig .tc := ⟨.hbm, 66, rfl⟩
abbrev main_v52 : Ref sig .tc := ⟨.hbm, 67, rfl⟩
abbrev main_v53 : Ref sig .tc := ⟨.hbm, 68, rfl⟩
abbrev main_cst_10 : Ref sig .tc := ⟨.hbm, 69, rfl⟩
abbrev main_v54 : Ref sig .tc := ⟨.hbm, 70, rfl⟩
abbrev main_cst_11 : Ref sig .tc := ⟨.hbm, 71, rfl⟩
abbrev main_v55 : Ref sig .tc := ⟨.hbm, 72, rfl⟩
abbrev main_v56 : Ref sig .tc := ⟨.hbm, 73, rfl⟩

abbrev nD : Nat := 1
abbrev τ : Topo := Topo.v7x

variable {F : FTy → Type} [FloatOps F]

class Facts₀ : Prop where
  reducesTo_S4096x32_S4096_d1 : S4096x32.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32_0_1 : S4096x1.BroadcastsInDim S4096x32 (![0, 1] : Fin 2 → Fin S4096x32.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  transposes_S4096x1024_S1024x4096_1_0 : S4096x1024.Transposes [1, 0] S1024x4096
  reducesTo_S4096x4096_S4096_d1 : S4096x4096.ReducesTo [1] S4096
  reducesTo_S4096_S_d0 : S4096.ReducesTo [0] S_
  gather_S4096x32_S4096x1_S4096x4096_0_1_n_n_1_1_40961_wf : GatherDims.WF S4096x32 S4096x1 S4096x4096 [0] [1] [] [1] [] 1 ![4096, 1]
  dot_S4096x1024_S1024x4096_S4096x4096_1_0_0_1_n_n_wf : DotDims.WF S4096x1024 S1024x4096 S4096x4096 [1] [0] [0] [1] [] []

variable [Facts₀]

def gather_S4096x32_S4096x1_S4096x4096_0_1_n_n_1_1_40961 : GatherDims S4096x32 S4096x1 S4096x4096 where
  offsetDims := [0]
  collapsedSliceDims := [1]
  operandBatchingDims := []
  startIndicesBatchingDims := []
  startIndexMap := [1]
  indexVectorDim := 1
  sliceSizes := ![4096, 1]
  wf := gather_S4096x32_S4096x1_S4096x4096_0_1_n_n_1_1_40961_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.BState.lean ====
/-
  What the kernel keeps between grid points, as pure functions of what it loads.

  The grid is 4 query blocks by 8 key blocks, walked key-fastest. Five column buffers of 1024 rows live across
  the key blocks of one query block: the running row maximum of the scaled similarities, the running softmax
  normaliser, and three plain running sums (the weighted positive similarities, the positive weights, the
  positive-pair counts). At the first key block of a query block they are reset (maximum to minus infinity, the
  sums to zero); at every key block they are updated from that block's similarities, label-equality mask and
  gathered class weights; at the last key block the output column is formed from them.
  Everything here is stated for any float instance, over the kernel's own named value terms.
-/
import proofs.«431488_j42425686950476_1_alg».proof.Proof.Gen.Kernel.Skeleton
import proofs.«431488_j42425686950476_1_alg».proof.Proof.Gen.Kernel.Launch
import proofs.«431488_j42425686950476_1_alg».proof.Proof.Gen.Kernel.Points
import Idealize.ShloMosaic.Lib.Pipeline.Regions

noncomputable section

namespace Cert.Kernel.Hand

open Cert.Kernel Cert.Kernel.Gen
open Idealize.ShloMosaic Idealize.ShloMosaic.TcCoe
open Idealize.SL Idealize.SL.Sem

variable {F : FTy → Type} [FloatOps F]

/-- The five running columns: row maximum, normaliser, weighted positive similarity sum, positive weight sum,
    positive pair count. -/
structure Scr (F : FTy → Type) where
  mx : Vec F S1024x1 .f32
  z : Vec F S1024x1 .f32
  a : Vec F S1024x1 .f32
  w : Vec F S1024x1 .f32
  mm : Vec F S1024x1 .f32

/-- The columns as the first key block of a query block finds them: the maximum at minus infinity, the sums at zero. -/
def Scr.reset : Scr F := ⟨k0_pay3, k0_pay4, k0_pay5, k0_pay6, k0_pay7⟩

/-- One key block's update of the columns, at grid coordinates `i`, from the query rows' features `fq`, the key
    rows' features `fk`, the query rows' class weights `wq`, and the one-hot labels of the query rows `ohq` and of
    the key rows `ohk`. The maximum and the normaliser are both computed from the OLD maximum. -/
def Scr.upd (i : grid0.Coords) (fq : Vec F S1024x1024 .bf16) (fk : Vec F S512x1024 .bf16) (wq ohq : Vec F S1024x32 .f32)
    (ohk : Vec F S512x32 .f32) (s : Scr F) : Scr F :=
  ⟨k0_pay15 (k0_pay8 fq fk) s.mx,
   k0_pay14 (k0_pay8 fq fk) (k0_pay11 i wq ohk) s.mx s.z,
   k0_pay16 (k0_pay8 fq fk) (k0_pay12 i ohq ohk wq ohk) s.a,
   k0_pay17 (k0_pay12 i ohq ohk wq ohk) s.w,
   k0_pay1 (k0_pay10 i ohq ohk) s.mm⟩

/-- The output column formed from the columns after the last key block. -/
def Scr.out (s : Scr F) : Vec F S1024x1 .f32 := k0_pay2 s.a s.mx s.w s.z s.w s.mm

variable (m : (ℓ : Loc nD τ sig) → Buf (Elt F) ℓ)

/-- @main's buffers on core `c` at launch, -/
abbrev V₀ (c : Dev nD) : Valuation τ sig (Elt F) := fun b => m ((c : Dev nD), b)
/-- after the softmax of the weights, -/
abbrev V₁ (c : Dev nD) : Valuation τ sig (Elt F) := StableHlo.after hostOps0 (V₀ m c)
/-- after the one-hot encoding of the labels, -/
abbrev V₂ (c : Dev nD) : Valuation τ sig (Elt F) := StableHlo.after hostOps0_1 (V₁ m c)
/-- and after the change of format of the features: what the kernel region is entered with. -/
abbrev V₃ (c : Dev nD) : Valuation τ sig (Elt F) := StableHlo.after hostOps0_2 (V₂ m c)

/-- The array behind window `w` as the region finds it. -/
abbrev arr (c : Dev nD) (w : Fin 6) : Buf (Elt F) ((cfg0.win w).arr.view.loc (c : Thread nD τ)) :=
  V₃ m c (Pipeline.arrRef spec0 w)

/-- Window `w`'s block of its array at grid point `t`. -/
abbrev iblk (c : Dev nD) (w : Fin 6) (t : Fin cfg0.N) : ((cfg0.win w).xblock (cfg0.grid.coords t)).Idx → Elt F (cfg0.win w).elt :=
  ((cfg0.win w).blk t).view.read (Elt F) (arr m c w)

/-- The update of point `t` from its five input blocks. -/
abbrev updAt (c : Dev nD) (t : Fin cfg0.N) (s : Scr F) : Scr F :=
  Scr.upd (grid0.coords t) (iblk m c 0 t) (iblk m c 1 t) (iblk m c 2 t) (iblk m c 3 t) (iblk m c 4 t) s

/-- The columns after the body at position `n`: reset first where `n` starts a query block, then updated. -/
def scAt (c : Dev nD) : (n : ℕ) → n < cfg0.N → Scr F
  | 0, hn => updAt m c ⟨0, hn⟩ Scr.reset
  | n + 1, hn => updAt m c ⟨n + 1, hn⟩ (if (n + 1) % 8 = 0 then Scr.reset else scAt c n (Nat.lt_of_succ_lt hn))

theorem scAt_first (c : Dev nD) (t : Fin cfg0.N) (h : t.val % 8 = 0) : scAt m c t.val t.isLt = updAt m c t Scr.reset := by
  obtain ⟨n, hn⟩ := t
  cases n with
  | zero => rfl
  | succ n => exact congrArg (updAt m c ⟨n + 1, hn⟩) (if_pos h)

theorem scAt_next (c : Dev nD) (t : Fin cfg0.N) (h : ¬ t.val % 8 = 0) :
    scAt m c t.val t.isLt = updAt m c t (scAt m c (t.val - 1) (Nat.lt_of_le_of_lt (Nat.sub_le _ _) t.isLt)) := by
  obtain ⟨n, hn⟩ := t
  cases n with
  | zero => exact absurd (Nat.zero_mod _) h
  | succ n => exact congrArg (updAt m c ⟨n + 1, hn⟩) (if_neg h)

/-- What the output window's staging buffer holds after the body at point `t` (consulted only where it is written
    back: the last key block of a query block). -/
abbrev outAt (c : Dev nD) (t : Fin cfg0.N) : Vec F S1024x1 .f32 := (scAt m c t.val t.isLt).out

end Cert.Kernel.Hand

end
-- ==== Proof.BDats.lean ====
/-
  The pipeline's proof data: what each window's staging buffer holds after the body at each grid point, and what
  the kernel keeps between points.

  The five inputs are never written by the body, so after the body each input buffer still holds its array's block.
  The output buffer holds the row values formed from the running columns; it is consulted only at the last key
  block of a query block, where it is written back. Between points the invariant holds the five running columns at
  the contents the previous point left; before the first point they hold anything. Two arrays are read through two
  windows each (the features as query rows and as key rows; the one-hot labels likewise): each such pair divides
  its array's share in two halves.
-/
import proofs.«431488_j42425686950476_1_alg».proof.Proof.BState

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The five running columns' buffers. -/
abbrev scM0 : Memref sig .tc .vmem S1024x1 .f32 := Memref.whole cc0_scratch0
abbrev scM1 : Memref sig .tc .vmem S1024x1 .f32 := Memref.whole cc0_scratch1
abbrev scM2 : Memref sig .tc .vmem S1024x1 .f32 := Memref.whole cc0_scratch2
abbrev scM3 : Memref sig .tc .vmem S1024x1 .f32 := Memref.whole cc0_scratch3
abbrev scM4 : Memref sig .tc .vmem S1024x1 .f32 := Memref.whole cc0_scratch4

/-- The five buffers at the columns `s`. -/
def scrAt (c : Dev nD) (s : Scr F) : sProp 𝕄 :=
  iprop(owns (c : Thread nD τ) scM0 fullShare s.mx ∗ owns (c : Thread nD τ) scM1 fullShare s.z
    ∗ owns (c : Thread nD τ) scM2 fullShare s.a ∗ owns (c : Thread nD τ) scM3 fullShare s.w
    ∗ owns (c : Thread nD τ) scM4 fullShare s.mm)

/-- The invariant before position `n`: before the first point the five buffers at anything; afterwards at what the
    point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => scrAt c (scAt m c n hn)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) : PhiS m c (n + 1) hn = scrAt c (scAt m c n hn) := rfl

theorem PhiS_pos (c : Dev nD) (n : ℕ) (h : n ≤ cfg0.N) (hz : n ≠ 0) :
    PhiS m c n h = scrAt c (scAt m c (n - 1) (by omega)) := by
  cases n with
  | zero => exact absurd rfl hz
  | succ n => rfl

/-- The proof data on core `c`. -/
def dats (_ : Fin 1) (c : Dev nD) : Dat τ (Elt F) Unit ℕ (UR sig nD τ) ℕ cfg0 c where
  A w := arr m c w
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare.left
    | ⟨4, _⟩ => fullShare.right
    | ⟨5, _⟩ => fullShare
  owed _ := 0

theorem A_eq (c : Dev nD) (w : Fin cfg0.W) : (dats m 0 c).A w = arr m c w := by dsimp only [dats]

theorem Phi_castSucc (c : Dev nD) (t : Fin cfg0.N) : (dats m 0 c).Φ t.castSucc = PhiS m c t.val (Nat.le_of_lt t.isLt) := by
  dsimp only [dats]; simp only [Fin.coe_castSucc]

theorem Phi_succ (c : Dev nD) (t : Fin cfg0.N) : (dats m 0 c).Φ t.succ = scrAt c (scAt m c t.val t.isLt) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

end Cert.Kernel.Hand

end
-- ==== Proof.BAfter.lean ====
/-
  @main's buffers after the kernel region and after the host operations that follow it.

  The region writes one array, the column of row values; every other buffer is as the region found it. The four
  host operations after it (reshape to a vector, sum, divide by 4096, negate) then run on those buffers.
-/
import proofs.«431488_j42425686950476_1_alg».proof.Proof.BDats

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

/-- The column of row values as the pipeline leaves it: what the last key block of each query block wrote back. -/
abbrev outArr (c : Dev nD) : Buf (Elt F) ((cfg0.win 5).arr.view.loc (c : Thread nD τ)) := (dats m 0 c).arrAt 5 cfg0.N

/-- @main's buffers when the region is left: as it was entered, the result array at `outArr`. -/
def V₄ (c : Dev nD) : Valuation τ sig (Elt F) :=
  fun b => if h : b = Proc.devRef .tc main_v13 then h ▸ outArr m c else V₃ m c b

theorem V₄_out (c : Dev nD) : V₄ m c (Proc.devRef .tc main_v13) = outArr m c := by
  unfold V₄; rw [dif_pos rfl]

theorem V₄_of_ne (c : Dev nD) (b : DevRef τ sig) (hb : b ≠ Proc.devRef .tc main_v13) : V₄ m c b = V₃ m c b := by
  unfold V₄; rw [dif_neg hb]

/-- and when @main returns: the four operations after the region have run. -/
abbrev V₅ (c : Dev nD) : Valuation τ sig (Elt F) := StableHlo.after hostOps1 (V₄ m c)

end Cert.Kernel.Hand

end
-- ==== Proof.BKBody.lean ====
/-
  The kernel body at one grid point, as a triple over its eleven buffers.

  From the five input buffers at their blocks, the output buffer at anything and the five running columns at any
  contents, the body runs without fault to: the inputs as they were; the columns reset first where the point starts a
  query block (key coordinate 0) and then updated from the blocks; and the output buffer at the row values formed
  from the updated columns where the point ends a query block (key coordinate 7), otherwise as it was.

  Every load and store of the body goes through the whole of its buffer, so a load reads what the buffer holds and a
  store leaves its payload whatever was there before. The body is run once for each way its two conditions can fall;
  in each, what a buffer reads at the end is the payload of its last store, over the values the earlier loads read.
-/
import proofs.«431488_j42425686950476_1_alg».proof.Proof.BDats
import Idealize.ShloMosaic.Lib.Tactic
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The point starts a query block: the body's first branch condition, as the kernel computes it from the key coordinate. -/
abbrev cond1 (i : grid0.Coords) : Prop :=
  (Scalar.cmpi .ne (Scalar.extui (Scalar.cmpi .eq (BitVec.ofNat 32 (i 1).val) 0#32)) 0#32) = 1#1

/-- The columns the update starts from: reset where the point starts a query block. -/
def startOf (i : grid0.Coords) (s : Scr F) : Scr F := open Classical in if cond1 i then Scr.reset else s

/-- What the output buffer holds after the body: the row values where the point ends a query block, else what it held. -/
def outOf (i : grid0.Coords) (X : Vec F S1024x1 .f32) (s : Scr F) : Vec F S1024x1 .f32 :=
  open Classical in if k0_cond2 i = 1#1 then s.out else X

theorem startOf_pos {i : grid0.Coords} (s : Scr F) (h : cond1 i) : startOf i s = Scr.reset := by
  unfold startOf; exact if_pos h

theorem startOf_neg {i : grid0.Coords} (s : Scr F) (h : ¬ cond1 i) : startOf i s = s := by
  unfold startOf; exact if_neg h

theorem outOf_pos {i : grid0.Coords} (X : Vec F S1024x1 .f32) (s : Scr F) (h : k0_cond2 i = 1#1) : outOf i X s = s.out := by
  unfold outOf; exact if_pos h

theorem outOf_neg {i : grid0.Coords} (X : Vec F S1024x1 .f32) (s : Scr F) (h : ¬ k0_cond2 i = 1#1) : outOf i X s = X := by
  unfold outOf; exact if_neg h

/-- The offsets of a rank-two whole-buffer rectangle are zero. -/
theorem hz2 : (![0, 0] : Fin 2 → ℕ) = fun _ => 0 := by
  funext a; fin_cases a <;> rfl

section Whole

variable {Val : EltTy → Type} [∀ e, Nonempty (Val e)] {sg : RefSig} {κ : Kind} {sp : Space} {S : Shape} {e : EltTy}

/-- A buffer whose last write went through the whole shape reads that write's payload, whatever was written before. -/
theorem read_writes_whole (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-- A load of the whole shape after a write of the whole shape reads that write's payload, whatever was written before. -/
theorem readCov_whole (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

end Whole

set_option hygiene false in
/-- What a buffer stored into reads at the end: the last store's payload, in which each load of an input reads the
    input's block, each load of a column before its store reads the column as the body found it (or the reset value
    stored just before), and each load after it reads the stored value; that is the stated value, term by term. -/
local macro "read_back" : tactic => `(tactic| (
  ipureintro
  sl_unfold_run_names
  rw [read_writes_whole _ _ hz2]
  simp only [View.readAt_eq_ld, hf2, hf3, hf4, hf5, hf6, hf7, hg0, hg1, hg2, hg3, hg4,
    View.ld_unit_zero (S := S1024x1024) hz2, View.ld_unit_zero (S := S512x1024) hz2, View.ld_unit_zero (S := S1024x32) hz2,
    View.ld_unit_zero (S := S512x32) hz2, View.ld_unit_zero (S := S1024x1) hz2, readCov_whole (S := S1024x1) _ hz2]
  rfl))

section Cases

variable (c : Dev nD) (i : grid0.Coords)
  (arg2 : Memref sig .tc .vmem S1024x1024 .bf16) (harg2 : arg2.IsWhole) (arg3 : Memref sig .tc .vmem S512x1024 .bf16) (harg3 : arg3.IsWhole)
  (arg4 : Memref sig .tc .vmem S1024x32 .f32) (harg4 : arg4.IsWhole) (arg5 : Memref sig .tc .vmem S1024x32 .f32) (harg5 : arg5.IsWhole)
  (arg6 : Memref sig .tc .vmem S512x32 .f32) (harg6 : arg6.IsWhole) (arg7 : Memref sig .tc .vmem S1024x1 .f32) (harg7 : arg7.IsWhole)
  (fq : Vec F S1024x1024 .bf16) (fk : Vec F S512x1024 .bf16) (wq ohq : Vec F S1024x32 .f32) (ohk : Vec F S512x32 .f32)
  (X : Vec F S1024x1 .f32) (s : Scr F)

/-- The point starts a query block and does not end one: the columns are reset, then updated; the output buffer is untouched. -/
theorem kernelRun_first (h1 : cond1 i) (h2 : ¬ k0_cond2 i = 1#1) :
    (iprop(owns (c : Thread nD τ) arg2 fullShare fq ∗ owns (c : Thread nD τ) arg3 fullShare fk ∗ owns (c : Thread nD τ) arg4 fullShare wq
        ∗ owns (c : Thread nD τ) arg5 fullShare ohq ∗ owns (c : Thread nD τ) arg6 fullShare ohk ∗ owns (c : Thread nD τ) arg7 fullShare X
        ∗ scrAt c s) : sProp 𝕄)
      ⊢ wp frame (wpE (defs₀ (F := F)) Variants.none c none) Set.univ
          (cc0__kernel (F := F) i arg2 harg2 arg3 harg3 arg4 harg4 arg5 harg5 arg6 harg6 arg7 harg7
            scM0 (Memref.isWhole_whole _) scM1 (Memref.isWhole_whole _) scM2 (Memref.isWhole_whole _) scM3 (Memref.isWhole_whole _) scM4 (Memref.isWhole_whole _))
          (fun _ => iprop(owns (c : Thread nD τ) arg2 fullShare fq ∗ owns (c : Thread nD τ) arg3 fullShare fk ∗ owns (c : Thread nD τ) arg4 fullShare wq
            ∗ owns (c : Thread nD τ) arg5 fullShare ohq ∗ owns (c : Thread nD τ) arg6 fullShare ohk
            ∗ owns (c : Thread nD τ) arg7 fullShare X
            ∗ scrAt c (Scr.upd i fq fk wq ohq ohk Scr.reset))) := by
  unfold scrAt owns
  iintro ⟨⟨%f2, %hf2, H2⟩, ⟨%f3, %hf3, H3⟩, ⟨%f4, %hf4, H4⟩, ⟨%f5, %hf5, H5⟩, ⟨%f6, %hf6, H6⟩, ⟨%f7, %hf7, H7⟩,
    ⟨%g0, %hg0, S0⟩, ⟨%g1, %hg1, S1⟩, ⟨%g2, %hg2, S2⟩, ⟨%g3, %hg3, S3⟩, ⟨%g4, %hg4, S4⟩⟩
  sl_unfold [cc0__kernel]
  sl_exec (disch := first | sl_exact h1 | sl_exact h2)
  sl_step
  isplitl [H2]; · iexists f2; isplitr; ipureintro; exact hf2; iexact H2
  isplitl [H3]; · iexists f3; isplitr; ipureintro; exact hf3; iexact H3
  isplitl [H4]; · iexists f4; isplitr; ipureintro; exact hf4; iexact H4
  isplitl [H5]; · iexists f5; isplitr; ipureintro; exact hf5; iexact H5
  isplitl [H6]; · iexists f6; isplitr; ipureintro; exact hf6; iexact H6
  isplitl [H7]; · iexists f7; isplitr; ipureintro; exact hf7; iexact H7
  isplitl [S0]; · iexists _; isplitr; swap; iexact S0; read_back
  isplitl [S1]; · iexists _; isplitr; swap; iexact S1; read_back
  isplitl [S2]; · iexists _; isplitr; swap; iexact S2; read_back
  isplitl [S3]; · iexists _; isplitr; swap; iexact S3; read_back
  iexists _; isplitr; swap; iexact S4; read_back

/-- The point neither starts nor ends a query block: the columns are updated from what they held; the output buffer is untouched. -/
theorem kernelRun_mid (h1 : ¬ cond1 i) (h2 : ¬ k0_cond2 i = 1#1) :
    (iprop(owns (c : Thread nD τ) arg2 fullShare fq ∗ owns (c : Thread nD τ) arg3 fullShare fk ∗ owns (c : Thread nD τ) arg4 fullShare wq
        ∗ owns (c : Thread nD τ) arg5 fullShare ohq ∗ owns (c : Thread nD τ) arg6 fullShare ohk ∗ owns (c : Thread nD τ) arg7 fullShare X
        ∗ scrAt c s) : sProp 𝕄)
      ⊢ wp frame (wpE (defs₀ (F := F)) Variants.none c none) Set.univ
          (cc0__kernel (F := F) i arg2 harg2 arg3 harg3 arg4 harg4 arg5 harg5 arg6 harg6 arg7 harg7
            scM0 (Memref.isWhole_whole _) scM1 (Memref.isWhole_whole _) scM2 (Memref.isWhole_whole _) scM3 (Memref.isWhole_whole _) scM4 (Memref.isWhole_whole _))
          (fun _ => iprop(owns (c : Thread nD τ) arg2 fullShare fq ∗ owns (c : Thread nD τ) arg3 fullShare fk ∗ owns (c : Thread nD τ) arg4 fullShare wq
            ∗ owns (c : Thread nD τ) arg5 fullShare ohq ∗ owns (c : Thread nD τ) arg6 fullShare ohk
            ∗ owns (c : Thread nD τ) arg7 fullShare X
            ∗ scrAt c (Scr.upd i fq fk wq ohq ohk s))) := by
  unfold scrAt owns
  iintro ⟨⟨%f2, %hf2, H2⟩, ⟨%f3, %hf3, H3⟩, ⟨%f4, %hf4, H4⟩, ⟨%f5, %hf5, H5⟩, ⟨%f6, %hf6, H6⟩, ⟨%f7, %hf7, H7⟩,
    ⟨%g0, %hg0, S0⟩, ⟨%g1, %hg1, S1⟩, ⟨%g2, %hg2, S2⟩, ⟨%g3, %hg3, S3⟩, ⟨%g4, %hg4, S4⟩⟩
  sl_unfold [cc0__kernel]
  sl_exec (disch := first | sl_exact h1 | sl_exact h2)
  sl_step
  isplitl [H2]; · iexists f2; isplitr; ipureintro; exact hf2; iexact H2
  isplitl [H3]; · iexists f3; isplitr; ipureintro; exact hf3; iexact H3
  isplitl [H4]; · iexists f4; isplitr; ipureintro; exact hf4; iexact H4
  isplitl [H5]; · iexists f5; isplitr; ipureintro; exact hf5; iexact H5
  isplitl [H6]; · iexists f6; isplitr; ipureintro; exact hf6; iexact H6
  isplitl [H7]; · iexists f7; isplitr; ipureintro; exact hf7; iexact H7
  isplitl [S0]; · iexists _; isplitr; swap; iexact S0; read_back
  isplitl [S1]; · iexists _; isplitr; swap; iexact S1; read_back
  isplitl [S2]; · iexists _; isplitr; swap; iexact S2; read_back
  isplitl [S3]; · iexists _; isplitr; swap; iexact S3; read_back
  iexists _; isplitr; swap; iexact S4; read_back

/-- The point ends a query block without starting one: the columns are updated from what they held, and the output
    buffer is left at the row values formed from the updated columns. -/
theorem kernelRun_last (h1 : ¬ cond1 i) (h2 : k0_cond2 i = 1#1) :
    (iprop(owns (c : Thread nD τ) arg2 fullShare fq ∗ owns (c : Thread nD τ) arg3 fullShare fk ∗ owns (c : Thread nD τ) arg4 fullShare wq
        ∗ owns (c : Thread nD τ) arg5 fullShare ohq ∗ owns (c : Thread nD τ) arg6 fullShare ohk ∗ owns (c : Thread nD τ) arg7 fullShare X
        ∗ scrAt c s) : sProp 𝕄)
      ⊢ wp frame (wpE (defs₀ (F := F)) Variants.none c none) Set.univ
          (cc0__kernel (F := F) i arg2 harg2 arg3 harg3 arg4 harg4 arg5 harg5 arg6 harg6 arg7 harg7
            scM0 (Memref.isWhole_whole _) scM1 (Memref.isWhole_whole _) scM2 (Memref.isWhole_whole _) scM3 (Memref.isWhole_whole _) scM4 (Memref.isWhole_whole _))
          (fun _ => iprop(owns (c : Thread nD τ) arg2 fullShare fq ∗ owns (c : Thread nD τ) arg3 fullShare fk ∗ owns (c : Thread nD τ) arg4 fullShare wq
            ∗ owns (c : Thread nD τ) arg5 fullShare ohq ∗ owns (c : Thread nD τ) arg6 fullShare ohk
            ∗ owns (c : Thread nD τ) arg7 fullShare (Scr.upd i fq fk wq ohq ohk s).out
            ∗ scrAt c (Scr.upd i fq fk wq ohq ohk s))) := by
  unfold scrAt owns
  iintro ⟨⟨%f2, %hf2, H2⟩, ⟨%f3, %hf3, H3⟩, ⟨%f4, %hf4, H4⟩, ⟨%f5, %hf5, H5⟩, ⟨%f6, %hf6, H6⟩, ⟨%f7, %hf7, H7⟩,
    ⟨%g0, %hg0, S0⟩, ⟨%g1, %hg1, S1⟩, ⟨%g2, %hg2, S2⟩, ⟨%g3, %hg3, S3⟩, ⟨%g4, %hg4, S4⟩⟩
  sl_unfold [cc0__kernel]
  sl_exec (disch := first | sl_exact h1 | sl_exact h2)
  sl_step
  isplitl [H2]; · iexists f2; isplitr; ipureintro; exact hf2; iexact H2
  isplitl [H3]; · iexists f3; isplitr; ipureintro; exact hf3; iexact H3
  isplitl [H4]; · iexists f4; isplitr; ipureintro; exact hf4; iexact H4
  isplitl [H5]; · iexists f5; isplitr; ipureintro; exact hf5; iexact H5
  isplitl [H6]; · iexists f6; isplitr; ipureintro; exact hf6; iexact H6
  isplitl [H7]; · iexists _; isplitr; swap; iexact H7; read_back
  isplitl [S0]; · iexists _; isplitr; swap; iexact S0; read_back
  isplitl [S1]; · iexists _; isplitr; swap; iexact S1; read_back
  isplitl [S2]; · iexists _; isplitr; swap; iexact S2; read_back
  isplitl [S3]; · iexists _; isplitr; swap; iexact S3; read_back
  iexists _; isplitr; swap; iexact S4; read_back

/-- The point both starts and ends a query block: the columns are reset, then updated, and the output buffer is left at
    the row values formed from the updated columns. -/
theorem kernelRun_both (h1 : cond1 i) (h2 : k0_cond2 i = 1#1) :
    (iprop(owns (c : Thread nD τ) arg2 fullShare fq ∗ owns (c : Thread nD τ) arg3 fullShare fk ∗ owns (c : Thread nD τ) arg4 fullShare wq
        ∗ owns (c : Thread nD τ) arg5 fullShare ohq ∗ owns (c : Thread nD τ) arg6 fullShare ohk ∗ owns (c : Thread nD τ) arg7 fullShare X
        ∗ scrAt c s) : sProp 𝕄)
      ⊢ wp frame (wpE (defs₀ (F := F)) Variants.none c none) Set.univ
          (cc0__kernel (F := F) i arg2 harg2 arg3 harg3 arg4 harg4 arg5 harg5 arg6 harg6 arg7 harg7
            scM0 (Memref.isWhole_whole _) scM1 (Memref.isWhole_whole _) scM2 (Memref.isWhole_whole _) scM3 (Memref.isWhole_whole _) scM4 (Memref.isWhole_whole _))
          (fun _ => iprop(owns (c : Thread nD τ) arg2 fullShare fq ∗ owns (c : Thread nD τ) arg3 fullShare fk ∗ owns (c : Thread nD τ) arg4 fullShare wq
            ∗ owns (c : Thread nD τ) arg5 fullShare ohq ∗ owns (c : Thread nD τ) arg6 fullShare ohk
            ∗ owns (c : Thread nD τ) arg7 fullShare (Scr.upd i fq fk wq ohq ohk Scr.reset).out
            ∗ scrAt c (Scr.upd i fq fk wq ohq ohk Scr.reset))) := by
  unfold scrAt owns
  iintro ⟨⟨%f2, %hf2, H2⟩, ⟨%f3, %hf3, H3⟩, ⟨%f4, %hf4, H4⟩, ⟨%f5, %hf5, H5⟩, ⟨%f6, %hf6, H6⟩, ⟨%f7, %hf7, H7⟩,
    ⟨%g0, %hg0, S0⟩, ⟨%g1, %hg1, S1⟩, ⟨%g2, %hg2, S2⟩, ⟨%g3, %hg3, S3⟩, ⟨%g4, %hg4, S4⟩⟩
  sl_unfold [cc0__kernel]
  sl_exec (disch := first | sl_exact h1 | sl_exact h2)
  sl_step
  isplitl [H2]; · iexists f2; isplitr; ipureintro; exact hf2; iexact H2
  isplitl [H3]; · iexists f3; isplitr; ipureintro; exact hf3; iexact H3
  isplitl [H4]; · iexists f4; isplitr; ipureintro; exact hf4; iexact H4
  isplitl [H5]; · iexists f5; isplitr; ipureintro; exact hf5; iexact H5
  isplitl [H6]; · iexists f6; isplitr; ipureintro; exact hf6; iexact H6
  isplitl [H7]; · iexists _; isplitr; swap; iexact H7; read_back
  isplitl [S0]; · iexists _; isplitr; swap; iexact S0; read_back
  isplitl [S1]; · iexists _; isplitr; swap; iexact S1; read_back
  isplitl [S2]; · iexists _; isplitr; swap; iexact S2; read_back
  isplitl [S3]; · iexists _; isplitr; swap; iexact S3; read_back
  iexists _; isplitr; swap; iexact S4; read_back

end Cases

theorem kernelRun (c : Dev nD) (i : grid0.Coords)
    (arg2 : Memref sig .tc .vmem S1024x1024 .bf16) (harg2 : arg2.IsWhole) (arg3 : Memref sig .tc .vmem S512x1024 .bf16) (harg3 : arg3.IsWhole)
    (arg4 : Memref sig .tc .vmem S1024x32 .f32) (harg4 : arg4.IsWhole) (arg5 : Memref sig .tc .vmem S1024x32 .f32) (harg5 : arg5.IsWhole)
    (arg6 : Memref sig .tc .vmem S512x32 .f32) (harg6 : arg6.IsWhole) (arg7 : Memref sig .tc .vmem S1024x1 .f32) (harg7 : arg7.IsWhole)
    (fq : Vec F S1024x1024 .bf16) (fk : Vec F S512x1024 .bf16) (wq ohq : Vec F S1024x32 .f32) (ohk : Vec F S512x32 .f32)
    (X : Vec F S1024x1 .f32) (s : Scr F) :
    (iprop(owns (c : Thread nD τ) arg2 fullShare fq ∗ owns (c : Thread nD τ) arg3 fullShare fk ∗ owns (c : Thread nD τ) arg4 fullShare wq
        ∗ owns (c : Thread nD τ) arg5 fullShare ohq ∗ owns (c : Thread nD τ) arg6 fullShare ohk ∗ owns (c : Thread nD τ) arg7 fullShare X
        ∗ scrAt c s) : sProp 𝕄)
      ⊢ wp frame (wpE (defs₀ (F := F)) Variants.none c none) Set.univ
          (cc0__kernel (F := F) i arg2 harg2 arg3 harg3 arg4 harg4 arg5 harg5 arg6 harg6 arg7 harg7
            scM0 (Memref.isWhole_whole _) scM1 (Memref.isWhole_whole _) scM2 (Memref.isWhole_whole _) scM3 (Memref.isWhole_whole _) scM4 (Memref.isWhole_whole _))
          (fun _ => iprop(owns (c : Thread nD τ) arg2 fullShare fq ∗ owns (c : Thread nD τ) arg3 fullShare fk ∗ owns (c : Thread nD τ) arg4 fullShare wq
            ∗ owns (c : Thread nD τ) arg5 fullShare ohq ∗ owns (c : Thread nD τ) arg6 fullShare ohk
            ∗ owns (c : Thread nD τ) arg7 fullShare (outOf i X (Scr.upd i fq fk wq ohq ohk (startOf i s)))
            ∗ scrAt c (Scr.upd i fq fk wq ohq ohk (startOf i s)))) := by
  by_cases h1 : cond1 i <;> by_cases h2 : k0_cond2 i = 1#1
  · rw [startOf_pos s h1, outOf_pos X _ h2]
    exact kernelRun_both c i arg2 harg2 arg3 harg3 arg4 harg4 arg5 harg5 arg6 harg6 arg7 harg7 fq fk wq ohq ohk X s h1 h2
  · rw [startOf_pos s h1, outOf_neg X _ h2]
    exact kernelRun_first c i arg2 harg2 arg3 harg3 arg4 harg4 arg5 harg5 arg6 harg6 arg7 harg7 fq fk wq ohq ohk X s h1 h2
  · rw [startOf_neg s h1, outOf_pos X _ h2]
    exact kernelRun_last c i arg2 harg2 arg3 harg3 arg4 harg4 arg5 harg5 arg6 harg6 arg7 harg7 fq fk wq ohq ohk X s h1 h2
  · rw [startOf_neg s h1, outOf_neg X _ h2]
    exact kernelRun_mid c i arg2 harg2 arg3 harg3 arg4 harg4 arg5 harg5 arg6 harg6 arg7 harg7 fq fk wq ohq ohk X s h1 h2

end Cert.Kernel.Hand

end
-- ==== Proof.BKLaunchA.lean ====
/-
  The three argument arrays after the whole of @main.

  No host operation writes an argument (each stretch writes only the values it defines), and the kernel region
  writes only its result array; so after the softmax of the weights, the one-hot encoding of the labels, the change
  of format of the features, the region and the four operations that follow it, each argument holds what it held
  at launch.
-/
import proofs.«431488_j42425686950476_1_alg».proof.Proof.BAfter
import Idealize.ShloMosaic.Lib.StableHlo.Run

noncomputable section

namespace Cert.Kernel.Hand

open Cert.Kernel Cert.Kernel.Gen
open Idealize.ShloMosaic Idealize.ShloMosaic.TcCoe
open Idealize.SL Idealize.SL.Sem

variable {F : FTy → Type} [FloatOps F]

/-- The softmax of the weights writes no argument. -/
theorem V₅_arg_nw0 (b : Ref sig .tc) (hb : b = main_arg0 ∨ b = main_arg1 ∨ b = main_arg2) :
    ∀ op ∈ (hostOps0 (F := F)), Proc.devRef (τ := τ) .tc b ∉ op.writes := by
  intro op hop
  simp only [List.mem_cons, List.mem_nil_iff, or_false] at hop
  rcases hb with rfl | rfl | rfl <;>
    rcases hop with rfl | rfl | rfl | rfl | rfl | rfl | rfl | rfl | rfl | rfl | rfl | rfl | rfl | rfl <;>
    simp only [StableHlo.unary_writes, StableHlo.binary_writes, StableHlo.nullary_writes, Finset.mem_singleton] <;>
    exact StableHlo.devRef_ne_of_ne (by decide)

/-- The one-hot encoding of the labels writes no argument. -/
theorem V₅_arg_nw01 (b : Ref sig .tc) (hb : b = main_arg0 ∨ b = main_arg1 ∨ b = main_arg2) :
    ∀ op ∈ (hostOps0_1 (F := F)), Proc.devRef (τ := τ) .tc b ∉ op.writes := by
  intro op hop
  simp only [List.mem_cons, List.mem_nil_iff, or_false] at hop
  rcases hb with rfl | rfl | rfl <;>
    rcases hop with rfl | rfl | rfl | rfl | rfl | rfl <;>
    simp only [StableHlo.unary_writes, StableHlo.binary_writes, StableHlo.nullary_writes, Finset.mem_singleton] <;>
    exact StableHlo.devRef_ne_of_ne (by decide)

/-- The change of format of the features writes no argument. -/
theorem V₅_arg_nw02 (b : Ref sig .tc) (hb : b = main_arg0 ∨ b = main_arg1 ∨ b = main_arg2) :
    ∀ op ∈ (hostOps0_2 (F := F)), Proc.devRef (τ := τ) .tc b ∉ op.writes := by
  intro op hop
  simp only [List.mem_cons, List.mem_nil_iff, or_false] at hop
  rcases hb with rfl | rfl | rfl <;>
    rcases hop with rfl <;>
    simp only [StableHlo.unary_writes, Finset.mem_singleton] <;>
    exact StableHlo.devRef_ne_of_ne (by decide)

/-- The four operations after the region (and the reshape that feeds them) write no argument. -/
theorem V₅_arg_nw1 (b : Ref sig .tc) (hb : b = main_arg0 ∨ b = main_arg1 ∨ b = main_arg2) :
    ∀ op ∈ (hostOps1 (F := F)), Proc.devRef (τ := τ) .tc b ∉ op.writes := by
  intro op hop
  simp only [List.mem_cons, List.mem_nil_iff, or_false] at hop
  rcases hb with rfl | rfl | rfl <;>
    rcases hop with rfl | rfl | rfl | rfl | rfl | rfl <;>
    simp only [StableHlo.unary_writes, StableHlo.binary_writes, StableHlo.nullary_writes, StableHlo.reshape_writes,
      Finset.mem_singleton] <;>
    exact StableHlo.devRef_ne_of_ne (by decide)

variable (m : (ℓ : Loc nD τ sig) → Buf (Elt F) ℓ)

/-- AN ARGUMENT AFTER @main holds what it held at launch. -/
theorem V₅_arg (c : Dev nD) (b : Ref sig .tc) (hb : b = main_arg0 ∨ b = main_arg1 ∨ b = main_arg2) :
    V₅ m c (Proc.devRef .tc b) = m ((c.tc : Thread nD τ).loc b) := by
  have hne : Proc.devRef (τ := τ) .tc b ≠ Proc.devRef .tc main_v13 := by
    rcases hb with rfl | rfl | rfl <;> exact StableHlo.devRef_ne_of_ne (by decide)
  show StableHlo.after hostOps1 (V₄ m c) (Proc.devRef .tc b) = _
  rw [StableHlo.after_of_forall_not_mem hostOps1 (V₄ m c) (V₅_arg_nw1 b hb), V₄_of_ne m c _ hne]
  show StableHlo.after hostOps0_2 (V₂ m c) (Proc.devRef .tc b) = _
  rw [StableHlo.after_of_forall_not_mem hostOps0_2 (V₂ m c) (V₅_arg_nw02 b hb)]
  show StableHlo.after hostOps0_1 (V₁ m c) (Proc.devRef .tc b) = _
  rw [StableHlo.after_of_forall_not_mem hostOps0_1 (V₁ m c) (V₅_arg_nw01 b hb)]
  show StableHlo.after hostOps0 (V₀ m c) (Proc.devRef .tc b) = _
  rw [StableHlo.after_of_forall_not_mem hostOps0 (V₀ m c) (V₅_arg_nw0 b hb)]

end Cert.Kernel.Hand

end
-- ==== Proof.BKLaunch.lean ====
/-
  The run of @main: host operations, the kernel region, host operations.

  @main is four stretches of host operations around one kernel region: the softmax of the class scores, the one-hot
  encoding of the labels, the change of format of the features; the region; then the six operations of the negated mean
  (reshape to a vector, a zero constant, sum, the constant 4096, divide, negate).
  From any memory with zero semaphore counters every weakly fair execution terminates without fault; the result
  buffer ends at what those six operations make of the column the region wrote back, and the three argument
  arrays end as they were.
-/
import proofs.«431488_j42425686950476_1_alg».proof.Proof.BAfter
import proofs.«431488_j42425686950476_1_alg».proof.Proof.BKBody
import proofs.«431488_j42425686950476_1_alg».proof.Proof.BKLaunchA
import Idealize.ShloMosaic.Lib.Pipeline.FrameBody

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The setting of the launch -/

/-- The pipeline's ghost state is the whole of the proof's own component. -/
abbrev EP : Emb (UR sig nD τ) 𝕄 := emb₁

/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- The TensorCore's unscoped buffers: the set every host stretch runs within. -/
abbrev ucRefs : Finset (DevRef τ sig) := Pipeline.ucRefs τ sig

/-- What rides beside the buffers through the host stretches: what the core owes, which is nothing. -/
abbrev R (c : Dev nD) : sProp 𝕄 := iprop(∃ W, owes (c : Thread nD τ) (0 : CellTallies nD τ sig Unit) W)

/-! ## The host stretches -/

/-- The softmax of the class scores. -/
def seg0 : Pipeline.HostSeg (Name := ℕ) (U := UR sig nD τ) (pcfgs (F := F)) defs₀ Variants.none L lv :=
  Pipeline.HostSeg.ofOps _ _ _ _ _ ucRefs hostOps0 (fun op h => Pipeline.sub_ucRefs op ((List.forall_iff_forall_mem.mp hostOps0_sub) op h))
    (by intro _ h; (repeat (cases h with | head => rfl | tail _ h => ?_)); exact nomatch h) (V₀ m) R

/-- The one-hot encoding of the labels. -/
def seg0_1 : Pipeline.HostSeg (Name := ℕ) (U := UR sig nD τ) (pcfgs (F := F)) defs₀ Variants.none L lv :=
  Pipeline.HostSeg.ofOps _ _ _ _ _ ucRefs hostOps0_1 (fun op h => Pipeline.sub_ucRefs op ((List.forall_iff_forall_mem.mp hostOps0_1_sub) op h))
    (by intro _ h; (repeat (cases h with | head => rfl | tail _ h => ?_)); exact nomatch h) (V₁ m) R

/-- The change of format of the features. -/
def seg0_2 : Pipeline.HostSeg (Name := ℕ) (U := UR sig nD τ) (pcfgs (F := F)) defs₀ Variants.none L lv :=
  Pipeline.HostSeg.ofOps _ _ _ _ _ ucRefs hostOps0_2 (fun op h => Pipeline.sub_ucRefs op ((List.forall_iff_forall_mem.mp hostOps0_2_sub) op h))
    (by intro _ h; (repeat (cases h with | head => rfl | tail _ h => ?_)); exact nomatch h) (V₂ m) R

/-- The mean of the column the region wrote, negated. -/
def seg1 : Pipeline.HostSeg (Name := ℕ) (U := UR sig nD τ) (pcfgs (F := F)) defs₀ Variants.none L lv :=
  Pipeline.HostSeg.ofOps _ _ _ _ _ ucRefs hostOps1 (fun op h => Pipeline.sub_ucRefs op ((List.forall_iff_forall_mem.mp hostOps1_sub) op h))
    (by intro _ h; (repeat (cases h with | head => rfl | tail _ h => ?_)); exact nomatch h) (V₄ m) R

/-! ## The body obligation -/

/-- The point ends a query block exactly when its position is 7 modulo 8, -/
theorem cond2_iff : ∀ t : Fin cfg0.N, k0_cond2 (grid0.coords t) = 1#1 ↔ t.val % 8 = 7 :=
  (by decide +kernel : ∀ t : Fin grid0.N, k0_cond2 (grid0.coords t) = 1#1 ↔ t.val % 8 = 7)
/-- and starts one exactly when it is 0 modulo 8. -/
theorem cond1_iff : ∀ t : Fin cfg0.N, cond1 (grid0.coords t) ↔ t.val % 8 = 0 :=
  (by decide +kernel : ∀ t : Fin grid0.N, cond1 (grid0.coords t) ↔ t.val % 8 = 0)

/-- Each input window's current buffer holds its block at every point, fetched there or not: the body never writes
    an input buffer, and where the pipeline does not fetch, the block index has not moved. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-- The output window is idle, and not written back, away from the last key block of a query block, -/
theorem idle5_of (t : Fin cfg0.N) (h : ¬ t.val % 8 = 7) : cfg0.idle 5 (cfg0.grid.coords t) = true := by
  show (!(k0_cond2 (grid0.coords t) == 1#1)) = true
  rw [Bool.not_eq_true', beq_eq_false_iff_ne]; exact fun e => h ((cond2_iff t).mp e)
theorem noFlush5_of (t : Fin cfg0.N) (h : ¬ t.val % 8 = 7) : (cfg0.win 5).flush t = false := by
  rw [Bool.eq_false_iff]; exact fun e => h ((flush0_5 t).mp e)
/-- and live there. -/
theorem live5_of (t : Fin cfg0.N) (h : t.val % 8 = 7) : cfg0.idle 5 (cfg0.grid.coords t) = false := by
  show (!(k0_cond2 (grid0.coords t) == 1#1)) = false
  rw [Bool.not_eq_false', beq_iff_eq]; exact (cond2_iff t).mpr h

/-- The body's update, started from what the point before left (or from anything where the point starts a query
    block), makes the columns of this position. -/
theorem upd_eq (c : Dev nD) (t : Fin cfg0.N) (s : Scr F)
    (hs : ¬ t.val % 8 = 0 → s = scAt m c (t.val - 1) (Nat.lt_of_le_of_lt (Nat.sub_le _ _) t.isLt)) :
    Scr.upd (grid0.coords t) (iblk m c 0 t) (iblk m c 1 t) (iblk m c 2 t) (iblk m c 3 t) (iblk m c 4 t) (startOf (grid0.coords t) s)
      = scAt m c t.val t.isLt := by
  by_cases h : t.val % 8 = 0
  · rw [scAt_first m c t h]; unfold startOf; rw [if_pos ((cond1_iff t).mpr h)]
  · rw [scAt_next m c t h, ← hs h]; unfold startOf; rw [if_neg (fun e => h ((cond1_iff t).mp e))]

/-- The five scratch buffers at anything are the running columns at some contents; -/
theorem scopedRest_scr (c : Dev nD) :
    (Pipeline.scopedRest (Ix := Unit) (Name := ℕ) (U := UR sig nD τ) (Lvl := ℕ) (Val := Elt F) spec0 c : sProp 𝕄) ⊢ iprop(∃ s : Scr F, scrAt c s) := by
  rw [scopedRest0_eq]; unfold scrAt; simp only [owns_whole_eq]
  iintro ⟨⟨%f0, H0⟩, ⟨%f1, H1⟩, ⟨%f2, H2⟩, ⟨%f3, H3⟩, ⟨%f4, H4⟩⟩
  iexists (⟨f0, f1, f2, f3, f4⟩ : Scr F)
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists f4; isplitr; · ipureintro; rfl
  iexact H4

/-- and the columns at any contents are the five buffers at something. -/
theorem scr_scopedRest (c : Dev nD) (s : Scr F) :
    scrAt c s ⊢ (Pipeline.scopedRest (Ix := Unit) (Name := ℕ) (U := UR sig nD τ) (Lvl := ℕ) (Val := Elt F) spec0 c : sProp 𝕄) := by
  rw [scopedRest0_eq]; unfold scrAt; simp only [owns_whole_eq]
  iintro ⟨⟨%f0, -, H0⟩, ⟨%f1, -, H1⟩, ⟨%f2, -, H2⟩, ⟨%f3, -, H3⟩, ⟨%f4, -, H4⟩⟩
  isplitl [H0]; · iexists f0; iexact H0
  isplitl [H1]; · iexists f1; iexact H1
  isplitl [H2]; · iexists f2; iexact H2
  isplitl [H3]; · iexists f3; iexact H3
  iexists f4; iexact H4

/-- The invariant before a point is the columns at some contents: after the first point of a query block, those the
    point before left. -/
theorem Phi_pre (c : Dev nD) (t : Fin cfg0.N) :
    (dats m 0 c).Φ t.castSucc ⊢ iprop(∃ s : Scr F,
      ⌜¬ t.val % 8 = 0 → s = scAt m c (t.val - 1) (Nat.lt_of_le_of_lt (Nat.sub_le _ _) t.isLt)⌝ ∗ scrAt c s) := by
  rw [Phi_castSucc]
  by_cases hz : t.val = 0
  · rw [PhiS_zero m c _ _ hz]
    refine (scopedRest_scr c).trans ?_
    iintro ⟨%s, Hs⟩; iexists s; isplitr
    · ipureintro; intro h; exact absurd (by rw [hz]) h
    iexact Hs
  · rw [PhiS_pos m c _ _ hz]
    iintro Hs; iexists _; isplitr
    · ipureintro; intro _; rfl
    iexact Hs

/-- The body at any point: each input buffer holds its block; the invariant hands over the columns; the kernel runs; the
    columns come back at this position's contents; the output buffer holds the row values where the point ends a
    query block, and otherwise what it held. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d)))
    ⊢ wp frame (wpE (defs₀ (F := F)) Variants.none c none) Set.univ (bodyAt0 t) (fun _ =>
      iprop((dats m 0 c).Φ t.succ ∗ (dats m 0 c).owesAt () t.succ
        ∗ (dats m 0 c).leavesExact 0 t ∗ (dats m 0 c).leavesExact 1 t ∗ (dats m 0 c).leavesExact 2 t
        ∗ (dats m 0 c).leavesExact 3 t ∗ (dats m 0 c).leavesExact 4 t ∗ (dats m 0 c).leavesExact 5 t)) := by
  simp only [before0 m c t, before1 m c t, before2 m c t, before3 m c t, before4 m c t]
  rw [show (dats m 0 c).owesAt () t.succ = (dats m 0 c).owesAt () t.castSucc from rfl, Phi_succ]
  rw [show (dats m 0 c).leavesExact 0 t = owns (c : Thread nD τ) (st0_0 t) fullShare ((dats m 0 c).after 0 t) from rfl, after0_0,
    show (dats m 0 c).leavesExact 1 t = owns (c : Thread nD τ) (st0_1 t) fullShare ((dats m 0 c).after 1 t) from rfl, after0_1,
    show (dats m 0 c).leavesExact 2 t = owns (c : Thread nD τ) (st0_2 t) fullShare ((dats m 0 c).after 2 t) from rfl, after0_2,
    show (dats m 0 c).leavesExact 3 t = owns (c : Thread nD τ) (st0_3 t) fullShare ((dats m 0 c).after 3 t) from rfl, after0_3,
    show (dats m 0 c).leavesExact 4 t = owns (c : Thread nD τ) (st0_4 t) fullShare ((dats m 0 c).after 4 t) from rfl, after0_4]
  iintro ⟨HΦ, Ho, ⟨%d0, H0⟩, ⟨%d1, H1⟩, ⟨%d2, H2⟩, ⟨%d3, H3⟩, ⟨%d4, H4⟩, ⟨%d5, H5⟩⟩
  ihave Hs := (Phi_pre m c t) $$ HΦ
  icases Hs with ⟨%s, %hs, Hs⟩
  iapply (wp_wand_r Idealize.ShloMosaic.frame (wpE (defs₀ (F := F)) Variants.none (c : Thread nD τ) none) Set.univ)
  isplitl [H0 H1 H2 H3 H4 H5 Hs]
  · iapply (kernelRun (F := F) c (grid0.coords t) (st0_0 t) _ (st0_1 t) _ (st0_2 t) _ (st0_3 t) _ (st0_4 t) _ (st0_5 t) _
      (iblk m c 0 t) (iblk m c 1 t) (iblk m c 2 t) (iblk m c 3 t) (iblk m c 4 t) ((dats m 0 c).before 5 t d5) s)
    isplitl [H0]; · iexact H0
    isplitl [H1]; · iexact H1
    isplitl [H2]; · iexact H2
    isplitl [H3]; · iexact H3
    isplitl [H4]; · iexact H4
    isplitl [H5]; · iexact H5
    iexact Hs
  rw [upd_eq m c t s hs]
  iintro %_ ⟨H0, H1, H2, H3, H4, H5, Hs⟩
  isplitl [Hs]; · iexact Hs
  isplitl [Ho]; · iexact Ho
  isplitl [H0]; · iexact H0
  isplitl [H1]; · iexact H1
  isplitl [H2]; · iexact H2
  isplitl [H3]; · iexact H3
  isplitl [H4]; · iexact H4
  by_cases h7 : t.val % 8 = 7
  · rw [show (dats m 0 c).leavesExact 5 t = owns (c : Thread nD τ) (st0_5 t) fullShare ((dats m 0 c).after 5 t) from by
      unfold Dat.leavesExact; rw [live5_of t h7], after0_5]
    unfold outOf; rw [if_pos ((cond2_iff t).mpr h7)]
    iexact H5
  · rw [Dat.leavesExact_idle (dats m 0 c) 5 t (idle5_of t h7) (noFlush5_of t h7)]
    unfold outOf; rw [if_neg (fun e => h7 ((cond2_iff t).mp e))]
    iexists d5; iexact H5

/-- The library's body obligation, at every point. -/
theorem body_obligation (c : Dev nD) : BodyObligation (dats m 0 c) (defs₀ (F := F)) Variants.none () Set.univ := fun t => by
  rw [bigSep_W0, bigSep_W0]
  exact sound_body m c t

/-! ## The arrays at the region's ends -/

/-- The four distinct arrays behind the six windows, one by one. -/
theorem arrBufs_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v12) ↦{fullShare} V main_v12) ∗ (((c : Thread nD τ).loc main_v10) ↦{fullShare} V main_v10)
          ∗ (((c : Thread nD τ).loc main_v11) ↦{fullShare} V main_v11) ∗ (((c : Thread nD τ).loc main_v13) ↦{fullShare} V main_v13)) := by
  unfold Pipeline.arrBufs
  exact bigSep_eq_bigSepL_of_eq [main_v12, main_v10, main_v11, main_v13] (by decide) (by decide) _

/-- The windows' arrays as the pipeline holds them, one by one: the features and the one-hot labels each at the two
    halves of the share, the class weights and the result column at the full share. -/
theorem arrays_eq6 (c : Dev nD) (Fn : (w : Fin cfg0.W) → Buf (Elt F) ((cfg0.win w).arr.view.loc (c : Thread nD τ))) :
    (dats m 0 c).arrays Fn
      = iprop((((c : Thread nD τ).loc main_v12) ↦{fullShare.left} Fn 0) ∗ (((c : Thread nD τ).loc main_v12) ↦{fullShare.right} Fn 1)
          ∗ (((c : Thread nD τ).loc main_v10) ↦{fullShare} Fn 2)
          ∗ (((c : Thread nD τ).loc main_v11) ↦{fullShare.left} Fn 3) ∗ (((c : Thread nD τ).loc main_v11) ↦{fullShare.right} Fn 4)
          ∗ (((c : Thread nD τ).loc main_v13) ↦{fullShare} Fn 5)) := by
  unfold Dat.arrays; rw [bigSep_W0]
  rw [(arr_whole0 0).set_eq_univ, (arr_whole0 2).set_eq_univ, (arr_whole0 3).set_eq_univ, (arr_whole0 5).set_eq_univ]
  rfl

/-- At entry each window's array is what the host stretches left behind it. -/
theorem arrAt_zero (c : Dev nD) (w : Fin cfg0.W) : (dats m 0 c).arrAt w 0 = arr m c w := A_eq m c w

/-- ENTRY: the four arrays whole are the six windows' arrays, the two shared ones divided in halves. -/
theorem arrays_entry (c : Dev nD) :
    (Pipeline.arrBufs (Ix := Unit) (Name := ℕ) (U := UR sig nD τ) (Lvl := ℕ) spec0 c (fun b => V₃ m c b) : sProp 𝕄)
      ⊢ (dats m 0 c).arrays ((dats m 0 c).arrAt · 0) := by
  rw [arrBufs_eq, arrays_eq6]
  simp only [arrAt_zero]
  iintro ⟨H12, H10, H11, H13⟩
  ihave H12 := (pointsTo_share (PosShare.mem_left_op_right fullShare)).1 $$ H12
  icases H12 with ⟨H12l, H12r⟩
  ihave H11 := (pointsTo_share (PosShare.mem_left_op_right fullShare)).1 $$ H11
  icases H11 with ⟨H11l, H11r⟩
  isplitl [H12l]; · iexact H12l
  isplitl [H12r]; · iexact H12r
  isplitl [H10]; · iexact H10
  isplitl [H11l]; · iexact H11l
  isplitl [H11r]; · iexact H11r
  iexact H13

/-- An input window's array is never written: after the last point it is what it was at entry. -/
theorem arrAt_last_in (c : Dev nD) (w : Fin cfg0.W) (hin : (cfg0.win w).isOut = false) : (dats m 0 c).arrAt w cfg0.N = arr m c w :=
  ((dats m 0 c).arrAt_in w hin _).trans (A_eq m c w)

/-- EXIT: the six windows' arrays are the four arrays whole again, the halves joined, the result column at what the
    pipeline wrote back. -/
theorem arrays_exit (c : Dev nD) :
    (dats m 0 c).arrays ((dats m 0 c).arrAt · cfg0.N)
      ⊢ (Pipeline.arrBufs (Ix := Unit) (Name := ℕ) (U := UR sig nD τ) (Lvl := ℕ) spec0 c (fun b => V₄ m c b) : sProp 𝕄) := by
  rw [arrBufs_eq, arrays_eq6]
  simp only [arrAt_last_in m c 0 rfl, arrAt_last_in m c 1 rfl, arrAt_last_in m c 2 rfl, arrAt_last_in m c 3 rfl, arrAt_last_in m c 4 rfl]
  rw [V₄_of_ne m c (Proc.devRef .tc main_v12) (StableHlo.devRef_ne_of_ne (by decide)),
    V₄_of_ne m c (Proc.devRef .tc main_v10) (StableHlo.devRef_ne_of_ne (by decide)),
    V₄_of_ne m c (Proc.devRef .tc main_v11) (StableHlo.devRef_ne_of_ne (by decide)), V₄_out]
  iintro ⟨H12l, H12r, H10, H11l, H11r, H13⟩
  isplitl [H12l H12r]
  · iapply (pointsTo_share (PosShare.mem_left_op_right fullShare)).2
    isplitl [H12l]; · iexact H12l
    iexact H12r
  isplitl [H10]; · iexact H10
  isplitl [H11l H11r]
  · iapply (pointsTo_share (PosShare.mem_left_op_right fullShare)).2
    isplitl [H11l]; · iexact H11l
    iexact H11r
  iexact H13

/-- Every unscoped buffer that is no window's array bypasses the region: it leaves as it entered. -/
theorem rest_exit (c : Dev nD) :
    (Pipeline.unscopedRest (Ix := Unit) (Name := ℕ) (U := UR sig nD τ) (Lvl := ℕ) spec0 c (fun b => V₃ m c b) : sProp 𝕄)
      = Pipeline.unscopedRest (Ix := Unit) (Name := ℕ) (U := UR sig nD τ) (Lvl := ℕ) spec0 c (fun b => V₄ m c b) := by
  unfold Pipeline.unscopedRest
  refine bigSep_congr fun b hb => ?_
  have hb' : b ≠ main_v13 := fun e => (Finset.mem_sdiff.mp hb).2 (Finset.mem_image.mpr ⟨5, Finset.mem_univ _, e.symm⟩)
  beta_reduce
  rw [V₄_of_ne m c _ (StableHlo.devRef_ne_of_ne hb')]

/-! ## The region -/

/-- What the core owes, which is nothing, as the pipeline's first point holds it; -/
theorem owesAt_intro (c : Dev nD) (t : Fin (cfg0.N + 1)) :
    R c ⊢ ((dats m 0 c).owesAt () t : sProp 𝕄) := by
  unfold Pipeline.Dat.owesAt Pipeline.owesWithin
  iintro ⟨%W, HO⟩; iexists W; isplitr; · ipureintro; exact fun _ _ => Or.inl trivial
  iexact HO
/-- and as its last point hands it back. -/
theorem owesAt_elim (c : Dev nD) (t : Fin (cfg0.N + 1)) :
    ((dats m 0 c).owesAt () t : sProp 𝕄) ⊢ R c := by
  unfold Pipeline.Dat.owesAt Pipeline.owesWithin
  iintro ⟨%W, -, HO⟩; iexists W; iexact HO

set_option backward.isDefEq.respectTransparency.types false in
/-- THE REGION. It is entered from what the host stretches left: the four arrays behind the windows go to the pipeline,
    the two shared ones in halves; every other unscoped buffer bypasses; the invariant takes only the scratch buffers.
    It is left with the halves joined and the result column at what the pipeline wrote back. -/
def reg0 : Pipeline.RegionSeg (pcfgs (F := F)) adm (dats m) () defs₀ Variants.none L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) ucRefs (V₃ m c) ∗ R c)
  post c := iprop(StableHlo.held (c : Thread nD τ) ucRefs (V₄ m c) ∗ R c)
  X c := iprop(emp)
  Y c := iprop(emp)
  Z c := Pipeline.unscopedRest (Ix := Unit) (Name := ℕ) (U := UR sig nD τ) (Lvl := ℕ) spec0 c (fun b => V₃ m c b)
  hentry c := by
    rw [show StableHlo.held (c : Thread nD τ) ucRefs (V₃ m c)
        = unscopedBufs (Ix := Unit) (Name := ℕ) (U := UR sig nD τ) (Lvl := ℕ) c (fun b => V₃ m c b) from (Pipeline.unscopedBufs_held c _).symm,
      Pipeline.unscopedBufs_split₀ cfgs 0 winFacts₀0.arr_unscoped c, Pipeline.ownSems0_none]
    iintro ⟨⟨⟨Ha, Hz⟩, HO⟩, -, -⟩
    ihave Ha := (arrays_entry m c) $$ Ha
    ihave HO := (owesAt_intro m c 0) $$ HO
    imodintro
    isplitl [Ha]; · iexact Ha
    isplitr; · unfold Pipeline.prefHeld; rw [show (Finset.univ : Finset (Fin 0)) = ∅ from rfl, BI.bigSep_empty]; iempintro
    isplitl [HO]; · iexact HO
    isplitr; · iempintro
    iexact Hz
  hin c := by
    rw [show (dats m 0 c).Φ 0 = PhiS m c 0 (Nat.zero_le _) from rfl, PhiS_zero m c 0 _ rfl]
    iintro ⟨-, -, Hr⟩; iexact Hr
  hout c := by
    rw [Pipeline.ownSems0_none,
      show (dats m 0 c).Φ (Fin.last cfg0.N) = PhiS m c (Fin.last cfg0.N).val (Nat.le_of_lt_succ (Fin.last cfg0.N).isLt) from rfl,
      PhiS_pos m c _ _ (by rw [Fin.val_last]; decide)]
    iintro Hs
    isplitr; · iempintro
    isplitr; · iempintro
    iapply (scr_scopedRest c _); iexact Hs
  hexit c := by
    rw [show StableHlo.held (c : Thread nD τ) ucRefs (V₄ m c)
        = unscopedBufs (Ix := Unit) (Name := ℕ) (U := UR sig nD τ) (Lvl := ℕ) c (fun b => V₄ m c b) from (Pipeline.unscopedBufs_held c _).symm,
      Pipeline.unscopedBufs_split₀ cfgs 0 winFacts₀0.arr_unscoped c, ← rest_exit]
    iintro ⟨Ha, HO, -, HZ⟩
    ihave Ha := (arrays_exit m c) $$ Ha
    ihave HO := (owesAt_elim m c _) $$ HO
    imodintro
    isplitr [HO]
    · isplitl [Ha]; · iexact Ha
      iexact HZ
    iexact HO

/-- @main as the list of the five. -/
abbrev segs : List (Pipeline.Seg (pcfgs (F := F)) adm (dats m) () defs₀ Variants.none L lv) :=
  [.host (seg0 m), .host (seg0_1 m), .host (seg0_2 m), .region (reg0 m), .host (seg1 m)]

set_option backward.isDefEq.respectTransparency.types false in
/-- At the compiled mesh, for any float values, from any memory with zero counters: every weakly fair execution of @main
    on the TensorCores terminates, the result buffer ends at what the six operations after the region make of the column the
    region wrote back, and the three arguments end as they were: no operation writes them and no window of the
    region writes back into them. -/
theorem run_main : θ_run (defs (F := F)) (onTc (τ := τ) (main (F := F))) ⟨m, fun _ => 0, ρ⟩ (fun r => ∀ c : Dev nD,
    r.2.mem ((c.tc : Thread nD τ).loc main_v17) = V₅ m c (Proc.devRef .tc main_v17)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  Pipeline.θ_run_regions_kit (pcfgs (F := F)) adm (dats m) () cellOf_inj EP defs₀ Variants.none L lv m ρ main (segs m)
    (fun c Q => by rw [main_chain, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (EP (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m c) ∗ R c))
    (Tₙ := fun c => StableHlo.held (c : Thread nD τ) ucRefs (V₅ m c))
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c.tc : Thread nD τ).loc main_v17) = V₅ m c (Proc.devRef .tc main_v17)
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => by
      unfold StableHlo.held
      iintro ⟨Hh, HSI⟩
      ihave Hr := (pointsTo_read_all ucRefs (fun b => ((c : Dev nD), b)) (fun b => V₅ m c b) s') $$ [Hh HSI]
      · isplitl [Hh] <;> iassumption
      icases Hr with ⟨%hr, HSI⟩
      imodintro
      isplitr
      · ipureintro
        refine ⟨hr (Proc.devRef .tc main_v17) (show Proc.devRef .tc main_v17 ∈ ucRefs from by decide), ?_, ?_, ?_⟩
        · exact (hr (Proc.devRef .tc main_arg0) (show Proc.devRef .tc main_arg0 ∈ ucRefs from by decide)).trans (V₅_arg m c main_arg0 (.inl rfl))
        · exact (hr (Proc.devRef .tc main_arg1) (show Proc.devRef .tc main_arg1 ∈ ucRefs from by decide)).trans (V₅_arg m c main_arg1 (.inr (.inl rfl)))
        · exact (hr (Proc.devRef .tc main_arg2) (show Proc.devRef .tc main_arg2 ∈ ucRefs from by decide)).trans (V₅_arg m c main_arg2 (.inr (.inr rfl)))
      iexact HSI)
    (hQ := fun _ h => h)

end Cert.Kernel.Hand

end
-- ==== Proof.State.lean ====
/-
  What the kernel keeps between grid points, as pure functions of what it loads.

  The grid is 4 query blocks by 8 key blocks, walked key-fastest. Five column buffers of 1024 rows live across
  the key blocks of one query block: the running row maximum of the scaled similarities, the running softmax
  normaliser, and three plain running sums (the weighted positive similarities, the positive weights, the
  positive-pair counts). At the first key block of a query block they are reset (maximum to minus infinity, the
  sums to zero); at every key block they are updated from that block's similarities, label-equality mask and
  gathered class weights; at the last key block the output column is formed from them.
  Everything here is stated for any float instance, over the kernel's own named value terms.
-/
import proofs.«431488_j42425686950476_1_alg».proof.Proof.Gen.KernelIdeal.Skeleton
import proofs.«431488_j42425686950476_1_alg».proof.Proof.Gen.KernelIdeal.Launch
import proofs.«431488_j42425686950476_1_alg».proof.Proof.Gen.KernelIdeal.Points
import Idealize.ShloMosaic.Lib.Pipeline.Regions

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [Named F]

/-- The five running columns: row maximum, normaliser, weighted positive similarity sum, positive weight sum,
    positive pair count. -/
structure Scr (F : FTy → Type) where
  mx : Vec F S1024x1 .f32
  z : Vec F S1024x1 .f32
  a : Vec F S1024x1 .f32
  w : Vec F S1024x1 .f32
  mm : Vec F S1024x1 .f32

/-- The columns as the first key block of a query block finds them: the maximum at minus infinity, the sums at zero. -/
def Scr.reset : Scr F := ⟨k0_pay3, k0_pay4, k0_pay5, k0_pay6, k0_pay7⟩

/-- One key block's update of the columns, at grid coordinates `i`, from the query rows' features `fq`, the key
    rows' features `fk`, the query rows' class weights `wq`, and the one-hot labels of the query rows `ohq` and of
    the key rows `ohk`. The maximum and the normaliser are both computed from the OLD maximum. -/
def Scr.upd (i : grid0.Coords) (fq : Vec F S1024x1024 .bf16) (fk : Vec F S512x1024 .bf16) (wq ohq : Vec F S1024x32 .f32)
    (ohk : Vec F S512x32 .f32) (s : Scr F) : Scr F :=
  ⟨k0_pay15 (k0_pay8 fq fk) s.mx,
   k0_pay14 (k0_pay8 fq fk) (k0_pay11 i wq ohk) s.mx s.z,
   k0_pay16 (k0_pay8 fq fk) (k0_pay12 i ohq ohk wq ohk) s.a,
   k0_pay17 (k0_pay12 i ohq ohk wq ohk) s.w,
   k0_pay1 (k0_pay10 i ohq ohk) s.mm⟩

/-- The output column formed from the columns after the last key block. -/
def Scr.out (s : Scr F) : Vec F S1024x1 .f32 := k0_pay2 s.a s.mx s.w s.z s.w s.mm

variable (m : (ℓ : Loc nD τ sig) → Buf (Elt F) ℓ)

/-- @main's buffers on core `c` at launch, -/
abbrev V₀ (c : Dev nD) : Valuation τ sig (Elt F) := fun b => m ((c : Dev nD), b)
/-- after the softmax of the weights, -/
abbrev V₁ (c : Dev nD) : Valuation τ sig (Elt F) := StableHlo.after hostOps0 (V₀ m c)
/-- after the one-hot encoding of the labels, -/
abbrev V₂ (c : Dev nD) : Valuation τ sig (Elt F) := StableHlo.after hostOps0_1 (V₁ m c)
/-- and after the change of format of the features: what the kernel region is entered with. -/
abbrev V₃ (c : Dev nD) : Valuation τ sig (Elt F) := StableHlo.after hostOps0_2 (V₂ m c)

/-- The array behind window `w` as the region finds it. -/
abbrev arr (c : Dev nD) (w : Fin 6) : Buf (Elt F) ((cfg0.win w).arr.view.loc (c : Thread nD τ)) :=
  V₃ m c (Pipeline.arrRef spec0 w)

/-- Window `w`'s block of its array at grid point `t`. -/
abbrev iblk (c : Dev nD) (w : Fin 6) (t : Fin cfg0.N) : ((cfg0.win w).xblock (cfg0.grid.coords t)).Idx → Elt F (cfg0.win w).elt :=
  ((cfg0.win w).blk t).view.read (Elt F) (arr m c w)

/-- The update of point `t` from its five input blocks. -/
abbrev updAt (c : Dev nD) (t : Fin cfg0.N) (s : Scr F) : Scr F :=
  Scr.upd (grid0.coords t) (iblk m c 0 t) (iblk m c 1 t) (iblk m c 2 t) (iblk m c 3 t) (iblk m c 4 t) s

/-- The columns after the body at position `n`: reset first where `n` starts a query block, then updated. -/
def scAt (c : Dev nD) : (n : ℕ) → n < cfg0.N → Scr F
  | 0, hn => updAt m c ⟨0, hn⟩ Scr.reset
  | n + 1, hn => updAt m c ⟨n + 1, hn⟩ (if (n + 1) % 8 = 0 then Scr.reset else scAt c n (Nat.lt_of_succ_lt hn))

theorem scAt_first (c : Dev nD) (t : Fin cfg0.N) (h : t.val % 8 = 0) : scAt m c t.val t.isLt = updAt m c t Scr.reset := by
  obtain ⟨n, hn⟩ := t
  cases n with
  | zero => rfl
  | succ n => exact congrArg (updAt m c ⟨n + 1, hn⟩) (if_pos h)

theorem scAt_next (c : Dev nD) (t : Fin cfg0.N) (h : ¬ t.val % 8 = 0) :
    scAt m c t.val t.isLt = updAt m c t (scAt m c (t.val - 1) (Nat.lt_of_le_of_lt (Nat.sub_le _ _) t.isLt)) := by
  obtain ⟨n, hn⟩ := t
  cases n with
  | zero => exact absurd (Nat.zero_mod _) h
  | succ n => exact congrArg (updAt m c ⟨n + 1, hn⟩) (if_neg h)

/-- What the output window's staging buffer holds after the body at point `t` (consulted only where it is written
    back: the last key block of a query block). -/
abbrev outAt (c : Dev nD) (t : Fin cfg0.N) : Vec F S1024x1 .f32 := (scAt m c t.val t.isLt).out

end Cert.KernelIdeal.Hand

end
-- ==== Proof.Dats.lean ====
/-
  The pipeline's proof data: what each window's staging buffer holds after the body at each grid point, and what
  the kernel keeps between points.

  The five inputs are never written by the body, so after the body each input buffer still holds its array's block.
  The output buffer holds the row values formed from the running columns; it is consulted only at the last key
  block of a query block, where it is written back. Between points the invariant holds the five running columns at
  the contents the previous point left; before the first point they hold anything. Two arrays are read through two
  windows each (the features as query rows and as key rows; the one-hot labels likewise): each such pair divides
  its array's share in two halves.
-/
import proofs.«431488_j42425686950476_1_alg».proof.Proof.State

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The five running columns' buffers. -/
abbrev scM0 : Memref sig .tc .vmem S1024x1 .f32 := Memref.whole cc0_scratch0
abbrev scM1 : Memref sig .tc .vmem S1024x1 .f32 := Memref.whole cc0_scratch1
abbrev scM2 : Memref sig .tc .vmem S1024x1 .f32 := Memref.whole cc0_scratch2
abbrev scM3 : Memref sig .tc .vmem S1024x1 .f32 := Memref.whole cc0_scratch3
abbrev scM4 : Memref sig .tc .vmem S1024x1 .f32 := Memref.whole cc0_scratch4

/-- The five buffers at the columns `s`. -/
def scrAt (c : Dev nD) (s : Scr F) : sProp 𝕄 :=
  iprop(owns (c : Thread nD τ) scM0 fullShare s.mx ∗ owns (c : Thread nD τ) scM1 fullShare s.z
    ∗ owns (c : Thread nD τ) scM2 fullShare s.a ∗ owns (c : Thread nD τ) scM3 fullShare s.w
    ∗ owns (c : Thread nD τ) scM4 fullShare s.mm)

/-- The invariant before position `n`: before the first point the five buffers at anything; afterwards at what the
    point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => scrAt c (scAt m c n hn)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) : PhiS m c (n + 1) hn = scrAt c (scAt m c n hn) := rfl

theorem PhiS_pos (c : Dev nD) (n : ℕ) (h : n ≤ cfg0.N) (hz : n ≠ 0) :
    PhiS m c n h = scrAt c (scAt m c (n - 1) (by omega)) := by
  cases n with
  | zero => exact absurd rfl hz
  | succ n => rfl

/-- The proof data on core `c`. -/
def dats (_ : Fin 1) (c : Dev nD) : Dat τ (Elt F) Unit ℕ (UR sig nD τ) ℕ cfg0 c where
  A w := arr m c w
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare.left
    | ⟨4, _⟩ => fullShare.right
    | ⟨5, _⟩ => fullShare
  owed _ := 0

theorem A_eq (c : Dev nD) (w : Fin cfg0.W) : (dats m 0 c).A w = arr m c w := by dsimp only [dats]

theorem Phi_castSucc (c : Dev nD) (t : Fin cfg0.N) : (dats m 0 c).Φ t.castSucc = PhiS m c t.val (Nat.le_of_lt t.isLt) := by
  dsimp only [dats]; simp only [Fin.coe_castSucc]

theorem Phi_succ (c : Dev nD) (t : Fin cfg0.N) : (dats m 0 c).Φ t.succ = scrAt c (scAt m c t.val t.isLt) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

end Cert.KernelIdeal.Hand

end
-- ==== Proof.After.lean ====
/-
  @main's buffers after the kernel region and after the host operations that follow it.

  The region writes one array, the column of row values; every other buffer is as the region found it. The four
  host operations after it (reshape to a vector, sum, divide by 4096, negate) then run on those buffers.
-/
import proofs.«431488_j42425686950476_1_alg».proof.Proof.Dats

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [Named F]

variable (m : (ℓ : Loc nD τ sig) → Buf (Elt F) ℓ)

/-- The column of row values as the pipeline leaves it: what the last key block of each query block wrote back. -/
abbrev outArr (c : Dev nD) : Buf (Elt F) ((cfg0.win 5).arr.view.loc (c : Thread nD τ)) := (dats m 0 c).arrAt 5 cfg0.N

/-- @main's buffers when the region is left: as it was entered, the result array at `outArr`. -/
def V₄ (c : Dev nD) : Valuation τ sig (Elt F) :=
  fun b => if h : b = Proc.devRef .tc main_v13 then h ▸ outArr m c else V₃ m c b

theorem V₄_out (c : Dev nD) : V₄ m c (Proc.devRef .tc main_v13) = outArr m c := by
  unfold V₄; rw [dif_pos rfl]

theorem V₄_of_ne (c : Dev nD) (b : DevRef τ sig) (hb : b ≠ Proc.devRef .tc main_v13) : V₄ m c b = V₃ m c b := by
  unfold V₄; rw [dif_neg hb]

/-- and when @main returns: the four operations after the region have run. -/
abbrev V₅ (c : Dev nD) : Valuation τ sig (Elt F) := StableHlo.after hostOps1 (V₄ m c)

end Cert.KernelIdeal.Hand

end
-- ==== Proof.KBody.lean ====
/-
  The kernel body at one grid point, as a triple over its eleven buffers.

  From the five input buffers at their blocks, the output buffer at anything and the five running columns at any
  contents, the body runs without fault to: the inputs as they were; the columns reset first where the point starts a
  query block (key coordinate 0) and then updated from the blocks; and the output buffer at the row values formed
  from the updated columns where the point ends a query block (key coordinate 7), otherwise as it was.

  Every load and store of the body goes through the whole of its buffer, so a load reads what the buffer holds and a
  store leaves its payload whatever was there before. The body is run once for each way its two conditions can fall;
  in each, what a buffer reads at the end is the payload of its last store, over the values the earlier loads read.
-/
import proofs.«431488_j42425686950476_1_alg».proof.Proof.Dats
import Idealize.ShloMosaic.Lib.Tactic
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The point starts a query block: the body's first branch condition, as the kernel computes it from the key coordinate. -/
abbrev cond1 (i : grid0.Coords) : Prop :=
  (Scalar.cmpi .ne (Scalar.extui (Scalar.cmpi .eq (BitVec.ofNat 32 (i 1).val) 0#32)) 0#32) = 1#1

/-- The columns the update starts from: reset where the point starts a query block. -/
def startOf (i : grid0.Coords) (s : Scr F) : Scr F := open Classical in if cond1 i then Scr.reset else s

/-- What the output buffer holds after the body: the row values where the point ends a query block, else what it held. -/
def outOf (i : grid0.Coords) (X : Vec F S1024x1 .f32) (s : Scr F) : Vec F S1024x1 .f32 :=
  open Classical in if k0_cond2 i = 1#1 then s.out else X

theorem startOf_pos {i : grid0.Coords} (s : Scr F) (h : cond1 i) : startOf i s = Scr.reset := by
  unfold startOf; exact if_pos h

theorem startOf_neg {i : grid0.Coords} (s : Scr F) (h : ¬ cond1 i) : startOf i s = s := by
  unfold startOf; exact if_neg h

theorem outOf_pos {i : grid0.Coords} (X : Vec F S1024x1 .f32) (s : Scr F) (h : k0_cond2 i = 1#1) : outOf i X s = s.out := by
  unfold outOf; exact if_pos h

theorem outOf_neg {i : grid0.Coords} (X : Vec F S1024x1 .f32) (s : Scr F) (h : ¬ k0_cond2 i = 1#1) : outOf i X s = X := by
  unfold outOf; exact if_neg h

/-- The offsets of a rank-two whole-buffer rectangle are zero. -/
theorem hz2 : (![0, 0] : Fin 2 → ℕ) = fun _ => 0 := by
  funext a; fin_cases a <;> rfl

section Whole

variable {Val : EltTy → Type} [∀ e, Nonempty (Val e)] {sg : RefSig} {κ : Kind} {sp : Space} {S : Shape} {e : EltTy}

/-- A buffer whose last write went through the whole shape reads that write's payload, whatever was written before. -/
theorem read_writes_whole (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-- A load of the whole shape after a write of the whole shape reads that write's payload, whatever was written before. -/
theorem readCov_whole (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

end Whole

set_option hygiene false in
/-- What a buffer stored into reads at the end: the last store's payload, in which each load of an input reads the
    input's block, each load of a column before its store reads the column as the body found it (or the reset value
    stored just before), and each load after it reads the stored value; that is the stated value, term by term. -/
local macro "read_back" : tactic => `(tactic| (
  ipureintro
  sl_unfold_run_names
  rw [read_writes_whole _ _ hz2]
  simp only [View.readAt_eq_ld, hf2, hf3, hf4, hf5, hf6, hf7, hg0, hg1, hg2, hg3, hg4,
    View.ld_unit_zero (S := S1024x1024) hz2, View.ld_unit_zero (S := S512x1024) hz2, View.ld_unit_zero (S := S1024x32) hz2,
    View.ld_unit_zero (S := S512x32) hz2, View.ld_unit_zero (S := S1024x1) hz2, readCov_whole (S := S1024x1) _ hz2]
  rfl))

section Cases

variable (c : Dev nD) (i : grid0.Coords)
  (arg2 : Memref sig .tc .vmem S1024x1024 .bf16) (harg2 : arg2.IsWhole) (arg3 : Memref sig .tc .vmem S512x1024 .bf16) (harg3 : arg3.IsWhole)
  (arg4 : Memref sig .tc .vmem S1024x32 .f32) (harg4 : arg4.IsWhole) (arg5 : Memref sig .tc .vmem S1024x32 .f32) (harg5 : arg5.IsWhole)
  (arg6 : Memref sig .tc .vmem S512x32 .f32) (harg6 : arg6.IsWhole) (arg7 : Memref sig .tc .vmem S1024x1 .f32) (harg7 : arg7.IsWhole)
  (fq : Vec F S1024x1024 .bf16) (fk : Vec F S512x1024 .bf16) (wq ohq : Vec F S1024x32 .f32) (ohk : Vec F S512x32 .f32)
  (X : Vec F S1024x1 .f32) (s : Scr F)

/-- The point starts a query block and does not end one: the columns are reset, then updated; the output buffer is untouched. -/
theorem kernelRun_first (h1 : cond1 i) (h2 : ¬ k0_cond2 i = 1#1) :
    (iprop(owns (c : Thread nD τ) arg2 fullShare fq ∗ owns (c : Thread nD τ) arg3 fullShare fk ∗ owns (c : Thread nD τ) arg4 fullShare wq
        ∗ owns (c : Thread nD τ) arg5 fullShare ohq ∗ owns (c : Thread nD τ) arg6 fullShare ohk ∗ owns (c : Thread nD τ) arg7 fullShare X
        ∗ scrAt c s) : sProp 𝕄)
      ⊢ wp frame (wpE (defs₀ (F := F)) Variants.none c none) Set.univ
          (cc0__kernel (F := F) i arg2 harg2 arg3 harg3 arg4 harg4 arg5 harg5 arg6 harg6 arg7 harg7
            scM0 (Memref.isWhole_whole _) scM1 (Memref.isWhole_whole _) scM2 (Memref.isWhole_whole _) scM3 (Memref.isWhole_whole _) scM4 (Memref.isWhole_whole _))
          (fun _ => iprop(owns (c : Thread nD τ) arg2 fullShare fq ∗ owns (c : Thread nD τ) arg3 fullShare fk ∗ owns (c : Thread nD τ) arg4 fullShare wq
            ∗ owns (c : Thread nD τ) arg5 fullShare ohq ∗ owns (c : Thread nD τ) arg6 fullShare ohk
            ∗ owns (c : Thread nD τ) arg7 fullShare X
            ∗ scrAt c (Scr.upd i fq fk wq ohq ohk Scr.reset))) := by
  unfold scrAt owns
  iintro ⟨⟨%f2, %hf2, H2⟩, ⟨%f3, %hf3, H3⟩, ⟨%f4, %hf4, H4⟩, ⟨%f5, %hf5, H5⟩, ⟨%f6, %hf6, H6⟩, ⟨%f7, %hf7, H7⟩,
    ⟨%g0, %hg0, S0⟩, ⟨%g1, %hg1, S1⟩, ⟨%g2, %hg2, S2⟩, ⟨%g3, %hg3, S3⟩, ⟨%g4, %hg4, S4⟩⟩
  sl_unfold [cc0__kernel]
  sl_exec (disch := first | sl_exact h1 | sl_exact h2)
  sl_step
  isplitl [H2]; · iexists f2; isplitr; ipureintro; exact hf2; iexact H2
  isplitl [H3]; · iexists f3; isplitr; ipureintro; exact hf3; iexact H3
  isplitl [H4]; · iexists f4; isplitr; ipureintro; exact hf4; iexact H4
  isplitl [H5]; · iexists f5; isplitr; ipureintro; exact hf5; iexact H5
  isplitl [H6]; · iexists f6; isplitr; ipureintro; exact hf6; iexact H6
  isplitl [H7]; · iexists f7; isplitr; ipureintro; exact hf7; iexact H7
  isplitl [S0]; · iexists _; isplitr; swap; iexact S0; read_back
  isplitl [S1]; · iexists _; isplitr; swap; iexact S1; read_back
  isplitl [S2]; · iexists _; isplitr; swap; iexact S2; read_back
  isplitl [S3]; · iexists _; isplitr; swap; iexact S3; read_back
  iexists _; isplitr; swap; iexact S4; read_back

/-- The point neither starts nor ends a query block: the columns are updated from what they held; the output buffer is untouched. -/
theorem kernelRun_mid (h1 : ¬ cond1 i) (h2 : ¬ k0_cond2 i = 1#1) :
    (iprop(owns (c : Thread nD τ) arg2 fullShare fq ∗ owns (c : Thread nD τ) arg3 fullShare fk ∗ owns (c : Thread nD τ) arg4 fullShare wq
        ∗ owns (c : Thread nD τ) arg5 fullShare ohq ∗ owns (c : Thread nD τ) arg6 fullShare ohk ∗ owns (c : Thread nD τ) arg7 fullShare X
        ∗ scrAt c s) : sProp 𝕄)
      ⊢ wp frame (wpE (defs₀ (F := F)) Variants.none c none) Set.univ
          (cc0__kernel (F := F) i arg2 harg2 arg3 harg3 arg4 harg4 arg5 harg5 arg6 harg6 arg7 harg7
            scM0 (Memref.isWhole_whole _) scM1 (Memref.isWhole_whole _) scM2 (Memref.isWhole_whole _) scM3 (Memref.isWhole_whole _) scM4 (Memref.isWhole_whole _))
          (fun _ => iprop(owns (c : Thread nD τ) arg2 fullShare fq ∗ owns (c : Thread nD τ) arg3 fullShare fk ∗ owns (c : Thread nD τ) arg4 fullShare wq
            ∗ owns (c : Thread nD τ) arg5 fullShare ohq ∗ owns (c : Thread nD τ) arg6 fullShare ohk
            ∗ owns (c : Thread nD τ) arg7 fullShare X
            ∗ scrAt c (Scr.upd i fq fk wq ohq ohk s))) := by
  unfold scrAt owns
  iintro ⟨⟨%f2, %hf2, H2⟩, ⟨%f3, %hf3, H3⟩, ⟨%f4, %hf4, H4⟩, ⟨%f5, %hf5, H5⟩, ⟨%f6, %hf6, H6⟩, ⟨%f7, %hf7, H7⟩,
    ⟨%g0, %hg0, S0⟩, ⟨%g1, %hg1, S1⟩, ⟨%g2, %hg2, S2⟩, ⟨%g3, %hg3, S3⟩, ⟨%g4, %hg4, S4⟩⟩
  sl_unfold [cc0__kernel]
  sl_exec (disch := first | sl_exact h1 | sl_exact h2)
  sl_step
  isplitl [H2]; · iexists f2; isplitr; ipureintro; exact hf2; iexact H2
  isplitl [H3]; · iexists f3; isplitr; ipureintro; exact hf3; iexact H3
  isplitl [H4]; · iexists f4; isplitr; ipureintro; exact hf4; iexact H4
  isplitl [H5]; · iexists f5; isplitr; ipureintro; exact hf5; iexact H5
  isplitl [H6]; · iexists f6; isplitr; ipureintro; exact hf6; iexact H6
  isplitl [H7]; · iexists f7; isplitr; ipureintro; exact hf7; iexact H7
  isplitl [S0]; · iexists _; isplitr; swap; iexact S0; read_back
  isplitl [S1]; · iexists _; isplitr; swap; iexact S1; read_back
  isplitl [S2]; · iexists _; isplitr; swap; iexact S2; read_back
  isplitl [S3]; · iexists _; isplitr; swap; iexact S3; read_back
  iexists _; isplitr; swap; iexact S4; read_back

/-- The point ends a query block without starting one: the columns are updated from what they held, and the output
    buffer is left at the row values formed from the updated columns. -/
theorem kernelRun_last (h1 : ¬ cond1 i) (h2 : k0_cond2 i = 1#1) :
    (iprop(owns (c : Thread nD τ) arg2 fullShare fq ∗ owns (c : Thread nD τ) arg3 fullShare fk ∗ owns (c : Thread nD τ) arg4 fullShare wq
        ∗ owns (c : Thread nD τ) arg5 fullShare ohq ∗ owns (c : Thread nD τ) arg6 fullShare ohk ∗ owns (c : Thread nD τ) arg7 fullShare X
        ∗ scrAt c s) : sProp 𝕄)
      ⊢ wp frame (wpE (defs₀ (F := F)) Variants.none c none) Set.univ
          (cc0__kernel (F := F) i arg2 harg2 arg3 harg3 arg4 harg4 arg5 harg5 arg6 harg6 arg7 harg7
            scM0 (Memref.isWhole_whole _) scM1 (Memref.isWhole_whole _) scM2 (Memref.isWhole_whole _) scM3 (Memref.isWhole_whole _) scM4 (Memref.isWhole_whole _))
          (fun _ => iprop(owns (c : Thread nD τ) arg2 fullShare fq ∗ owns (c : Thread nD τ) arg3 fullShare fk ∗ owns (c : Thread nD τ) arg4 fullShare wq
            ∗ owns (c : Thread nD τ) arg5 fullShare ohq ∗ owns (c : Thread nD τ) arg6 fullShare ohk
            ∗ owns (c : Thread nD τ) arg7 fullShare (Scr.upd i fq fk wq ohq ohk s).out
            ∗ scrAt c (Scr.upd i fq fk wq ohq ohk s))) := by
  unfold scrAt owns
  iintro ⟨⟨%f2, %hf2, H2⟩, ⟨%f3, %hf3, H3⟩, ⟨%f4, %hf4, H4⟩, ⟨%f5, %hf5, H5⟩, ⟨%f6, %hf6, H6⟩, ⟨%f7, %hf7, H7⟩,
    ⟨%g0, %hg0, S0⟩, ⟨%g1, %hg1, S1⟩, ⟨%g2, %hg2, S2⟩, ⟨%g3, %hg3, S3⟩, ⟨%g4, %hg4, S4⟩⟩
  sl_unfold [cc0__kernel]
  sl_exec (disch := first | sl_exact h1 | sl_exact h2)
  sl_step
  isplitl [H2]; · iexists f2; isplitr; ipureintro; exact hf2; iexact H2
  isplitl [H3]; · iexists f3; isplitr; ipureintro; exact hf3; iexact H3
  isplitl [H4]; · iexists f4; isplitr; ipureintro; exact hf4; iexact H4
  isplitl [H5]; · iexists f5; isplitr; ipureintro; exact hf5; iexact H5
  isplitl [H6]; · iexists f6; isplitr; ipureintro; exact hf6; iexact H6
  isplitl [H7]; · iexists _; isplitr; swap; iexact H7; read_back
  isplitl [S0]; · iexists _; isplitr; swap; iexact S0; read_back
  isplitl [S1]; · iexists _; isplitr; swap; iexact S1; read_back
  isplitl [S2]; · iexists _; isplitr; swap; iexact S2; read_back
  isplitl [S3]; · iexists _; isplitr; swap; iexact S3; read_back
  iexists _; isplitr; swap; iexact S4; read_back

/-- The point both starts and ends a query block: the columns are reset, then updated, and the output buffer is left at
    the row values formed from the updated columns. -/
theorem kernelRun_both (h1 : cond1 i) (h2 : k0_cond2 i = 1#1) :
    (iprop(owns (c : Thread nD τ) arg2 fullShare fq ∗ owns (c : Thread nD τ) arg3 fullShare fk ∗ owns (c : Thread nD τ) arg4 fullShare wq
        ∗ owns (c : Thread nD τ) arg5 fullShare ohq ∗ owns (c : Thread nD τ) arg6 fullShare ohk ∗ owns (c : Thread nD τ) arg7 fullShare X
        ∗ scrAt c s) : sProp 𝕄)
      ⊢ wp frame (wpE (defs₀ (F := F)) Variants.none c none) Set.univ
          (cc0__kernel (F := F) i arg2 harg2 arg3 harg3 arg4 harg4 arg5 harg5 arg6 harg6 arg7 harg7
            scM0 (Memref.isWhole_whole _) scM1 (Memref.isWhole_whole _) scM2 (Memref.isWhole_whole _) scM3 (Memref.isWhole_whole _) scM4 (Memref.isWhole_whole _))
          (fun _ => iprop(owns (c : Thread nD τ) arg2 fullShare fq ∗ owns (c : Thread nD τ) arg3 fullShare fk ∗ owns (c : Thread nD τ) arg4 fullShare wq
            ∗ owns (c : Thread nD τ) arg5 fullShare ohq ∗ owns (c : Thread nD τ) arg6 fullShare ohk
            ∗ owns (c : Thread nD τ) arg7 fullShare (Scr.upd i fq fk wq ohq ohk Scr.reset).out
            ∗ scrAt c (Scr.upd i fq fk wq ohq ohk Scr.reset))) := by
  unfold scrAt owns
  iintro ⟨⟨%f2, %hf2, H2⟩, ⟨%f3, %hf3, H3⟩, ⟨%f4, %hf4, H4⟩, ⟨%f5, %hf5, H5⟩, ⟨%f6, %hf6, H6⟩, ⟨%f7, %hf7, H7⟩,
    ⟨%g0, %hg0, S0⟩, ⟨%g1, %hg1, S1⟩, ⟨%g2, %hg2, S2⟩, ⟨%g3, %hg3, S3⟩, ⟨%g4, %hg4, S4⟩⟩
  sl_unfold [cc0__kernel]
  sl_exec (disch := first | sl_exact h1 | sl_exact h2)
  sl_step
  isplitl [H2]; · iexists f2; isplitr; ipureintro; exact hf2; iexact H2
  isplitl [H3]; · iexists f3; isplitr; ipureintro; exact hf3; iexact H3
  isplitl [H4]; · iexists f4; isplitr; ipureintro; exact hf4; iexact H4
  isplitl [H5]; · iexists f5; isplitr; ipureintro; exact hf5; iexact H5
  isplitl [H6]; · iexists f6; isplitr; ipureintro; exact hf6; iexact H6
  isplitl [H7]; · iexists _; isplitr; swap; iexact H7; read_back
  isplitl [S0]; · iexists _; isplitr; swap; iexact S0; read_back
  isplitl [S1]; · iexists _; isplitr; swap; iexact S1; read_back
  isplitl [S2]; · iexists _; isplitr; swap; iexact S2; read_back
  isplitl [S3]; · iexists _; isplitr; swap; iexact S3; read_back
  iexists _; isplitr; swap; iexact S4; read_back

end Cases

theorem kernelRun (c : Dev nD) (i : grid0.Coords)
    (arg2 : Memref sig .tc .vmem S1024x1024 .bf16) (harg2 : arg2.IsWhole) (arg3 : Memref sig .tc .vmem S512x1024 .bf16) (harg3 : arg3.IsWhole)
    (arg4 : Memref sig .tc .vmem S1024x32 .f32) (harg4 : arg4.IsWhole) (arg5 : Memref sig .tc .vmem S1024x32 .f32) (harg5 : arg5.IsWhole)
    (arg6 : Memref sig .tc .vmem S512x32 .f32) (harg6 : arg6.IsWhole) (arg7 : Memref sig .tc .vmem S1024x1 .f32) (harg7 : arg7.IsWhole)
    (fq : Vec F S1024x1024 .bf16) (fk : Vec F S512x1024 .bf16) (wq ohq : Vec F S1024x32 .f32) (ohk : Vec F S512x32 .f32)
    (X : Vec F S1024x1 .f32) (s : Scr F) :
    (iprop(owns (c : Thread nD τ) arg2 fullShare fq ∗ owns (c : Thread nD τ) arg3 fullShare fk ∗ owns (c : Thread nD τ) arg4 fullShare wq
        ∗ owns (c : Thread nD τ) arg5 fullShare ohq ∗ owns (c : Thread nD τ) arg6 fullShare ohk ∗ owns (c : Thread nD τ) arg7 fullShare X
        ∗ scrAt c s) : sProp 𝕄)
      ⊢ wp frame (wpE (defs₀ (F := F)) Variants.none c none) Set.univ
          (cc0__kernel (F := F) i arg2 harg2 arg3 harg3 arg4 harg4 arg5 harg5 arg6 harg6 arg7 harg7
            scM0 (Memref.isWhole_whole _) scM1 (Memref.isWhole_whole _) scM2 (Memref.isWhole_whole _) scM3 (Memref.isWhole_whole _) scM4 (Memref.isWhole_whole _))
          (fun _ => iprop(owns (c : Thread nD τ) arg2 fullShare fq ∗ owns (c : Thread nD τ) arg3 fullShare fk ∗ owns (c : Thread nD τ) arg4 fullShare wq
            ∗ owns (c : Thread nD τ) arg5 fullShare ohq ∗ owns (c : Thread nD τ) arg6 fullShare ohk
            ∗ owns (c : Thread nD τ) arg7 fullShare (outOf i X (Scr.upd i fq fk wq ohq ohk (startOf i s)))
            ∗ scrAt c (Scr.upd i fq fk wq ohq ohk (startOf i s)))) := by
  by_cases h1 : cond1 i <;> by_cases h2 : k0_cond2 i = 1#1
  · rw [startOf_pos s h1, outOf_pos X _ h2]
    exact kernelRun_both c i arg2 harg2 arg3 harg3 arg4 harg4 arg5 harg5 arg6 harg6 arg7 harg7 fq fk wq ohq ohk X s h1 h2
  · rw [startOf_pos s h1, outOf_neg X _ h2]
    exact kernelRun_first c i arg2 harg2 arg3 harg3 arg4 harg4 arg5 harg5 arg6 harg6 arg7 harg7 fq fk wq ohq ohk X s h1 h2
  · rw [startOf_neg s h1, outOf_pos X _ h2]
    exact kernelRun_last c i arg2 harg2 arg3 harg3 arg4 harg4 arg5 harg5 arg6 harg6 arg7 harg7 fq fk wq ohq ohk X s h1 h2
  · rw [startOf_neg s h1, outOf_neg X _ h2]
    exact kernelRun_mid c i arg2 harg2 arg3 harg3 arg4 harg4 arg5 harg5 arg6 harg6 arg7 harg7 fq fk wq ohq ohk X s h1 h2

end Cert.KernelIdeal.Hand

end
-- ==== Proof.KLaunchA.lean ====
/-
  The three argument arrays after the whole of @main.

  No host operation writes an argument (each stretch writes only the values it defines), and the kernel region
  writes only its result array; so after the softmax of the weights, the one-hot encoding of the labels, the change
  of format of the features, the region and the four operations that follow it, each argument holds what it held
  at launch.
-/
import proofs.«431488_j42425686950476_1_alg».proof.Proof.After
import Idealize.ShloMosaic.Lib.StableHlo.Run

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [Named F]

/-- The softmax of the weights writes no argument. -/
theorem V₅_arg_nw0 (b : Ref sig .tc) (hb : b = main_arg0 ∨ b = main_arg1 ∨ b = main_arg2) :
    ∀ op ∈ (hostOps0 (F := F)), Proc.devRef (τ := τ) .tc b ∉ op.writes := by
  intro op hop
  simp only [List.mem_cons, List.mem_nil_iff, or_false] at hop
  rcases hb with rfl | rfl | rfl <;>
    rcases hop with rfl | rfl | rfl | rfl | rfl | rfl | rfl | rfl | rfl | rfl | rfl | rfl | rfl | rfl <;>
    simp only [StableHlo.unary_writes, StableHlo.binary_writes, StableHlo.nullary_writes, Finset.mem_singleton] <;>
    exact StableHlo.devRef_ne_of_ne (by decide)

/-- The one-hot encoding of the labels writes no argument. -/
theorem V₅_arg_nw01 (b : Ref sig .tc) (hb : b = main_arg0 ∨ b = main_arg1 ∨ b = main_arg2) :
    ∀ op ∈ (hostOps0_1 (F := F)), Proc.devRef (τ := τ) .tc b ∉ op.writes := by
  intro op hop
  simp only [List.mem_cons, List.mem_nil_iff, or_false] at hop
  rcases hb with rfl | rfl | rfl <;>
    rcases hop with rfl | rfl | rfl | rfl | rfl | rfl <;>
    simp only [StableHlo.unary_writes, StableHlo.binary_writes, StableHlo.nullary_writes, Finset.mem_singleton] <;>
    exact StableHlo.devRef_ne_of_ne (by decide)

/-- The change of format of the features writes no argument. -/
theorem V₅_arg_nw02 (b : Ref sig .tc) (hb : b = main_arg0 ∨ b = main_arg1 ∨ b = main_arg2) :
    ∀ op ∈ (hostOps0_2 (F := F)), Proc.devRef (τ := τ) .tc b ∉ op.writes := by
  intro op hop
  simp only [List.mem_cons, List.mem_nil_iff, or_false] at hop
  rcases hb with rfl | rfl | rfl <;>
    rcases hop with rfl <;>
    simp only [StableHlo.unary_writes, Finset.mem_singleton] <;>
    exact StableHlo.devRef_ne_of_ne (by decide)

/-- The four operations after the region (and the reshape that feeds them) write no argument. -/
theorem V₅_arg_nw1 (b : Ref sig .tc) (hb : b = main_arg0 ∨ b = main_arg1 ∨ b = main_arg2) :
    ∀ op ∈ (hostOps1 (F := F)), Proc.devRef (τ := τ) .tc b ∉ op.writes := by
  intro op hop
  simp only [List.mem_cons, List.mem_nil_iff, or_false] at hop
  rcases hb with rfl | rfl | rfl <;>
    rcases hop with rfl | rfl | rfl | rfl | rfl | rfl <;>
    simp only [StableHlo.unary_writes, StableHlo.binary_writes, StableHlo.nullary_writes, StableHlo.reshape_writes,
      Finset.mem_singleton] <;>
    exact StableHlo.devRef_ne_of_ne (by decide)

variable (m : (ℓ : Loc nD τ sig) → Buf (Elt F) ℓ)

/-- AN ARGUMENT AFTER @main holds what it held at launch. -/
theorem V₅_arg (c : Dev nD) (b : Ref sig .tc) (hb : b = main_arg0 ∨ b = main_arg1 ∨ b = main_arg2) :
    V₅ m c (Proc.devRef .tc b) = m ((c.tc : Thread nD τ).loc b) := by
  have hne : Proc.devRef (τ := τ) .tc b ≠ Proc.devRef .tc main_v13 := by
    rcases hb with rfl | rfl | rfl <;> exact StableHlo.devRef_ne_of_ne (by decide)
  show StableHlo.after hostOps1 (V₄ m c) (Proc.devRef .tc b) = _
  rw [StableHlo.after_of_forall_not_mem hostOps1 (V₄ m c) (V₅_arg_nw1 b hb), V₄_of_ne m c _ hne]
  show StableHlo.after hostOps0_2 (V₂ m c) (Proc.devRef .tc b) = _
  rw [StableHlo.after_of_forall_not_mem hostOps0_2 (V₂ m c) (V₅_arg_nw02 b hb)]
  show StableHlo.after hostOps0_1 (V₁ m c) (Proc.devRef .tc b) = _
  rw [StableHlo.after_of_forall_not_mem hostOps0_1 (V₁ m c) (V₅_arg_nw01 b hb)]
  show StableHlo.after hostOps0 (V₀ m c) (Proc.devRef .tc b) = _
  rw [StableHlo.after_of_forall_not_mem hostOps0 (V₀ m c) (V₅_arg_nw0 b hb)]

end Cert.KernelIdeal.Hand

end
-- ==== Proof.KLaunch.lean ====
/-
  The run of @main: host operations, the kernel region, host operations.

  @main is four stretches of host operations around one kernel region: the softmax of the class scores, the one-hot
  encoding of the labels, the change of format of the features; the region; then the six operations of the negated mean
  (reshape to a vector, a zero constant, sum, the constant 4096, divide, negate).
  From any memory with zero semaphore counters every weakly fair execution terminates without fault; the result
  buffer ends at what those six operations make of the column the region wrote back, and the three argument
  arrays end as they were.
-/
import proofs.«431488_j42425686950476_1_alg».proof.Proof.After
import proofs.«431488_j42425686950476_1_alg».proof.Proof.KBody
import proofs.«431488_j42425686950476_1_alg».proof.Proof.KLaunchA
import Idealize.ShloMosaic.Lib.Pipeline.FrameBody

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The setting of the launch -/

/-- The pipeline's ghost state is the whole of the proof's own component. -/
abbrev EP : Emb (UR sig nD τ) 𝕄 := emb₁

/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- The TensorCore's unscoped buffers: the set every host stretch runs within. -/
abbrev ucRefs : Finset (DevRef τ sig) := Pipeline.ucRefs τ sig

/-- What rides beside the buffers through the host stretches: what the core owes, which is nothing. -/
abbrev R (c : Dev nD) : sProp 𝕄 := iprop(∃ W, owes (c : Thread nD τ) (0 : CellTallies nD τ sig Unit) W)

/-! ## The host stretches -/

/-- The softmax of the class scores. -/
def seg0 : Pipeline.HostSeg (Name := ℕ) (U := UR sig nD τ) (pcfgs (F := F)) defs₀ Variants.none L lv :=
  Pipeline.HostSeg.ofOps _ _ _ _ _ ucRefs hostOps0 (fun op h => Pipeline.sub_ucRefs op ((List.forall_iff_forall_mem.mp hostOps0_sub) op h))
    (by intro _ h; (repeat (cases h with | head => rfl | tail _ h => ?_)); exact nomatch h) (V₀ m) R

/-- The one-hot encoding of the labels. -/
def seg0_1 : Pipeline.HostSeg (Name := ℕ) (U := UR sig nD τ) (pcfgs (F := F)) defs₀ Variants.none L lv :=
  Pipeline.HostSeg.ofOps _ _ _ _ _ ucRefs hostOps0_1 (fun op h => Pipeline.sub_ucRefs op ((List.forall_iff_forall_mem.mp hostOps0_1_sub) op h))
    (by intro _ h; (repeat (cases h with | head => rfl | tail _ h => ?_)); exact nomatch h) (V₁ m) R

/-- The change of format of the features. -/
def seg0_2 : Pipeline.HostSeg (Name := ℕ) (U := UR sig nD τ) (pcfgs (F := F)) defs₀ Variants.none L lv :=
  Pipeline.HostSeg.ofOps _ _ _ _ _ ucRefs hostOps0_2 (fun op h => Pipeline.sub_ucRefs op ((List.forall_iff_forall_mem.mp hostOps0_2_sub) op h))
    (by intro _ h; (repeat (cases h with | head => rfl | tail _ h => ?_)); exact nomatch h) (V₂ m) R

/-- The mean of the column the region wrote, negated. -/
def seg1 : Pipeline.HostSeg (Name := ℕ) (U := UR sig nD τ) (pcfgs (F := F)) defs₀ Variants.none L lv :=
  Pipeline.HostSeg.ofOps _ _ _ _ _ ucRefs hostOps1 (fun op h => Pipeline.sub_ucRefs op ((List.forall_iff_forall_mem.mp hostOps1_sub) op h))
    (by intro _ h; (repeat (cases h with | head => rfl | tail _ h => ?_)); exact nomatch h) (V₄ m) R

/-! ## The body obligation -/

/-- The point ends a query block exactly when its position is 7 modulo 8, -/
theorem cond2_iff : ∀ t : Fin cfg0.N, k0_cond2 (grid0.coords t) = 1#1 ↔ t.val % 8 = 7 :=
  (by decide +kernel : ∀ t : Fin grid0.N, k0_cond2 (grid0.coords t) = 1#1 ↔ t.val % 8 = 7)
/-- and starts one exactly when it is 0 modulo 8. -/
theorem cond1_iff : ∀ t : Fin cfg0.N, cond1 (grid0.coords t) ↔ t.val % 8 = 0 :=
  (by decide +kernel : ∀ t : Fin grid0.N, cond1 (grid0.coords t) ↔ t.val % 8 = 0)

/-- Each input window's current buffer holds its block at every point, fetched there or not: the body never writes
    an input buffer, and where the pipeline does not fetch, the block index has not moved. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-- The output window is idle, and not written back, away from the last key block of a query block, -/
theorem idle5_of (t : Fin cfg0.N) (h : ¬ t.val % 8 = 7) : cfg0.idle 5 (cfg0.grid.coords t) = true := by
  show (!(k0_cond2 (grid0.coords t) == 1#1)) = true
  rw [Bool.not_eq_true', beq_eq_false_iff_ne]; exact fun e => h ((cond2_iff t).mp e)
theorem noFlush5_of (t : Fin cfg0.N) (h : ¬ t.val % 8 = 7) : (cfg0.win 5).flush t = false := by
  rw [Bool.eq_false_iff]; exact fun e => h ((flush0_5 t).mp e)
/-- and live there. -/
theorem live5_of (t : Fin cfg0.N) (h : t.val % 8 = 7) : cfg0.idle 5 (cfg0.grid.coords t) = false := by
  show (!(k0_cond2 (grid0.coords t) == 1#1)) = false
  rw [Bool.not_eq_false', beq_iff_eq]; exact (cond2_iff t).mpr h

/-- The body's update, started from what the point before left (or from anything where the point starts a query
    block), makes the columns of this position. -/
theorem upd_eq (c : Dev nD) (t : Fin cfg0.N) (s : Scr F)
    (hs : ¬ t.val % 8 = 0 → s = scAt m c (t.val - 1) (Nat.lt_of_le_of_lt (Nat.sub_le _ _) t.isLt)) :
    Scr.upd (grid0.coords t) (iblk m c 0 t) (iblk m c 1 t) (iblk m c 2 t) (iblk m c 3 t) (iblk m c 4 t) (startOf (grid0.coords t) s)
      = scAt m c t.val t.isLt := by
  by_cases h : t.val % 8 = 0
  · rw [scAt_first m c t h]; unfold startOf; rw [if_pos ((cond1_iff t).mpr h)]
  · rw [scAt_next m c t h, ← hs h]; unfold startOf; rw [if_neg (fun e => h ((cond1_iff t).mp e))]

/-- The five scratch buffers at anything are the running columns at some contents; -/
theorem scopedRest_scr (c : Dev nD) :
    (Pipeline.scopedRest (Ix := Unit) (Name := ℕ) (U := UR sig nD τ) (Lvl := ℕ) (Val := Elt F) spec0 c : sProp 𝕄) ⊢ iprop(∃ s : Scr F, scrAt c s) := by
  rw [scopedRest0_eq]; unfold scrAt; simp only [owns_whole_eq]
  iintro ⟨⟨%f0, H0⟩, ⟨%f1, H1⟩, ⟨%f2, H2⟩, ⟨%f3, H3⟩, ⟨%f4, H4⟩⟩
  iexists (⟨f0, f1, f2, f3, f4⟩ : Scr F)
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists f4; isplitr; · ipureintro; rfl
  iexact H4

/-- and the columns at any contents are the five buffers at something. -/
theorem scr_scopedRest (c : Dev nD) (s : Scr F) :
    scrAt c s ⊢ (Pipeline.scopedRest (Ix := Unit) (Name := ℕ) (U := UR sig nD τ) (Lvl := ℕ) (Val := Elt F) spec0 c : sProp 𝕄) := by
  rw [scopedRest0_eq]; unfold scrAt; simp only [owns_whole_eq]
  iintro ⟨⟨%f0, -, H0⟩, ⟨%f1, -, H1⟩, ⟨%f2, -, H2⟩, ⟨%f3, -, H3⟩, ⟨%f4, -, H4⟩⟩
  isplitl [H0]; · iexists f0; iexact H0
  isplitl [H1]; · iexists f1; iexact H1
  isplitl [H2]; · iexists f2; iexact H2
  isplitl [H3]; · iexists f3; iexact H3
  iexists f4; iexact H4

/-- The invariant before a point is the columns at some contents: after the first point of a query block, those the
    point before left. -/
theorem Phi_pre (c : Dev nD) (t : Fin cfg0.N) :
    (dats m 0 c).Φ t.castSucc ⊢ iprop(∃ s : Scr F,
      ⌜¬ t.val % 8 = 0 → s = scAt m c (t.val - 1) (Nat.lt_of_le_of_lt (Nat.sub_le _ _) t.isLt)⌝ ∗ scrAt c s) := by
  rw [Phi_castSucc]
  by_cases hz : t.val = 0
  · rw [PhiS_zero m c _ _ hz]
    refine (scopedRest_scr c).trans ?_
    iintro ⟨%s, Hs⟩; iexists s; isplitr
    · ipureintro; intro h; exact absurd (by rw [hz]) h
    iexact Hs
  · rw [PhiS_pos m c _ _ hz]
    iintro Hs; iexists _; isplitr
    · ipureintro; intro _; rfl
    iexact Hs

/-- The body at any point: each input buffer holds its block; the invariant hands over the columns; the kernel runs; the
    columns come back at this position's contents; the output buffer holds the row values where the point ends a
    query block, and otherwise what it held. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d)))
    ⊢ wp frame (wpE (defs₀ (F := F)) Variants.none c none) Set.univ (bodyAt0 t) (fun _ =>
      iprop((dats m 0 c).Φ t.succ ∗ (dats m 0 c).owesAt () t.succ
        ∗ (dats m 0 c).leavesExact 0 t ∗ (dats m 0 c).leavesExact 1 t ∗ (dats m 0 c).leavesExact 2 t
        ∗ (dats m 0 c).leavesExact 3 t ∗ (dats m 0 c).leavesExact 4 t ∗ (dats m 0 c).leavesExact 5 t)) := by
  simp only [before0 m c t, before1 m c t, before2 m c t, before3 m c t, before4 m c t]
  rw [show (dats m 0 c).owesAt () t.succ = (dats m 0 c).owesAt () t.castSucc from rfl, Phi_succ]
  rw [show (dats m 0 c).leavesExact 0 t = owns (c : Thread nD τ) (st0_0 t) fullShare ((dats m 0 c).after 0 t) from rfl, after0_0,
    show (dats m 0 c).leavesExact 1 t = owns (c : Thread nD τ) (st0_1 t) fullShare ((dats m 0 c).after 1 t) from rfl, after0_1,
    show (dats m 0 c).leavesExact 2 t = owns (c : Thread nD τ) (st0_2 t) fullShare ((dats m 0 c).after 2 t) from rfl, after0_2,
    show (dats m 0 c).leavesExact 3 t = owns (c : Thread nD τ) (st0_3 t) fullShare ((dats m 0 c).after 3 t) from rfl, after0_3,
    show (dats m 0 c).leavesExact 4 t = owns (c : Thread nD τ) (st0_4 t) fullShare ((dats m 0 c).after 4 t) from rfl, after0_4]
  iintro ⟨HΦ, Ho, ⟨%d0, H0⟩, ⟨%d1, H1⟩, ⟨%d2, H2⟩, ⟨%d3, H3⟩, ⟨%d4, H4⟩, ⟨%d5, H5⟩⟩
  ihave Hs := (Phi_pre m c t) $$ HΦ
  icases Hs with ⟨%s, %hs, Hs⟩
  iapply (wp_wand_r Idealize.ShloMosaic.frame (wpE (defs₀ (F := F)) Variants.none (c : Thread nD τ) none) Set.univ)
  isplitl [H0 H1 H2 H3 H4 H5 Hs]
  · iapply (kernelRun (F := F) c (grid0.coords t) (st0_0 t) _ (st0_1 t) _ (st0_2 t) _ (st0_3 t) _ (st0_4 t) _ (st0_5 t) _
      (iblk m c 0 t) (iblk m c 1 t) (iblk m c 2 t) (iblk m c 3 t) (iblk m c 4 t) ((dats m 0 c).before 5 t d5) s)
    isplitl [H0]; · iexact H0
    isplitl [H1]; · iexact H1
    isplitl [H2]; · iexact H2
    isplitl [H3]; · iexact H3
    isplitl [H4]; · iexact H4
    isplitl [H5]; · iexact H5
    iexact Hs
  rw [upd_eq m c t s hs]
  iintro %_ ⟨H0, H1, H2, H3, H4, H5, Hs⟩
  isplitl [Hs]; · iexact Hs
  isplitl [Ho]; · iexact Ho
  isplitl [H0]; · iexact H0
  isplitl [H1]; · iexact H1
  isplitl [H2]; · iexact H2
  isplitl [H3]; · iexact H3
  isplitl [H4]; · iexact H4
  by_cases h7 : t.val % 8 = 7
  · rw [show (dats m 0 c).leavesExact 5 t = owns (c : Thread nD τ) (st0_5 t) fullShare ((dats m 0 c).after 5 t) from by
      unfold Dat.leavesExact; rw [live5_of t h7], after0_5]
    unfold outOf; rw [if_pos ((cond2_iff t).mpr h7)]
    iexact H5
  · rw [Dat.leavesExact_idle (dats m 0 c) 5 t (idle5_of t h7) (noFlush5_of t h7)]
    unfold outOf; rw [if_neg (fun e => h7 ((cond2_iff t).mp e))]
    iexists d5; iexact H5

/-- The library's body obligation, at every point. -/
theorem body_obligation (c : Dev nD) : BodyObligation (dats m 0 c) (defs₀ (F := F)) Variants.none () Set.univ := fun t => by
  rw [bigSep_W0, bigSep_W0]
  exact sound_body m c t

/-! ## The arrays at the region's ends -/

/-- The four distinct arrays behind the six windows, one by one. -/
theorem arrBufs_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v12) ↦{fullShare} V main_v12) ∗ (((c : Thread nD τ).loc main_v10) ↦{fullShare} V main_v10)
          ∗ (((c : Thread nD τ).loc main_v11) ↦{fullShare} V main_v11) ∗ (((c : Thread nD τ).loc main_v13) ↦{fullShare} V main_v13)) := by
  unfold Pipeline.arrBufs
  exact bigSep_eq_bigSepL_of_eq [main_v12, main_v10, main_v11, main_v13] (by decide) (by decide) _

/-- The windows' arrays as the pipeline holds them, one by one: the features and the one-hot labels each at the two
    halves of the share, the class weights and the result column at the full share. -/
theorem arrays_eq6 (c : Dev nD) (Fn : (w : Fin cfg0.W) → Buf (Elt F) ((cfg0.win w).arr.view.loc (c : Thread nD τ))) :
    (dats m 0 c).arrays Fn
      = iprop((((c : Thread nD τ).loc main_v12) ↦{fullShare.left} Fn 0) ∗ (((c : Thread nD τ).loc main_v12) ↦{fullShare.right} Fn 1)
          ∗ (((c : Thread nD τ).loc main_v10) ↦{fullShare} Fn 2)
          ∗ (((c : Thread nD τ).loc main_v11) ↦{fullShare.left} Fn 3) ∗ (((c : Thread nD τ).loc main_v11) ↦{fullShare.right} Fn 4)
          ∗ (((c : Thread nD τ).loc main_v13) ↦{fullShare} Fn 5)) := by
  unfold Dat.arrays; rw [bigSep_W0]
  rw [(arr_whole0 0).set_eq_univ, (arr_whole0 2).set_eq_univ, (arr_whole0 3).set_eq_univ, (arr_whole0 5).set_eq_univ]
  rfl

/-- At entry each window's array is what the host stretches left behind it. -/
theorem arrAt_zero (c : Dev nD) (w : Fin cfg0.W) : (dats m 0 c).arrAt w 0 = arr m c w := A_eq m c w

/-- ENTRY: the four arrays whole are the six windows' arrays, the two shared ones divided in halves. -/
theorem arrays_entry (c : Dev nD) :
    (Pipeline.arrBufs (Ix := Unit) (Name := ℕ) (U := UR sig nD τ) (Lvl := ℕ) spec0 c (fun b => V₃ m c b) : sProp 𝕄)
      ⊢ (dats m 0 c).arrays ((dats m 0 c).arrAt · 0) := by
  rw [arrBufs_eq, arrays_eq6]
  simp only [arrAt_zero]
  iintro ⟨H12, H10, H11, H13⟩
  ihave H12 := (pointsTo_share (PosShare.mem_left_op_right fullShare)).1 $$ H12
  icases H12 with ⟨H12l, H12r⟩
  ihave H11 := (pointsTo_share (PosShare.mem_left_op_right fullShare)).1 $$ H11
  icases H11 with ⟨H11l, H11r⟩
  isplitl [H12l]; · iexact H12l
  isplitl [H12r]; · iexact H12r
  isplitl [H10]; · iexact H10
  isplitl [H11l]; · iexact H11l
  isplitl [H11r]; · iexact H11r
  iexact H13

/-- An input window's array is never written: after the last point it is what it was at entry. -/
theorem arrAt_last_in (c : Dev nD) (w : Fin cfg0.W) (hin : (cfg0.win w).isOut = false) : (dats m 0 c).arrAt w cfg0.N = arr m c w :=
  ((dats m 0 c).arrAt_in w hin _).trans (A_eq m c w)

/-- EXIT: the six windows' arrays are the four arrays whole again, the halves joined, the result column at what the
    pipeline wrote back. -/
theorem arrays_exit (c : Dev nD) :
    (dats m 0 c).arrays ((dats m 0 c).arrAt · cfg0.N)
      ⊢ (Pipeline.arrBufs (Ix := Unit) (Name := ℕ) (U := UR sig nD τ) (Lvl := ℕ) spec0 c (fun b => V₄ m c b) : sProp 𝕄) := by
  rw [arrBufs_eq, arrays_eq6]
  simp only [arrAt_last_in m c 0 rfl, arrAt_last_in m c 1 rfl, arrAt_last_in m c 2 rfl, arrAt_last_in m c 3 rfl, arrAt_last_in m c 4 rfl]
  rw [V₄_of_ne m c (Proc.devRef .tc main_v12) (StableHlo.devRef_ne_of_ne (by decide)),
    V₄_of_ne m c (Proc.devRef .tc main_v10) (StableHlo.devRef_ne_of_ne (by decide)),
    V₄_of_ne m c (Proc.devRef .tc main_v11) (StableHlo.devRef_ne_of_ne (by decide)), V₄_out]
  iintro ⟨H12l, H12r, H10, H11l, H11r, H13⟩
  isplitl [H12l H12r]
  · iapply (pointsTo_share (PosShare.mem_left_op_right fullShare)).2
    isplitl [H12l]; · iexact H12l
    iexact H12r
  isplitl [H10]; · iexact H10
  isplitl [H11l H11r]
  · iapply (pointsTo_share (PosShare.mem_left_op_right fullShare)).2
    isplitl [H11l]; · iexact H11l
    iexact H11r
  iexact H13

/-- Every unscoped buffer that is no window's array bypasses the region: it leaves as it entered. -/
theorem rest_exit (c : Dev nD) :
    (Pipeline.unscopedRest (Ix := Unit) (Name := ℕ) (U := UR sig nD τ) (Lvl := ℕ) spec0 c (fun b => V₃ m c b) : sProp 𝕄)
      = Pipeline.unscopedRest (Ix := Unit) (Name := ℕ) (U := UR sig nD τ) (Lvl := ℕ) spec0 c (fun b => V₄ m c b) := by
  unfold Pipeline.unscopedRest
  refine bigSep_congr fun b hb => ?_
  have hb' : b ≠ main_v13 := fun e => (Finset.mem_sdiff.mp hb).2 (Finset.mem_image.mpr ⟨5, Finset.mem_univ _, e.symm⟩)
  beta_reduce
  rw [V₄_of_ne m c _ (StableHlo.devRef_ne_of_ne hb')]

/-! ## The region -/

/-- What the core owes, which is nothing, as the pipeline's first point holds it; -/
theorem owesAt_intro (c : Dev nD) (t : Fin (cfg0.N + 1)) :
    R c ⊢ ((dats m 0 c).owesAt () t : sProp 𝕄) := by
  unfold Pipeline.Dat.owesAt Pipeline.owesWithin
  iintro ⟨%W, HO⟩; iexists W; isplitr; · ipureintro; exact fun _ _ => Or.inl trivial
  iexact HO
/-- and as its last point hands it back. -/
theorem owesAt_elim (c : Dev nD) (t : Fin (cfg0.N + 1)) :
    ((dats m 0 c).owesAt () t : sProp 𝕄) ⊢ R c := by
  unfold Pipeline.Dat.owesAt Pipeline.owesWithin
  iintro ⟨%W, -, HO⟩; iexists W; iexact HO

set_option backward.isDefEq.respectTransparency.types false in
/-- THE REGION. It is entered from what the host stretches left: the four arrays behind the windows go to the pipeline,
    the two shared ones in halves; every other unscoped buffer bypasses; the invariant takes only the scratch buffers.
    It is left with the halves joined and the result column at what the pipeline wrote back. -/
def reg0 : Pipeline.RegionSeg (pcfgs (F := F)) adm (dats m) () defs₀ Variants.none L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) ucRefs (V₃ m c) ∗ R c)
  post c := iprop(StableHlo.held (c : Thread nD τ) ucRefs (V₄ m c) ∗ R c)
  X c := iprop(emp)
  Y c := iprop(emp)
  Z c := Pipeline.unscopedRest (Ix := Unit) (Name := ℕ) (U := UR sig nD τ) (Lvl := ℕ) spec0 c (fun b => V₃ m c b)
  hentry c := by
    rw [show StableHlo.held (c : Thread nD τ) ucRefs (V₃ m c)
        = unscopedBufs (Ix := Unit) (Name := ℕ) (U := UR sig nD τ) (Lvl := ℕ) c (fun b => V₃ m c b) from (Pipeline.unscopedBufs_held c _).symm,
      Pipeline.unscopedBufs_split₀ cfgs 0 winFacts₀0.arr_unscoped c, Pipeline.ownSems0_none]
    iintro ⟨⟨⟨Ha, Hz⟩, HO⟩, -, -⟩
    ihave Ha := (arrays_entry m c) $$ Ha
    ihave HO := (owesAt_intro m c 0) $$ HO
    imodintro
    isplitl [Ha]; · iexact Ha
    isplitr; · unfold Pipeline.prefHeld; rw [show (Finset.univ : Finset (Fin 0)) = ∅ from rfl, BI.bigSep_empty]; iempintro
    isplitl [HO]; · iexact HO
    isplitr; · iempintro
    iexact Hz
  hin c := by
    rw [show (dats m 0 c).Φ 0 = PhiS m c 0 (Nat.zero_le _) from rfl, PhiS_zero m c 0 _ rfl]
    iintro ⟨-, -, Hr⟩; iexact Hr
  hout c := by
    rw [Pipeline.ownSems0_none,
      show (dats m 0 c).Φ (Fin.last cfg0.N) = PhiS m c (Fin.last cfg0.N).val (Nat.le_of_lt_succ (Fin.last cfg0.N).isLt) from rfl,
      PhiS_pos m c _ _ (by rw [Fin.val_last]; decide)]
    iintro Hs
    isplitr; · iempintro
    isplitr; · iempintro
    iapply (scr_scopedRest c _); iexact Hs
  hexit c := by
    rw [show StableHlo.held (c : Thread nD τ) ucRefs (V₄ m c)
        = unscopedBufs (Ix := Unit) (Name := ℕ) (U := UR sig nD τ) (Lvl := ℕ) c (fun b => V₄ m c b) from (Pipeline.unscopedBufs_held c _).symm,
      Pipeline.unscopedBufs_split₀ cfgs 0 winFacts₀0.arr_unscoped c, ← rest_exit]
    iintro ⟨Ha, HO, -, HZ⟩
    ihave Ha := (arrays_exit m c) $$ Ha
    ihave HO := (owesAt_elim m c _) $$ HO
    imodintro
    isplitr [HO]
    · isplitl [Ha]; · iexact Ha
      iexact HZ
    iexact HO

/-- @main as the list of the five. -/
abbrev segs : List (Pipeline.Seg (pcfgs (F := F)) adm (dats m) () defs₀ Variants.none L lv) :=
  [.host (seg0 m), .host (seg0_1 m), .host (seg0_2 m), .region (reg0 m), .host (seg1 m)]

set_option backward.isDefEq.respectTransparency.types false in
/-- At the compiled mesh, for any float values, from any memory with zero counters: every weakly fair execution of @main
    on the TensorCores terminates, the result buffer ends at what the six operations after the region make of the column the
    region wrote back, and the three arguments end as they were: no operation writes them and no window of the
    region writes back into them. -/
theorem run_main : θ_run (defs (F := F)) (onTc (τ := τ) (main (F := F))) ⟨m, fun _ => 0, ρ⟩ (fun r => ∀ c : Dev nD,
    r.2.mem ((c.tc : Thread nD τ).loc main_v17) = V₅ m c (Proc.devRef .tc main_v17)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  Pipeline.θ_run_regions_kit (pcfgs (F := F)) adm (dats m) () cellOf_inj EP defs₀ Variants.none L lv m ρ main (segs m)
    (fun c Q => by rw [main_chain, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (EP (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m c) ∗ R c))
    (Tₙ := fun c => StableHlo.held (c : Thread nD τ) ucRefs (V₅ m c))
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c.tc : Thread nD τ).loc main_v17) = V₅ m c (Proc.devRef .tc main_v17)
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => by
      unfold StableHlo.held
      iintro ⟨Hh, HSI⟩
      ihave Hr := (pointsTo_read_all ucRefs (fun b => ((c : Dev nD), b)) (fun b => V₅ m c b) s') $$ [Hh HSI]
      · isplitl [Hh] <;> iassumption
      icases Hr with ⟨%hr, HSI⟩
      imodintro
      isplitr
      · ipureintro
        refine ⟨hr (Proc.devRef .tc main_v17) (show Proc.devRef .tc main_v17 ∈ ucRefs from by decide), ?_, ?_, ?_⟩
        · exact (hr (Proc.devRef .tc main_arg0) (show Proc.devRef .tc main_arg0 ∈ ucRefs from by decide)).trans (V₅_arg m c main_arg0 (.inl rfl))
        · exact (hr (Proc.devRef .tc main_arg1) (show Proc.devRef .tc main_arg1 ∈ ucRefs from by decide)).trans (V₅_arg m c main_arg1 (.inr (.inl rfl)))
        · exact (hr (Proc.devRef .tc main_arg2) (show Proc.devRef .tc main_arg2 ∈ ucRefs from by decide)).trans (V₅_arg m c main_arg2 (.inr (.inr rfl)))
      iexact HSI)
    (hQ := fun _ h => h)

end Cert.KernelIdeal.Hand

end
-- ==== Proof.Spec.lean ====
/-
  The loss both programs compute, as mathematics on the extended reals.

  For 4096 samples with feature rows f_i, labels l_i in 32 classes and class weights w_i (a softmax row, positive):
  with s_ij = <f_i, f_j> / T the scaled similarity, e_ij = 1 off the diagonal and 0 on it,
  wm_ij = w_i[l_j] * e_ij the weight sample i gives to j's class, mk_ij = [l_i = l_j] * e_ij the positive-pair mask,
  the row value is

      ( sum_j wm_ij mk_ij ((s_ij - M_i) - log Z_i) ) / ( sum_j mk_ij ),   M_i = max_j s_ij,  Z_i = sum_j exp(s_ij - M_i) wm_ij,

  and the loss is minus the mean of the row values. `refRow` is that row value as written; `kerRow` is the same
  quantity accumulated over eight blocks of 512 columns with a running maximum (the normaliser rescaled whenever the
  maximum grows, the three plain sums accumulated directly) and closed as (A - M W - log Z * W) / MM.
-/
import Idealize.ShloMosaic.PureOps.Ideal
import Idealize.ShloMosaic.Lib.ValueIdx

noncomputable section

namespace Cert.Spec

open Idealize.ShloMosaic

/-- The row value in the reference's arrangement: the maximum over the whole row first, then the normaliser, then
    the weighted sum of log-probabilities over the positive pairs, divided by their count. -/
def refRow (s wm mk : Fin 4096 → EReal) : EReal :=
  Ideal.div
    (0 + ∑ j : Fin 4096, (wm j * mk j) *
      ((s j - (Finset.univ : Finset (Fin 4096)).fold max ⊥ s)
        - Ideal.log (0 + ∑ j' : Fin 4096, Ideal.exp (s j' - (Finset.univ : Finset (Fin 4096)).fold max ⊥ s) * wm j')))
    (0 + ∑ j : Fin 4096, mk j)

/-- The five running quantities of one row. -/
structure RowSt where
  mx : EReal
  z : EReal
  a : EReal
  w : EReal
  mm : EReal

/-- Before the first block: the maximum at minus infinity, the sums at zero. -/
def RowSt.init : RowSt := ⟨⊥, 0, 0, 0, 0⟩

/-- One block of 512 columns: the new maximum; the normaliser rescaled by exp(old maximum - new maximum) plus the
    block's terms at the new maximum; the three plain sums. -/
def RowSt.step (st : RowSt) (sb wmb mkb : Fin 512 → EReal) : RowSt :=
  { mx := max st.mx ((Finset.univ : Finset (Fin 512)).fold max ⊥ sb)
    z := st.z * Ideal.exp (st.mx - max st.mx ((Finset.univ : Finset (Fin 512)).fold max ⊥ sb))
          + ∑ j : Fin 512, Ideal.exp (sb j - max st.mx ((Finset.univ : Finset (Fin 512)).fold max ⊥ sb)) * wmb j
    a := st.a + ∑ j : Fin 512, (wmb j * mkb j) * sb j
    w := st.w + ∑ j : Fin 512, wmb j * mkb j
    mm := st.mm + ∑ j : Fin 512, mkb j }

/-- The running quantities after the first `k` blocks. -/
def RowSt.after (sb wmb mkb : ℕ → Fin 512 → EReal) : ℕ → RowSt
  | 0 => RowSt.init
  | k + 1 => (RowSt.after sb wmb mkb k).step (sb k) (wmb k) (mkb k)

/-- The row value closed from the running quantities. -/
def RowSt.close (st : RowSt) : EReal :=
  Ideal.div ((st.a - st.mx * st.w) - Ideal.log st.z * st.w) st.mm

/-- Column `j` of block `k` in the whole row (columns past the row's end read the last one: never met below 8 blocks). -/
def col (k : ℕ) (j : Fin 512) : Fin 4096 := ⟨min (k * 512 + j.val) 4095, by omega⟩

/-- The row value in the kernel's arrangement: eight blocks of 512 columns, then closed. -/
def kerRow (s wm mk : Fin 4096 → EReal) : EReal :=
  (RowSt.after (fun k j => s (col k j)) (fun k j => wm (col k j)) (fun k j => mk (col k j)) 8).close

/-! ## The quantities of the two programs -/

/-- One off the diagonal, zero on it. -/
def offd (i j : Fin 4096) : EReal := if i = j then 0 else 1

/-- The softmax of a row of 32 class scores, shifted by the row's maximum. -/
def smx (x : Fin 32 → EReal) (c : Fin 32) : EReal :=
  Ideal.div (Ideal.exp (x c - max ⊥ ((Finset.univ : Finset (Fin 32)).fold max ⊥ x)))
    (0 + ∑ c' : Fin 32, Ideal.exp (x c' - max ⊥ ((Finset.univ : Finset (Fin 32)).fold max ⊥ x)))

/-- The reciprocal of the temperature: exactly one over the binary value the reference divides by. -/
def invT : EReal := ((134217728 / 9395241 : ℝ) : EReal)

/-- A label word as a class index (a word outside the 32 classes reduced into them: never met under the
    precondition, which keeps every label in range). -/
def labOf (l : BitVec 32) : Fin 32 := ⟨l.toNat % 32, Nat.mod_lt _ (by decide)⟩

section
variable (feat : Fin 4096 → Fin 1024 → EReal) (lab : Fin 4096 → Fin 32) (wts : Fin 4096 → Fin 32 → EReal)

/-- The scaled similarity of samples i and j. -/
def sim (i j : Fin 4096) : EReal := (∑ d : Fin 1024, feat i d * feat j d) * invT

/-- The weight sample i gives to sample j's class, off the diagonal. -/
def wmS (i j : Fin 4096) : EReal := smx (wts i) (lab j) * offd i j

/-- The positive-pair mask: equal labels, off the diagonal. -/
def mkS (i j : Fin 4096) : EReal := (if lab i = lab j then 1 else 0) * offd i j

/-- Sample i's row value. -/
def rowVal (i : Fin 4096) : EReal := refRow (sim feat i) (wmS lab wts i) (mkS lab i)

/-- The same in the kernel's arrangement. -/
def rowValK (i : Fin 4096) : EReal := kerRow (sim feat i) (wmS lab wts i) (mkS lab i)

/-- Minus the mean of a column of 4096 row values. -/
def negMean (v : Fin 4096 → EReal) : EReal := -(Ideal.div (0 + ∑ i : Fin 4096, v i) (Ideal.ofBits .f32 0x45800000#32))

/-- The loss. -/
def loss : EReal := negMean (rowVal feat lab wts)

/-- The loss in the kernel's arrangement of each row. -/
def lossK : EReal := negMean (rowValK feat lab wts)

end

/-! ## The argument arrays as plain functions -/

/-- The feature matrix, by sample and coordinate. -/
def featOf (x0 : (⟨2, ![4096, 1024]⟩ : Shape).Idx → EReal) (i : Fin 4096) (d : Fin 1024) : EReal := x0 (ValueIdx.ix2 i d)

/-- The class scores, by sample and class. -/
def wtsOf (x2 : (⟨2, ![4096, 32]⟩ : Shape).Idx → EReal) (i : Fin 4096) (c : Fin 32) : EReal := x2 (ValueIdx.ix2 i c)

/-- The labels, by sample, as class indices. -/
def labsOf (x1 : (⟨1, ![4096]⟩ : Shape).Idx → BitVec 32) (j : Fin 4096) : Fin 32 := labOf (x1 (ValueIdx.ix1 j))

end Cert.Spec

end
-- ==== Proof.Consts.lean ====
/-
  The float patterns the two programs spell, as the extended reals they denote: zero, one, the two infinities,
  4096, and the reference's temperature 0.07 in binary32, which is exactly 9395241 / 2^27.
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_neg_inf : Ideal.ofBits .f32 0xFF800000#32 = ⊥ := by
  simp [Ideal.ofBits, Ideal.ieee]

theorem ofBits_pos_inf : Ideal.ofBits .f32 0x7F800000#32 = ⊤ := by
  simp [Ideal.ofBits, Ideal.ieee]

theorem ofBits_4096 : Ideal.ofBits .f32 0x45800000#32 = ((4096 : ℝ) : EReal) := by
  simp [Ideal.ofBits, Ideal.ieee, -EReal.coe_mul]; norm_num

theorem ofBits_temperature : Ideal.ofBits .f32 0x3D8F5C29#32 = ((9395241 / 134217728 : ℝ) : EReal) := by
  simp [Ideal.ofBits, Ideal.ieee, -EReal.coe_mul]; norm_num

end Cert.Consts

end
-- ==== Proof.KRowA.lean ====
/-
  The diagonal mask of one tile, read at an index.

  Tile (q, k) of the 4 x 8 grid covers rows q * 1024 + r (r below 1024) and columns k * 512 + j (j below 512) of the
  4096 x 4096 pair matrix. The mask is computed on 32-bit words: the row number and the column number of the entry are
  formed (both are below 4096, so nothing wraps), compared for inequality, and the resulting bit is converted to a
  float: 0 on the diagonal, 1 off it.
-/
import proofs.«431488_j42425686950476_1_alg».proof.Proof.State
import proofs.«431488_j42425686950476_1_alg».proof.Proof.Consts
import Idealize.ShloMosaic.Lib.ValueIdx
import Idealize.ShloMosaic.Lib.Pipeline.Value
import Idealize.ShloMosaic.PureOps.Ideal

noncomputable section

namespace Cert.KernelIdeal.Hand

open Cert.KernelIdeal Cert.KernelIdeal.Gen Idealize.ShloMosaic Idealize.ShloMosaic.ValueIdx

/-- A block offset plus a position in the block, on 32-bit words, is the word of the natural number. -/
theorem word_off (a m c : ℕ) :
    IntOp.addi (Scalar.muli (BitVec.ofNat 32 a) (BitVec.ofNat 32 m)) (BitVec.ofNat 32 c) = BitVec.ofNat 32 (a * m + c) := by
  simp only [IntOp.addi, Scalar.muli, IntOp.muli, BitVec.ofNat_add, BitVec.ofNat_mul]

/-- The inequality bit of two numbers below 2^32, widened and converted: 0 when they are equal, 1 when they differ. -/
theorem ne_word (a b : ℕ) (ha : a < 2 ^ 32) (hb : b < 2 ^ 32) :
    ((((IntOp.cmpi .ne (BitVec.ofNat 32 a) (BitVec.ofNat 32 b)).setWidth 32).toInt : ℝ) : EReal)
      = if a = b then (0 : EReal) else 1 := by
  by_cases hab : a = b
  · rw [if_pos hab, hab]
    simp [IntOp.cmpi]
  · rw [if_neg hab]
    have hne : BitVec.ofNat 32 a ≠ BitVec.ofNat 32 b := by
      intro h
      apply hab
      have := congrArg BitVec.toNat h
      simp only [BitVec.toNat_ofNat] at this
      rw [Nat.mod_eq_of_lt ha, Nat.mod_eq_of_lt hb] at this
      exact this
    have hbne : (BitVec.ofNat 32 a != BitVec.ofNat 32 b) = true := bne_iff_ne.mpr hne
    simp [IntOp.cmpi, hbne]

theorem pay9_at (i : grid0.Coords) (r : Fin 1024) (j : Fin 512) :
    k0_pay9 (F := Ideal) i (ix2 r j)
      = (if (i 0).val * 1024 + r.val = (i 1).val * 512 + j.val then (0 : EReal) else 1) := by
  have h0 : (i 0).val < 4 := (i 0).isLt
  have h1 : (i 1).val < 8 := (i 1).isLt
  have hr := r.isLt
  have hj := j.isLt
  have e0 : iota .tc S1024x512 32 [0] iota_S1024x512_d0_w32 (ix2 r j) = BitVec.ofNat 32 r.val :=
    iota_single_apply .tc S1024x512 32 0 iota_S1024x512_d0_w32 (ix2 r j)
  have e1 : iota .tc S1024x512 32 [1] iota_S1024x512_d1_w32 (ix2 r j) = BitVec.ofNat 32 j.val :=
    iota_single_apply .tc S1024x512 32 1 iota_S1024x512_d1_w32 (ix2 r j)
  show ((((IntOp.cmpi .ne
      (IntOp.addi (Scalar.muli (BitVec.ofNat 32 (i 0).val) (BitVec.ofNat 32 1024))
        (iota .tc S1024x512 32 [0] iota_S1024x512_d0_w32 (ix2 r j)))
      (IntOp.addi (Scalar.muli (BitVec.ofNat 32 (i 1).val) (BitVec.ofNat 32 512))
        (iota .tc S1024x512 32 [1] iota_S1024x512_d1_w32 (ix2 r j)))).setWidth 32).toInt : ℝ) : EReal) = _
  rw [e0, e1, word_off, word_off]
  exact ne_word _ _ (by omega) (by omega)

end Cert.KernelIdeal.Hand

end
-- ==== Proof.KRow.lean ====
/-
  One row of the kernel's running columns, read as the five running quantities of the row mathematics.

  Row r of the five column buffers is a state (maximum, normaliser, three sums). The reset is the initial state; one
  key block's update of the buffers is, row by row, one step of the state over that block's 512 scaled similarities,
  gathered weights and positive-pair indicators — the similarity a contraction over the 1024 features times the
  named reciprocal of the temperature, the weight and the indicator contractions over the 32 classes against the key
  rows' one-hot labels, both zeroed on the diagonal of the whole matrix; and the output column is the closed state.
-/
import proofs.«431488_j42425686950476_1_alg».proof.Proof.State
import proofs.«431488_j42425686950476_1_alg».proof.Proof.Spec
import proofs.«431488_j42425686950476_1_alg».proof.Proof.Consts
import proofs.«431488_j42425686950476_1_alg».proof.Proof.KRowA
import Idealize.ShloMosaic.PureOps.Ideal.Laws
import Idealize.ShloMosaic.PureOps.IdealRules
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.TcCoe
open Idealize.SL Idealize.SL.Sem

open Idealize.ShloMosaic.ValueIdx

/-- Row `r` of the five columns. -/
def rowOf (s : Scr Ideal) (r : Fin 1024) : Cert.Spec.RowSt :=
  ⟨s.mx (ix2 r 0), s.z (ix2 r 0), s.a (ix2 r 0), s.w (ix2 r 0), s.mm (ix2 r 0)⟩

/-- Zero where query row `r` of query block `i 0` and key column `j` of key block `i 1` are the same sample, else one. -/
def offdK (i : grid0.Coords) (r : Fin 1024) (j : Fin 512) : EReal :=
  if (i 0).val * 1024 + r.val = (i 1).val * 512 + j.val then 0 else 1

namespace KRow

section Layout
variable {α : Type}

/-- A vector of `a` entries cast to a column `[a, 1]` reads, at row `r`, the vector's entry `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast along its rows to `[a, b]` reads, at `(r, j)`, the column's entry in row `r`. -/
theorem broadcastTo_a1_ab_apply {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

end Layout

/-- The source index over row `r` with column `k` inserted is `(r, k)`. -/
theorem lift_row (h : S1024x512.Reduces [1] S1024) (r : Fin 1024) (k : Fin 512) : h.lift (ix1 r) k = ix2 r k :=
  funext fun c => Fin.ext (by match c with | ⟨0, _⟩ => rfl | ⟨1, _⟩ => rfl)

/-- A lane sum kept as a column: row `r` holds the sum of row `r`. -/
theorem rowsum_at (v : FVec Ideal S1024x512 .f32) (hacc : (0x00000000#32 : BitVec 32) = 0x00000000#32)
    (hφ : FKind.Formats .f32) (r : Fin 1024) :
    shapeCast S1024x1 (multiReduction .add [1] S1024 v 0x00000000#32 reduces_S1024x512_S1024 hφ hacc) shapeCasts_S1024_S1024x1 (ix2 r 0)
      = ∑ j : Fin 512, v (ix2 r j) := by
  refine (shapeCast_a_a1_apply _ shapeCasts_S1024_S1024x1 r 0).trans ?_
  refine (Ideal.multiReduction_add_single v 0x00000000#32 reduces_S1024x512_S1024 hφ hacc (ix1 r)).trans ?_
  exact Finset.sum_congr rfl fun k _ => congrArg v (lift_row _ r k)

/-- A lane maximum kept as a column: row `r` holds the maximum of row `r`, from minus infinity. -/
theorem rowmax_at (v : FVec Ideal S1024x512 .f32) (hacc : (0xFF800000#32 : BitVec 32) = 0xFF800000#32)
    (hφ : FKind.Formats .f32) (r : Fin 1024) :
    shapeCast S1024x1 (multiReduction .maximumf [1] S1024 v 0xFF800000#32 reduces_S1024x512_S1024 hφ hacc) shapeCasts_S1024_S1024x1 (ix2 r 0)
      = (Finset.univ : Finset (Fin 512)).fold max ⊥ (fun j => v (ix2 r j)) := by
  refine (shapeCast_a_a1_apply _ shapeCasts_S1024_S1024x1 r 0).trans ?_
  refine (Ideal.multiReduction_maximumf_single v 0xFF800000#32 reduces_S1024x512_S1024 hφ hacc (ix1 r)).trans ?_
  have e : (v ∘ reduces_S1024x512_S1024.lift (ix1 r)) = fun j : Fin 512 => v (ix2 r j) :=
    funext fun k => congrArg v (lift_row _ r k)
  rw [e]
  exact congrArg (fun b => (Finset.univ : Finset (Fin 512)).fold max b (fun j => v (ix2 r j))) Cert.Consts.ofBits_neg_inf

/-! ## The two contractions -/

theorem lhs_feat_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem lhs_feat_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem rhs_feat_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem rhs_feat_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The product over the 1024 features into a zero accumulator, at `(r, j)`: the sum over the features of the left
    operand's row `r` against the right operand's column `j`. -/
theorem matmul_feat_at (x : FVec Ideal S1024x1024 .bf16) (y : FVec Ideal S1024x512 .bf16) (r : Fin 1024) (j : Fin 512) :
    matmul dot_S1024x1024_S1024x512_S1024x512_1_0_0_1_n_n none x y (constant S1024x512 .f32 0x00000000#32) (ix2 r j)
      = ∑ d : Fin 1024, x (ix2 r d) * y (ix2 d j) := by
  refine (Ideal.matmul_constant_zero_apply dot_S1024x1024_S1024x512_S1024x512_1_0_0_1_n_n none x y (ix2 r j)).trans ?_
  rw [← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 r j) ((contrEquiv1 dot_S1024x1024_S1024x512_S1024x512_1_0_0_1_n_n 1024 rfl rfl).symm k) = ix2 r k := funext fun a => Fin.ext (by
    match a with
    | ⟨0, _⟩ => exact lhs_feat_0 _ _
    | ⟨1, _⟩ => exact (lhs_feat_1 _ _).trans hk)
  have er : dot_S1024x1024_S1024x512_S1024x512_1_0_0_1_n_n.rhsIdx (ix2 r j) ((contrEquiv1 dot_S1024x1024_S1024x512_S1024x512_1_0_0_1_n_n 1024 rfl rfl).symm k) = ix2 k j := funext fun a => Fin.ext (by
    match a with
    | ⟨0, _⟩ => exact (rhs_feat_0 _ _).trans hk
    | ⟨1, _⟩ => exact rhs_feat_1 _ _)
  rw [el, er]

theorem lhs_cls_0 (i : S1024x512.Idx) (q : dot_S1024x32_S32x512_S1024x512_1_0_0_1_n_n.contr.Idx) :
    (dot_S1024x32_S32x512_S1024x512_1_0_0_1_n_n.lhsIdx i q 0).val = (i 0).val := by
  unfold DotDims.lhsIdx
  rw [dif_neg (show ¬(0 : Fin S1024x32.rank) ∈ dot_S1024x32_S32x512_S1024x512_1_0_0_1_n_n.lhsBatch by decide), dif_pos (show (0 : Fin S1024x32.rank) ∈ dot_S1024x32_S32x512_S1024x512_1_0_0_1_n_n.lhsNonContracting by decide)]
  rfl
theorem lhs_cls_1 (i : S1024x512.Idx) (q : dot_S1024x32_S32x512_S1024x512_1_0_0_1_n_n.contr.Idx) :
    (dot_S1024x32_S32x512_S1024x512_1_0_0_1_n_n.lhsIdx i q 1).val = (q ⟨0, by decide⟩).val :=
  dot_S1024x32_S32x512_S1024x512_1_0_0_1_n_n.lhsIdx_val_of_single rfl i q
theorem rhs_cls_0 (i : S1024x512.Idx) (q : dot_S1024x32_S32x512_S1024x512_1_0_0_1_n_n.contr.Idx) :
    (dot_S1024x32_S32x512_S1024x512_1_0_0_1_n_n.rhsIdx i q 0).val = (q ⟨0, by decide⟩).val :=
  dot_S1024x32_S32x512_S1024x512_1_0_0_1_n_n.rhsIdx_val_of_single rfl i q
theorem rhs_cls_1 (i : S1024x512.Idx) (q : dot_S1024x32_S32x512_S1024x512_1_0_0_1_n_n.contr.Idx) :
    (dot_S1024x32_S32x512_S1024x512_1_0_0_1_n_n.rhsIdx i q 1).val = (i 1).val := by
  unfold DotDims.rhsIdx
  rw [dif_neg (show ¬(1 : Fin S32x512.rank) ∈ dot_S1024x32_S32x512_S1024x512_1_0_0_1_n_n.rhsBatch by decide), dif_pos (show (1 : Fin S32x512.rank) ∈ dot_S1024x32_S32x512_S1024x512_1_0_0_1_n_n.rhsNonContracting by decide)]
  rfl

/-- The product over the 32 classes into a zero accumulator, at `(r, j)`. -/
theorem matmul_cls_at (x : FVec Ideal S1024x32 .f32) (y : FVec Ideal S32x512 .f32) (r : Fin 1024) (j : Fin 512) :
    matmul dot_S1024x32_S32x512_S1024x512_1_0_0_1_n_n none x y (constant S1024x512 .f32 0x00000000#32) (ix2 r j)
      = ∑ c : Fin 32, x (ix2 r c) * y (ix2 c j) := by
  refine (Ideal.matmul_constant_zero_apply dot_S1024x32_S32x512_S1024x512_1_0_0_1_n_n none x y (ix2 r j)).trans ?_
  rw [← Equiv.sum_comp (contrEquiv1 dot_S1024x32_S32x512_S1024x512_1_0_0_1_n_n 32 rfl rfl).symm]
  refine Finset.sum_congr rfl fun k _ => ?_
  have hk := contrEquiv1_symm_val dot_S1024x32_S32x512_S1024x512_1_0_0_1_n_n 32 rfl rfl k
  have el : dot_S1024x32_S32x512_S1024x512_1_0_0_1_n_n.lhsIdx (ix2 r j) ((contrEquiv1 dot_S1024x32_S32x512_S1024x512_1_0_0_1_n_n 32 rfl rfl).symm k) = ix2 r k := funext fun a => Fin.ext (by
    match a with
    | ⟨0, _⟩ => exact lhs_cls_0 _ _
    | ⟨1, _⟩ => exact (lhs_cls_1 _ _).trans hk)
  have er : dot_S1024x32_S32x512_S1024x512_1_0_0_1_n_n.rhsIdx (ix2 r j) ((contrEquiv1 dot_S1024x32_S32x512_S1024x512_1_0_0_1_n_n 32 rfl rfl).symm k) = ix2 k j := funext fun a => Fin.ext (by
    match a with
    | ⟨0, _⟩ => exact (rhs_cls_0 _ _).trans hk
    | ⟨1, _⟩ => exact rhs_cls_1 _ _)
  rw [el, er]

/-! ## The block's quantities at a row and a column -/

/-- The named reciprocal of the temperature is the specification's. -/
theorem inv_temp : Named.named (F := Ideal) κ "inv_temp" (φ := .f32) 0x41649249#32 = Cert.Spec.invT :=
  IdealRules.named_const.ideal_named_scalar _ _ _ _ rfl

/-- The scaled similarities of the block: the features' contraction times the reciprocal of the temperature. -/
theorem pay8_at (fq : FVec Ideal S1024x1024 .bf16) (fk : FVec Ideal S512x1024 .bf16) (r : Fin 1024) (j : Fin 512) :
    k0_pay8 (F := Ideal) fq fk (ix2 r j) = (∑ d : Fin 1024, fq (ix2 r d) * fk (ix2 j d)) * Cert.Spec.invT := by
  have e1 : shapeCast S1024x1024 fq shapeCasts_S1024x1024_S1024x1024 = fq := shapeCast_self _ _
  have e2 : shapeCast S512x1024 fk shapeCasts_S512x1024_S512x1024 = fk := shapeCast_self _ _
  show (matmul dot_S1024x1024_S1024x512_S1024x512_1_0_0_1_n_n none (shapeCast S1024x1024 fq shapeCasts_S1024x1024_S1024x1024)
      (transpose S1024x512 [1, 0] (shapeCast S512x1024 fk shapeCasts_S512x1024_S512x1024) transposes_S512x1024_p1_0_S1024x512)
      (constant S1024x512 .f32 0x00000000#32) (ix2 r j))
    * (Named.named (F := Ideal) κ "inv_temp" (φ := .f32) 0x41649249#32) = _
  rw [e1, e2, matmul_feat_at, inv_temp]
  refine congrArg (· * Cert.Spec.invT) (Finset.sum_congr rfl fun d _ => ?_)
  rw [transpose_ix2_apply]

/-- A class contraction against the key rows' one-hot labels, zeroed on the diagonal. -/
theorem cls_mask_at (i : grid0.Coords) (x : FVec Ideal S1024x32 .f32) (ohk : FVec Ideal S512x32 .f32) (r : Fin 1024) (j : Fin 512) :
    (matmul dot_S1024x32_S32x512_S1024x512_1_0_0_1_n_n none (shapeCast S1024x32 x shapeCasts_S1024x32_S1024x32)
      (transpose S32x512 [1, 0] (shapeCast S512x32 ohk shapeCasts_S512x32_S512x32) transposes_S512x32_p1_0_S32x512)
      (constant S1024x512 .f32 0x00000000#32) (ix2 r j)) * (k0_pay9 (F := Ideal) i (ix2 r j))
    = (∑ c : Fin 32, x (ix2 r c) * ohk (ix2 j c)) * offdK i r j := by
  have e1 : shapeCast S1024x32 x shapeCasts_S1024x32_S1024x32 = x := shapeCast_self _ _
  have e2 : shapeCast S512x32 ohk shapeCasts_S512x32_S512x32 = ohk := shapeCast_self _ _
  rw [e1, e2, matmul_cls_at, pay9_at]
  refine congrArg (· * offdK i r j) (Finset.sum_congr rfl fun c _ => ?_)
  rw [transpose_ix2_apply]

/-- The positive-pair indicators of the block. -/
theorem pay10_at (i : grid0.Coords) (ohq : FVec Ideal S1024x32 .f32) (ohk : FVec Ideal S512x32 .f32) (r : Fin 1024) (j : Fin 512) :
    k0_pay10 (F := Ideal) i ohq ohk (ix2 r j) = (∑ c : Fin 32, ohq (ix2 r c) * ohk (ix2 j c)) * offdK i r j :=
  cls_mask_at i ohq ohk r j

/-- The gathered weights of the block. -/
theorem pay11_at (i : grid0.Coords) (wq : FVec Ideal S1024x32 .f32) (ohk : FVec Ideal S512x32 .f32) (r : Fin 1024) (j : Fin 512) :
    k0_pay11 (F := Ideal) i wq ohk (ix2 r j) = (∑ c : Fin 32, wq (ix2 r c) * ohk (ix2 j c)) * offdK i r j :=
  cls_mask_at i wq ohk r j

/-- Their product: weight times indicator. -/
theorem pay12_at (i : grid0.Coords) (ohq : FVec Ideal S1024x32 .f32) (ohk : FVec Ideal S512x32 .f32) (wq : FVec Ideal S1024x32 .f32)
    (ohk' : FVec Ideal S512x32 .f32) (r : Fin 1024) (j : Fin 512) :
    k0_pay12 (F := Ideal) i ohq ohk wq ohk' (ix2 r j) = k0_pay11 (F := Ideal) i wq ohk' (ix2 r j) * k0_pay10 (F := Ideal) i ohq ohk (ix2 r j) := rfl

/-- The new row maximum: the old one against the block's. -/
theorem pay13_at (v : FVec Ideal S1024x512 .f32) (mx : FVec Ideal S1024x1 .f32) (r : Fin 1024) :
    k0_pay13 (F := Ideal) v mx (ix2 r 0) = max (mx (ix2 r 0)) ((Finset.univ : Finset (Fin 512)).fold max ⊥ (fun j => v (ix2 r j))) := by
  unfold k0_pay13
  refine (maximumf_apply _ _ _).trans ?_
  rw [rowmax_at]

/-- The stored maximum is the new maximum. -/
theorem pay15_at (v : FVec Ideal S1024x512 .f32) (mx : FVec Ideal S1024x1 .f32) (r : Fin 1024) :
    k0_pay15 (F := Ideal) v mx (ix2 r 0) = k0_pay13 (F := Ideal) v mx (ix2 r 0) :=
  congrFun (shapeCast_self (k0_pay13 (F := Ideal) v mx) shapeCasts_S1024x1_S1024x1) (ix2 r 0)

/-- The normaliser: rescaled by the growth of the maximum, plus the block's terms at the new maximum. -/
theorem pay14_at (v wm : FVec Ideal S1024x512 .f32) (mx z : FVec Ideal S1024x1 .f32) (r : Fin 1024) :
    k0_pay14 (F := Ideal) v wm mx z (ix2 r 0) = z (ix2 r 0) * Ideal.exp (mx (ix2 r 0) - k0_pay13 (F := Ideal) v mx (ix2 r 0))
      + ∑ j : Fin 512, Ideal.exp (v (ix2 r j) - k0_pay13 (F := Ideal) v mx (ix2 r 0)) * wm (ix2 r j) := by
  unfold k0_pay14
  refine (congrFun (shapeCast_self _ shapeCasts_S1024x1_S1024x1) (ix2 r 0)).trans ?_
  show z (ix2 r 0) * Ideal.exp (mx (ix2 r 0) - k0_pay13 (F := Ideal) v mx (ix2 r 0))
    + shapeCast S1024x1 (multiReduction .add [1] S1024
        (mulf (exp (subf v (broadcastTo S1024x512 (k0_pay13 (F := Ideal) v mx) broadcasts_S1024x1_S1024x512))) wm)
        0x00000000#32 reduces_S1024x512_S1024 (.inl rfl) rfl) shapeCasts_S1024_S1024x1 (ix2 r 0) = _
  rw [rowsum_at]
  refine congrArg (_ + ·) (Finset.sum_congr rfl fun j _ => ?_)
  show Ideal.exp (v (ix2 r j) - broadcastTo S1024x512 (k0_pay13 (F := Ideal) v mx) broadcasts_S1024x1_S1024x512 (ix2 r j)) * wm (ix2 r j) = _
  rw [broadcastTo_a1_ab_apply]

/-- The weighted positive similarity sum. -/
theorem pay16_at (v wmk : FVec Ideal S1024x512 .f32) (a : FVec Ideal S1024x1 .f32) (r : Fin 1024) :
    k0_pay16 (F := Ideal) v wmk a (ix2 r 0) = a (ix2 r 0) + ∑ j : Fin 512, wmk (ix2 r j) * v (ix2 r j) := by
  unfold k0_pay16
  refine (congrFun (shapeCast_self _ shapeCasts_S1024x1_S1024x1) (ix2 r 0)).trans ?_
  show a (ix2 r 0) + shapeCast S1024x1 (multiReduction .add [1] S1024 (mulf wmk v) 0x00000000#32 reduces_S1024x512_S1024 (.inl rfl) rfl)
    shapeCasts_S1024_S1024x1 (ix2 r 0) = _
  rw [rowsum_at]
  rfl

/-- The positive weight sum. -/
theorem pay17_at (wmk : FVec Ideal S1024x512 .f32) (w : FVec Ideal S1024x1 .f32) (r : Fin 1024) :
    k0_pay17 (F := Ideal) wmk w (ix2 r 0) = w (ix2 r 0) + ∑ j : Fin 512, wmk (ix2 r j) := by
  unfold k0_pay17
  refine (congrFun (shapeCast_self _ shapeCasts_S1024x1_S1024x1) (ix2 r 0)).trans ?_
  show w (ix2 r 0) + shapeCast S1024x1 (multiReduction .add [1] S1024 wmk 0x00000000#32 reduces_S1024x512_S1024 (.inl rfl) rfl)
    shapeCasts_S1024_S1024x1 (ix2 r 0) = _
  rw [rowsum_at]

/-- The positive pair count. -/
theorem pay1_at (mk : FVec Ideal S1024x512 .f32) (mm : FVec Ideal S1024x1 .f32) (r : Fin 1024) :
    k0_pay1 (F := Ideal) mk mm (ix2 r 0) = mm (ix2 r 0) + ∑ j : Fin 512, mk (ix2 r j) := by
  unfold k0_pay1
  refine (congrFun (shapeCast_self _ shapeCasts_S1024x1_S1024x1) (ix2 r 0)).trans ?_
  show mm (ix2 r 0) + shapeCast S1024x1 (multiReduction .add [1] S1024 mk 0x00000000#32 reduces_S1024x512_S1024 (.inl rfl) rfl)
    shapeCasts_S1024_S1024x1 (ix2 r 0) = _
  rw [rowsum_at]

end KRow

open KRow

/-! ## The reset and the output column -/

theorem reset_row (r : Fin 1024) : rowOf (Scr.reset (F := Ideal)) r = Cert.Spec.RowSt.init := by
  have h3 : k0_pay3 (F := Ideal) (ix2 r 0) = ⊥ := Cert.Consts.ofBits_neg_inf
  have h4 : k0_pay4 (F := Ideal) (ix2 r 0) = 0 := Cert.Consts.ofBits_zero
  have h5 : k0_pay5 (F := Ideal) (ix2 r 0) = 0 := Cert.Consts.ofBits_zero
  have h6 : k0_pay6 (F := Ideal) (ix2 r 0) = 0 := Cert.Consts.ofBits_zero
  have h7 : k0_pay7 (F := Ideal) (ix2 r 0) = 0 := Cert.Consts.ofBits_zero
  show Cert.Spec.RowSt.mk (k0_pay3 (F := Ideal) (ix2 r 0)) (k0_pay4 (F := Ideal) (ix2 r 0)) (k0_pay5 (F := Ideal) (ix2 r 0))
    (k0_pay6 (F := Ideal) (ix2 r 0)) (k0_pay7 (F := Ideal) (ix2 r 0)) = _
  rw [h3, h4, h5, h6, h7]
  rfl

theorem out_row (s : Scr Ideal) (r : Fin 1024) : (Scr.out s) (ix2 r 0) = (rowOf s r).close := rfl

/-! ## One key block's update, row by row -/

theorem upd_row (i : grid0.Coords) (fq : Vec Ideal S1024x1024 .bf16) (fk : Vec Ideal S512x1024 .bf16) (wq ohq : Vec Ideal S1024x32 .f32)
    (ohk : Vec Ideal S512x32 .f32) (s : Scr Ideal) (r : Fin 1024) :
    rowOf (Scr.upd i fq fk wq ohq ohk s) r = (rowOf s r).step
      (fun j : Fin 512 => (∑ d : Fin 1024, fq (ix2 r d) * fk (ix2 j d)) * Cert.Spec.invT)
      (fun j : Fin 512 => (∑ cc : Fin 32, wq (ix2 r cc) * ohk (ix2 j cc)) * offdK i r j)
      (fun j : Fin 512 => (∑ cc : Fin 32, ohq (ix2 r cc) * ohk (ix2 j cc)) * offdK i r j) := by
  have h8 : ∀ j : Fin 512, k0_pay8 (F := Ideal) fq fk (ix2 r j)
      = (∑ d : Fin 1024, fq (ix2 r d) * fk (ix2 j d)) * Cert.Spec.invT := fun j => pay8_at fq fk r j
  have h10 : ∀ j : Fin 512, k0_pay10 (F := Ideal) i ohq ohk (ix2 r j)
      = (∑ cc : Fin 32, ohq (ix2 r cc) * ohk (ix2 j cc)) * offdK i r j := fun j => pay10_at i ohq ohk r j
  have h11 : ∀ j : Fin 512, k0_pay11 (F := Ideal) i wq ohk (ix2 r j)
      = (∑ cc : Fin 32, wq (ix2 r cc) * ohk (ix2 j cc)) * offdK i r j := fun j => pay11_at i wq ohk r j
  have h12 : ∀ j : Fin 512, k0_pay12 (F := Ideal) i ohq ohk wq ohk (ix2 r j)
      = ((∑ cc : Fin 32, wq (ix2 r cc) * ohk (ix2 j cc)) * offdK i r j)
        * ((∑ cc : Fin 32, ohq (ix2 r cc) * ohk (ix2 j cc)) * offdK i r j) := fun j => by
    rw [pay12_at, h11, h10]
  have h13 : k0_pay13 (F := Ideal) (k0_pay8 fq fk) s.mx (ix2 r 0)
      = max (s.mx (ix2 r 0)) ((Finset.univ : Finset (Fin 512)).fold max ⊥
          (fun j : Fin 512 => (∑ d : Fin 1024, fq (ix2 r d) * fk (ix2 j d)) * Cert.Spec.invT)) := by
    rw [pay13_at]; simp only [h8]
  have hmx := (pay15_at (k0_pay8 (F := Ideal) fq fk) s.mx r).trans h13
  have hz := pay14_at (k0_pay8 (F := Ideal) fq fk) (k0_pay11 (F := Ideal) i wq ohk) s.mx s.z r
  rw [h13] at hz
  simp only [h8, h11] at hz
  have ha := pay16_at (k0_pay8 (F := Ideal) fq fk) (k0_pay12 (F := Ideal) i ohq ohk wq ohk) s.a r
  simp only [h8, h12] at ha
  have hw := pay17_at (k0_pay12 (F := Ideal) i ohq ohk wq ohk) s.w r
  simp only [h12] at hw
  have hmm := pay1_at (k0_pay10 (F := Ideal) i ohq ohk) s.mm r
  simp only [h10] at hmm
  unfold rowOf Scr.upd Cert.Spec.RowSt.step
  dsimp only
  rw [hmx, hz, ha, hw, hmm]

end Cert.KernelIdeal.Hand

end
-- ==== Proof.KArrays.lean ====
/-
  The arrays the kernel region reads, and their blocks, index by index.

  When the region is entered the features' array holds the features (the change of format is the identity on the
  extended reals), the weights' array the softmax of each sample's class scores, and the one-hot array a one at each
  sample's label. Grid point t is query block t / 8 and key block t % 8: a query window's block at t is rows
  (t / 8) * 1024 + r of its array, a key window's block rows (t % 8) * 512 + j.
-/
import proofs.«431488_j42425686950476_1_alg».proof.Proof.State
import proofs.«431488_j42425686950476_1_alg».proof.Proof.Spec
import proofs.«431488_j42425686950476_1_alg».proof.Proof.Consts
import Idealize.ShloMosaic.PureOps.Ideal.Laws
import Idealize.ShloMosaic.Lib.ValueIdx
import Idealize.ShloMosaic.Lib.Pipeline.Value
import Idealize.ShloMosaic.Lib.StableHlo.Run

noncomputable section

namespace Cert.KernelIdeal.Hand

open Cert.KernelIdeal Cert.KernelIdeal.Gen
open Idealize.ShloMosaic Idealize.ShloMosaic.TcCoe
open Idealize.SL Idealize.SL.Sem

open Idealize.ShloMosaic.ValueIdx

variable (m : (ℓ : Loc nD τ sig) → Buf (Elt Ideal) ℓ)

/-- The three argument arrays as plain functions. -/
abbrev featA (c : Dev nD) : Fin 4096 → Fin 1024 → EReal := Cert.Spec.featOf (m ((c.tc : Thread nD τ).loc main_arg0))
abbrev labA (c : Dev nD) : Fin 4096 → Fin 32 := Cert.Spec.labsOf (m ((c.tc : Thread nD τ).loc main_arg1))
abbrev wtsA (c : Dev nD) : Fin 4096 → Fin 32 → EReal := Cert.Spec.wtsOf (m ((c.tc : Thread nD τ).loc main_arg2))

/-- The sample a query row of point `t` is, and the sample a key row of point `t` is. -/
def qRow (t : Fin cfg0.N) (r : Fin 1024) : Fin 4096 := ⟨min ((t.val / 8) * 1024 + r.val) 4095, by omega⟩
def kRow (t : Fin cfg0.N) (j : Fin 512) : Fin 4096 := ⟨min ((t.val % 8) * 512 + j.val) 4095, by omega⟩

/-- A column broadcast along the classes reads, at sample i and any class, the column's entry i. -/
theorem bcRow_apply {α : Type} (y : S4096.Idx → α) (i : Fin 4096) (cc : Fin 32) :
    broadcastInDim S4096x32 ![0, 1] bcast_S4096x1_S4096x32_0_1 (broadcastInDim S4096x1 ![0] bcast_S4096_S4096x1_0 y) (ix2 i cc)
      = y (ix1 i) :=
  (broadcastInDim_apply _ bcast_S4096x1_S4096x32_0_1 _ (ix2 i cc) (ix2 i (0 : Fin 1)) (fun a => match a with
    | ⟨0, _⟩ => by show i.val = if (4096 : Nat) = 1 then 0 else i.val; rw [if_neg (by decide)]
    | ⟨1, _⟩ => by show 0 = if (1 : Nat) = 1 then 0 else cc.val; rw [if_pos rfl])).trans
  (broadcastInDim_apply _ bcast_S4096_S4096x1_0 y (ix2 i (0 : Fin 1)) (ix1 i) (fun a => match a with
    | ⟨0, _⟩ => by show i.val = if (4096 : Nat) = 1 then 0 else i.val; rw [if_neg (by decide)]))

/-- The maximum over the classes from minus infinity, at sample i. -/
theorem rowMax_apply (x2 : S4096x32.Idx → EReal) (i : Fin 4096) :
    Host.reduce (FloatOps.maximumf (F := Ideal) (φ := .f32)) x2 (constant S_ .f32 0xFF800000#32) reducesTo_S4096x32_S4096_d1 h_S_ (ix1 i)
      = (Finset.univ : Finset (Fin 32)).fold max ⊥ (Cert.Spec.wtsOf x2 i) := by
  have h : S4096x32.Reduces [1] S4096 := by decide
  rw [Host.reduce_eq_fold_single (FloatOps.maximumf (F := Ideal) (φ := .f32)) x2 _ reducesTo_S4096x32_S4096_d1 h h_S_]
  have hf : (x2 ∘ h.lift (ix1 i)) = Cert.Spec.wtsOf x2 i :=
    funext fun k => congrArg x2 (funext fun a => Fin.ext (by match a with | ⟨0, _⟩ => rfl | ⟨1, _⟩ => rfl))
  rw [hf]
  exact congrArg (fun b => Finset.fold max b (Cert.Spec.wtsOf x2 i) (Finset.univ : Finset (Fin 32))) Cert.Consts.ofBits_neg_inf

/-- The sum over the classes from zero, at sample i. -/
theorem rowSum_apply (y : S4096x32.Idx → EReal) (i : Fin 4096) :
    Host.reduceAdd (F := Ideal) (φ := .f32) y (constant S_ .f32 0x00000000#32) reducesTo_S4096x32_S4096_d1 h_S_ (ix1 i)
      = 0 + ∑ k : Fin 32, y (ix2 i k) := by
  have h : S4096x32.Reduces [1] S4096 := by decide
  simp only [Host.reduceAdd, Ideal.hostReduceAdd_def]
  rw [Ideal.hostReduceAdd_single reducesTo_S4096x32_S4096_d1 h]
  refine congrArg₂ (· + ·) Cert.Consts.ofBits_zero (Finset.sum_congr rfl fun k _ => ?_)
  exact congrArg y (funext fun a => Fin.ext (by match a with | ⟨0, _⟩ => rfl | ⟨1, _⟩ => rfl))

/-- The shift of each sample's scores: the larger of minus infinity and the sample's largest score. -/
def shiftV (x2 : S4096x32.Idx → EReal) : S4096.Idx → EReal :=
  maximumf (F := Ideal) (φ := .f32) (broadcastInDim S4096 ![] bcast_S_S4096 (constant S_ .f32 0xFF800000#32))
    (Host.reduce FloatOps.maximumf x2 (constant S_ .f32 0xFF800000#32) reducesTo_S4096x32_S4096_d1 h_S_)

/-- The exponentials of the shifted scores. -/
def expV (x2 : S4096x32.Idx → EReal) : S4096x32.Idx → EReal :=
  Host.exp (F := Ideal) (φ := .f32) (subf x2 (broadcastInDim S4096x32 ![0, 1] bcast_S4096x1_S4096x32_0_1 (broadcastInDim S4096x1 ![0] bcast_S4096_S4096x1_0 (shiftV x2))))

/-- The exponentials divided by their sum over the classes. -/
def smxV (x2 : S4096x32.Idx → EReal) : S4096x32.Idx → EReal :=
  Host.divf (F := Ideal) (φ := .f32) (expV x2) (broadcastInDim S4096x32 ![0, 1] bcast_S4096x1_S4096x32_0_1 (broadcastInDim S4096x1 ![0] bcast_S4096_S4096x1_0
    (Host.reduceAdd (expV x2) (constant S_ .f32 0x00000000#32) reducesTo_S4096x32_S4096_d1 h_S_)))

theorem shiftV_apply (x2 : S4096x32.Idx → EReal) (i : Fin 4096) :
    shiftV x2 (ix1 i) = max ⊥ ((Finset.univ : Finset (Fin 32)).fold max ⊥ (Cert.Spec.wtsOf x2 i)) := by
  show max (Ideal.ofBits .f32 0xFF800000#32) (Host.reduce (FloatOps.maximumf (F := Ideal) (φ := .f32)) x2 (constant S_ .f32 0xFF800000#32) reducesTo_S4096x32_S4096_d1 h_S_ (ix1 i)) = _
  rw [Cert.Consts.ofBits_neg_inf, rowMax_apply]

theorem expV_apply (x2 : S4096x32.Idx → EReal) (i : Fin 4096) (cc : Fin 32) :
    expV x2 (ix2 i cc) = Ideal.exp (Cert.Spec.wtsOf x2 i cc - max ⊥ ((Finset.univ : Finset (Fin 32)).fold max ⊥ (Cert.Spec.wtsOf x2 i))) := by
  show Ideal.exp (x2 (ix2 i cc) - broadcastInDim S4096x32 ![0, 1] bcast_S4096x1_S4096x32_0_1 (broadcastInDim S4096x1 ![0] bcast_S4096_S4096x1_0 (shiftV x2)) (ix2 i cc)) = _
  rw [bcRow_apply, shiftV_apply]
  rfl

theorem smxV_apply (x2 : S4096x32.Idx → EReal) (i : Fin 4096) (cc : Fin 32) :
    smxV x2 (ix2 i cc) = Cert.Spec.smx (Cert.Spec.wtsOf x2 i) cc := by
  show Ideal.div (expV x2 (ix2 i cc)) (broadcastInDim S4096x32 ![0, 1] bcast_S4096x1_S4096x32_0_1 (broadcastInDim S4096x1 ![0] bcast_S4096_S4096x1_0
    (Host.reduceAdd (F := Ideal) (φ := .f32) (expV x2) (constant S_ .f32 0x00000000#32) reducesTo_S4096x32_S4096_d1 h_S_)) (ix2 i cc)) = _
  rw [bcRow_apply, rowSum_apply, expV_apply]
  unfold Cert.Spec.smx
  exact congrArg (Ideal.div _) (congrArg (0 + ·) (Finset.sum_congr rfl fun k _ => expV_apply x2 i k))

/-- The one-hot array of a vector of label words: one where the sample's word is the class's, zero elsewhere. -/
def ohV (x1 : S4096.Idx → BitVec 32) : S4096x32.Idx → EReal :=
  uitofp (F := Ideal) .f32 (cmpi .eq
    (broadcastInDim S4096x32 ![0, 1] bcast_S4096x1_S4096x32_0_1 (broadcastInDim S4096x1 ![0] bcast_S4096_S4096x1_0 x1))
    (broadcastInDim S4096x32 ![0, 1] bcast_S1x32_S4096x32_0_1 (iotaInDim S1x32 32 1)))

/-- A label word below 32 is class cc's word exactly when its class index is cc. -/
theorem oh_word (l : BitVec 32) (hl : l.toNat < 32) (cc : Fin 32) :
    (((IntOp.cmpi .eq l (BitVec.ofNat 32 cc.val)).toNat : ℝ) : EReal) = if Cert.Spec.labOf l = cc then 1 else 0 := by
  have hcc : cc.val < 32 := cc.isLt
  by_cases h : Cert.Spec.labOf l = cc
  · have e : l = BitVec.ofNat 32 cc.val := BitVec.eq_of_toNat_eq (by
      have h' : l.toNat % 32 = cc.val := congrArg Fin.val h
      rw [BitVec.toNat_ofNat]; omega)
    rw [if_pos h, e]
    simp [IntOp.cmpi]
  · have e : ¬ l = BitVec.ofNat 32 cc.val := fun e => h (Fin.ext (by
      show l.toNat % 32 = cc.val
      rw [e, BitVec.toNat_ofNat]; omega))
    rw [if_neg h]
    simp [IntOp.cmpi, e]

theorem ohV_apply (x1 : S4096.Idx → BitVec 32) (i : Fin 4096) (cc : Fin 32) (hl : (x1 (ix1 i)).toNat < 32) :
    ohV x1 (ix2 i cc) = if Cert.Spec.labsOf x1 i = cc then 1 else 0 := by
  show (((IntOp.cmpi .eq
    (broadcastInDim S4096x32 ![0, 1] bcast_S4096x1_S4096x32_0_1 (broadcastInDim S4096x1 ![0] bcast_S4096_S4096x1_0 x1) (ix2 i cc))
    (broadcastInDim S4096x32 ![0, 1] bcast_S1x32_S4096x32_0_1 (iotaInDim S1x32 32 1) (ix2 i cc))).toNat : ℝ) : EReal) = _
  rw [bcRow_apply, broadcastInDim_apply _ bcast_S1x32_S4096x32_0_1 (iotaInDim S1x32 32 1) (ix2 i cc) (ix2 (0 : Fin 1) cc) (fun a => match a with
    | ⟨0, _⟩ => by show 0 = if (1 : Nat) = 1 then 0 else i.val; rw [if_pos rfl]
    | ⟨1, _⟩ => by show cc.val = if (32 : Nat) = 1 then 0 else cc.val; rw [if_neg (by decide)])]
  exact oh_word (x1 (ix1 i)) hl cc

theorem oh_arr (c : Dev nD) :
    (V₃ m c main_v11 : S4096x32.Idx → EReal) = ohV (m ((c.tc : Thread nD τ).loc main_arg1)) := by
  dsimp only [V₃, V₂, V₁, V₀, hostOps0_2, hostOps0_1, hostOps0]
  after_results
  rfl

theorem grid_facts : ∀ t : Fin cfg0.N, ((grid0.coords t) 0).val = t.val / 8 ∧ ((grid0.coords t) 1).val = t.val % 8
    ∧ win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = t.val / 8 ∧ win0_3.index t (1 : Fin 2) = 0
    ∧ win0_4.index t (0 : Fin 2) = t.val % 8 ∧ win0_4.index t (1 : Fin 2) = 0 :=
  (by decide +kernel : ∀ t : Fin grid0.N, _)

theorem feat_arr (c : Dev nD) (i : Fin 4096) (d : Fin 1024) :
    (V₃ m c main_v12 : S4096x1024.Idx → EReal) (ix2 i d) = featA m c i d := by
  dsimp only [V₃, V₂, V₁, V₀, hostOps0_2]
  after_results
  rfl

theorem smx_arr (c : Dev nD) :
    (V₃ m c main_v10 : S4096x32.Idx → EReal) = smxV (m ((c.tc : Thread nD τ).loc main_arg2)) := by
  dsimp only [V₃, V₂, V₁, V₀, hostOps0_2, hostOps0_1, hostOps0]
  after_results
  rfl

theorem t_lt (t : Fin cfg0.N) : t.val < 32 := Nat.lt_of_lt_of_eq t.isLt N_0

theorem coords_0 (t : Fin cfg0.N) : ((grid0.coords t) 0).val = t.val / 8 := (grid_facts t).1

theorem coords_1 (t : Fin cfg0.N) : ((grid0.coords t) 1).val = t.val % 8 := (grid_facts t).2.1

theorem blk_fq (c : Dev nD) (t : Fin cfg0.N) (r : Fin 1024) (d : Fin 1024) :
    (iblk m c 0 t : Vec Ideal S1024x1024 .bf16) (ix2 r d) = featA m c (qRow t r) d := by
  have hN := t_lt t
  have hr : r.val < 1024 := r.isLt
  obtain ⟨-, -, e0, e1, -⟩ := grid_facts t
  refine Eq.trans ?_ (feat_arr m c (qRow t r) d)
  show V₃ m c main_v12 (((cfg0.win 0).blk t).view.emb (ix2 r d)) = V₃ m c main_v12 (ix2 (qRow t r) d)
  refine congrArg _ (funext fun a => Fin.ext ?_)
  match a with
  | ⟨0, _⟩ => show win0_0.index t (0 : Fin 2) * 1024 + 1 * r.val = min (t.val / 8 * 1024 + r.val) 4095; rw [e0]; omega
  | ⟨1, _⟩ => show win0_0.index t (1 : Fin 2) * 1024 + 1 * d.val = d.val; rw [e1]; omega

theorem blk_fk (c : Dev nD) (t : Fin cfg0.N) (j : Fin 512) (d : Fin 1024) :
    (iblk m c 1 t : Vec Ideal S512x1024 .bf16) (ix2 j d) = featA m c (kRow t j) d := by
  have hN := t_lt t
  have hj : j.val < 512 := j.isLt
  obtain ⟨-, -, -, -, e0, e1, -⟩ := grid_facts t
  refine Eq.trans ?_ (feat_arr m c (kRow t j) d)
  show V₃ m c main_v12 (((cfg0.win 1).blk t).view.emb (ix2 j d)) = V₃ m c main_v12 (ix2 (kRow t j) d)
  refine congrArg _ (funext fun a => Fin.ext ?_)
  match a with
  | ⟨0, _⟩ => show win0_1.index t (0 : Fin 2) * 512 + 1 * j.val = min (t.val % 8 * 512 + j.val) 4095; rw [e0]; omega
  | ⟨1, _⟩ => show win0_1.index t (1 : Fin 2) * 1024 + 1 * d.val = d.val; rw [e1]; omega

theorem blk_wq (c : Dev nD) (t : Fin cfg0.N) (r : Fin 1024) (cc : Fin 32) :
    (iblk m c 2 t : Vec Ideal S1024x32 .f32) (ix2 r cc) = Cert.Spec.smx (wtsA m c (qRow t r)) cc := by
  have hN := t_lt t
  have hr : r.val < 1024 := r.isLt
  obtain ⟨-, -, -, -, -, -, e0, e1, -⟩ := grid_facts t
  refine Eq.trans ?_ (smxV_apply (m ((c.tc : Thread nD τ).loc main_arg2)) (qRow t r) cc)
  refine Eq.trans ?_ (congrFun (smx_arr m c) (ix2 (qRow t r) cc))
  show V₃ m c main_v10 (((cfg0.win 2).blk t).view.emb (ix2 r cc)) = V₃ m c main_v10 (ix2 (qRow t r) cc)
  refine congrArg _ (funext fun a => Fin.ext ?_)
  match a with
  | ⟨0, _⟩ => show win0_2.index t (0 : Fin 2) * 1024 + 1 * r.val = min (t.val / 8 * 1024 + r.val) 4095; rw [e0]; omega
  | ⟨1, _⟩ => show win0_2.index t (1 : Fin 2) * 32 + 1 * cc.val = cc.val; rw [e1]; omega

theorem blk_ohq (c : Dev nD) (hlab : ∀ j : Fin 4096, (m ((c.tc : Thread nD τ).loc main_arg1) (ix1 j)).toNat < 32)
    (t : Fin cfg0.N) (r : Fin 1024) (cc : Fin 32) :
    (iblk m c 3 t : Vec Ideal S1024x32 .f32) (ix2 r cc) = (if labA m c (qRow t r) = cc then (1 : EReal) else 0) := by
  have hN := t_lt t
  have hr : r.val < 1024 := r.isLt
  obtain ⟨-, -, -, -, -, -, -, -, e0, e1, -⟩ := grid_facts t
  refine Eq.trans ?_ (ohV_apply (m ((c.tc : Thread nD τ).loc main_arg1)) (qRow t r) cc (hlab (qRow t r)))
  refine Eq.trans ?_ (congrFun (oh_arr m c) (ix2 (qRow t r) cc))
  show V₃ m c main_v11 (((cfg0.win 3).blk t).view.emb (ix2 r cc)) = V₃ m c main_v11 (ix2 (qRow t r) cc)
  refine congrArg _ (funext fun a => Fin.ext ?_)
  match a with
  | ⟨0, _⟩ => show win0_3.index t (0 : Fin 2) * 1024 + 1 * r.val = min (t.val / 8 * 1024 + r.val) 4095; rw [e0]; omega
  | ⟨1, _⟩ => show win0_3.index t (1 : Fin 2) * 32 + 1 * cc.val = cc.val; rw [e1]; omega

theorem blk_ohk (c : Dev nD) (hlab : ∀ j : Fin 4096, (m ((c.tc : Thread nD τ).loc main_arg1) (ix1 j)).toNat < 32)
    (t : Fin cfg0.N) (j : Fin 512) (cc : Fin 32) :
    (iblk m c 4 t : Vec Ideal S512x32 .f32) (ix2 j cc) = (if labA m c (kRow t j) = cc then (1 : EReal) else 0) := by
  have hN := t_lt t
  have hj : j.val < 512 := j.isLt
  obtain ⟨-, -, -, -, -, -, -, -, -, -, e0, e1⟩ := grid_facts t
  refine Eq.trans ?_ (ohV_apply (m ((c.tc : Thread nD τ).loc main_arg1)) (kRow t j) cc (hlab (kRow t j)))
  refine Eq.trans ?_ (congrFun (oh_arr m c) (ix2 (kRow t j) cc))
  show V₃ m c main_v11 (((cfg0.win 4).blk t).view.emb (ix2 j cc)) = V₃ m c main_v11 (ix2 (kRow t j) cc)
  refine congrArg _ (funext fun a => Fin.ext ?_)
  match a with
  | ⟨0, _⟩ => show win0_4.index t (0 : Fin 2) * 512 + 1 * j.val = min (t.val % 8 * 512 + j.val) 4095; rw [e0]; omega
  | ⟨1, _⟩ => show win0_4.index t (1 : Fin 2) * 32 + 1 * cc.val = cc.val; rw [e1]; omega

end Cert.KernelIdeal.Hand

end
-- ==== Proof.KTail.lean ====
/-
  What @main returns after the kernel region.

  The region leaves a column of 4096 row values. The operations after it reshape the column to a vector, sum it from
  zero, divide the sum by 4096 and negate: minus the mean of the row values. The reshape keeps row-major positions, so
  entry i of the vector is entry (i, 0) of the column; the sum of a vector into a scalar is the initial value plus the
  sum over its one coordinate.
-/
import proofs.«431488_j42425686950476_1_alg».proof.Proof.After
import proofs.«431488_j42425686950476_1_alg».proof.Proof.Spec
import proofs.«431488_j42425686950476_1_alg».proof.Proof.Consts
import Idealize.ShloMosaic.PureOps.Ideal.Laws
import Idealize.ShloMosaic.Lib.ValueIdx
import Idealize.ShloMosaic.Lib.Pipeline.Value
import Idealize.ShloMosaic.Lib.StableHlo.Run

noncomputable section

namespace Cert.KernelIdeal.Hand

open Cert.KernelIdeal Cert.KernelIdeal.Gen Idealize.ShloMosaic Idealize.ShloMosaic.TcCoe Idealize.SL.Sem
  Idealize.ShloMosaic.ValueIdx

/-- A sum over a rank-1 index set is the sum over its one coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n := ⟨fun i => i 0, fun a => ix1 a, fun i => (eq_ix1 i).symm, fun _ => rfl⟩
  exact (Equiv.sum_comp e.symm f).symm

/-- The column of 4096 row values reshaped to a vector, read at row `i`, is the column's entry in that row. -/
theorem reshape_col_apply (v : Vec Ideal S4096x1 .f32) (i : S4096.Idx) :
    shapeCast S4096 v shapeCasts_S4096x1_S4096 i = v (ix2 (i 0) 0) := by
  refine shapeCast_apply v _ i (ix2 (i 0) 0) ?_
  rw [Shape.rowMajor_val_two, Shape.rowMajor_val_one]
  show (i 0).val * 1 + 0 = (i 0).val
  omega

/-- What @main returns: minus the mean of the column of row values the region leaves. -/
theorem tail_eq (m : (ℓ : Loc nD τ sig) → Buf (Elt Ideal) ℓ) (c : Dev nD) :
    V₅ m c (Proc.devRef .tc main_v17)
      = fun _ => Cert.Spec.negMean (fun i : Fin 4096 => (outArr m c : Vec Ideal S4096x1 .f32) (ix2 i 0)) := by
  show StableHlo.after hostOps1 (V₄ m c) (Proc.devRef .tc main_v17) = _
  after_results
  rw [V₄_out]
  funext j
  show -(Ideal.div (Ideal.hostReduceAdd reducesTo_S4096_S_d0
        (shapeCast S4096 (outArr m c : Vec Ideal S4096x1 .f32) shapeCasts_S4096x1_S4096)
        (Ideal.ofBits .f32 0x00000000#32) j)
      (Ideal.ofBits .f32 0x45800000#32)) = _
  rw [Ideal.hostReduceAdd_total reducesTo_S4096_S_d0 (fun b => b.elim0), Cert.Consts.ofBits_zero, sum_idx1]
  unfold Cert.Spec.negMean
  refine congrArg (fun x => -(Ideal.div (0 + x) (Ideal.ofBits .f32 0x45800000#32))) (Finset.sum_congr rfl fun k _ => ?_)
  exact reshape_col_apply _ (ix1 k)

end Cert.KernelIdeal.Hand

end
-- ==== Proof.KValue.lean ====
/-
  The kernel's result on the extended reals: minus the mean of the row values, each accumulated over eight key blocks.

  By induction over the key blocks of a query block, row r of the running columns after key block k is the row
  mathematics' state after k + 1 blocks for the sample that row is; after the last key block the output column holds
  the closed states, which is what is written back; the four query blocks' write-backs tile the result column; and
  the four host operations after the region take minus its mean.
-/
import proofs.«431488_j42425686950476_1_alg».proof.Proof.After
import proofs.«431488_j42425686950476_1_alg».proof.Proof.KRow
import proofs.«431488_j42425686950476_1_alg».proof.Proof.KArrays
import proofs.«431488_j42425686950476_1_alg».proof.Proof.KTail

noncomputable section

namespace Cert.KernelIdeal.Hand

open Cert.KernelIdeal Cert.KernelIdeal.Gen
open Idealize.ShloMosaic Idealize.ShloMosaic.TcCoe
open Idealize.SL Idealize.SL.Sem

open Idealize.ShloMosaic.ValueIdx

variable (m : (ℓ : Loc nD τ sig) → Buf (Elt Ideal) ℓ)

/-! ## One key block, row by row -/

/-- The grid has 32 points. -/
theorem N_eq : cfg0.N = 32 := N_0

/-- Key row j of point t is column j of block t % 8 of the whole row. -/
theorem kRow_eq_col (t : Fin cfg0.N) (j : Fin 512) : kRow t j = Cert.Spec.col (t.val % 8) j := rfl

/-- The kernel's diagonal test at point t is the test that the two samples are the same. -/
theorem offdK_eq (t : Fin cfg0.N) (r : Fin 1024) (j : Fin 512) :
    offdK (grid0.coords t) r j = Cert.Spec.offd (qRow t r) (kRow t j) := by
  have hN : t.val < 32 := N_eq ▸ t.isLt
  have hr := r.isLt
  have hj := j.isLt
  unfold offdK Cert.Spec.offd
  rw [coords_0, coords_1]
  refine if_congr ?_ rfl rfl
  unfold qRow kRow
  rw [Fin.ext_iff]
  show _ ↔ min (t.val / 8 * 1024 + r.val) 4095 = min (t.val % 8 * 512 + j.val) 4095
  omega

/-- One update of row r, from blocks that hold sample q's features, weights and label in row r and the features and
    labels of the samples of block kk of the whole row in their rows, is one step of the row mathematics for sample q
    over block kk. -/
theorem upd_step_of (i : grid0.Coords) (fq : Vec Ideal S1024x1024 .bf16) (fk : Vec Ideal S512x1024 .bf16)
    (wq ohq : Vec Ideal S1024x32 .f32) (ohk : Vec Ideal S512x32 .f32) (s : Scr Ideal) (r : Fin 1024)
    (feat : Fin 4096 → Fin 1024 → EReal) (lab : Fin 4096 → Fin 32) (wts : Fin 4096 → Fin 32 → EReal)
    (q : Fin 4096) (kk : ℕ)
    (hfq : ∀ d : Fin 1024, fq (ix2 r d) = feat q d)
    (hfk : ∀ (j : Fin 512) (d : Fin 1024), fk (ix2 j d) = feat (Cert.Spec.col kk j) d)
    (hwq : ∀ cc : Fin 32, wq (ix2 r cc) = Cert.Spec.smx (wts q) cc)
    (hohq : ∀ cc : Fin 32, ohq (ix2 r cc) = (if lab q = cc then (1 : EReal) else 0))
    (hohk : ∀ (j : Fin 512) (cc : Fin 32), ohk (ix2 j cc) = (if lab (Cert.Spec.col kk j) = cc then (1 : EReal) else 0))
    (hoff : ∀ j : Fin 512, offdK i r j = Cert.Spec.offd q (Cert.Spec.col kk j)) :
    rowOf (Scr.upd i fq fk wq ohq ohk s) r = (rowOf s r).step
      (fun j => Cert.Spec.sim feat q (Cert.Spec.col kk j))
      (fun j => Cert.Spec.wmS lab wts q (Cert.Spec.col kk j))
      (fun j => Cert.Spec.mkS lab q (Cert.Spec.col kk j)) := by
  rw [upd_row]
  refine congr (congr (congrArg (rowOf s r).step (funext fun j => ?_)) (funext fun j => ?_)) (funext fun j => ?_)
  · -- the similarity: the contraction over the features
    unfold Cert.Spec.sim
    refine congrArg (· * Cert.Spec.invT) (Finset.sum_congr rfl fun d _ => ?_)
    rw [hfq, hfk]
  · -- the gathered weight: one class matches the key row's label
    unfold Cert.Spec.wmS
    rw [hoff]
    refine congrArg (· * Cert.Spec.offd q (Cert.Spec.col kk j)) ?_
    rw [Finset.sum_eq_single (lab (Cert.Spec.col kk j))]
    · rw [hwq, hohk, if_pos rfl, mul_one]
    · intro cc _ hcc
      rw [hohk, if_neg (Ne.symm hcc), mul_zero]
    · intro h; exact absurd (Finset.mem_univ _) h
  · -- the positive-pair indicator: the two labels meet in one class or in none
    unfold Cert.Spec.mkS
    rw [hoff]
    refine congrArg (· * Cert.Spec.offd q (Cert.Spec.col kk j)) ?_
    rw [Finset.sum_eq_single (lab (Cert.Spec.col kk j))]
    · rw [hohq, hohk, if_pos rfl, mul_one]
    · intro cc _ hcc
      rw [hohk, if_neg (Ne.symm hcc), mul_zero]
    · intro h; exact absurd (Finset.mem_univ _) h

/-- One key block's update of row r at point t is one step of the row mathematics over block t % 8 of sample
    (t / 8) * 1024 + r's row. -/
theorem upd_step (c : Dev nD) (hlab : ∀ j : Fin 4096, (m ((c.tc : Thread nD τ).loc main_arg1) (ix1 j)).toNat < 32)
    (t : Fin cfg0.N) (r : Fin 1024) (s : Scr Ideal) :
    rowOf (updAt m c t s) r = (rowOf s r).step
      (fun j => Cert.Spec.sim (featA m c) (qRow t r) (Cert.Spec.col (t.val % 8) j))
      (fun j => Cert.Spec.wmS (labA m c) (wtsA m c) (qRow t r) (Cert.Spec.col (t.val % 8) j))
      (fun j => Cert.Spec.mkS (labA m c) (qRow t r) (Cert.Spec.col (t.val % 8) j)) :=
  upd_step_of (grid0.coords t) (iblk m c 0 t) (iblk m c 1 t) (iblk m c 2 t) (iblk m c 3 t) (iblk m c 4 t) s r
    (featA m c) (labA m c) (wtsA m c) (qRow t r) (t.val % 8)
    (fun d => blk_fq m c t r d) (fun j d => blk_fk m c t j d) (fun cc => blk_wq m c t r cc)
    (fun cc => blk_ohq m c hlab t r cc) (fun j cc => blk_ohk m c hlab t j cc) (fun j => offdK_eq t r j)

/-! ## The induction over the key blocks -/

/-- After the body at point n, row r of the running columns is the row mathematics' state after n % 8 + 1 blocks of
    the row of the sample that row is. -/
theorem row_after (c : Dev nD) (hlab : ∀ j : Fin 4096, (m ((c.tc : Thread nD τ).loc main_arg1) (ix1 j)).toNat < 32) :
    ∀ (n : ℕ) (hn : n < cfg0.N) (r : Fin 1024),
      rowOf (scAt m c n hn) r = Cert.Spec.RowSt.after
        (fun k j => Cert.Spec.sim (featA m c) (qRow ⟨n, hn⟩ r) (Cert.Spec.col k j))
        (fun k j => Cert.Spec.wmS (labA m c) (wtsA m c) (qRow ⟨n, hn⟩ r) (Cert.Spec.col k j))
        (fun k j => Cert.Spec.mkS (labA m c) (qRow ⟨n, hn⟩ r) (Cert.Spec.col k j)) (n % 8 + 1)
  | 0, hn, r => by
    rw [show scAt m c 0 hn = updAt m c ⟨0, hn⟩ Scr.reset from rfl, upd_step m c hlab, reset_row]
    rfl
  | n + 1, hn, r => by
    by_cases h : (n + 1) % 8 = 0
    · -- the first key block of a query block: the columns were reset
      rw [scAt_first m c ⟨n + 1, hn⟩ h, upd_step m c hlab, reset_row]
      show Cert.Spec.RowSt.init.step _ _ _ = _
      rw [h]
      rfl
    · -- a later key block of the same query block
      have ih := row_after c hlab n (Nat.lt_of_succ_lt hn) r
      have hq : qRow ⟨n, Nat.lt_of_succ_lt hn⟩ r = qRow ⟨n + 1, hn⟩ r := by
        apply Fin.ext
        show min (n / 8 * 1024 + r.val) 4095 = min ((n + 1) / 8 * 1024 + r.val) 4095
        omega
      have hk : n % 8 + 1 = (n + 1) % 8 := by omega
      rw [scAt_next m c ⟨n + 1, hn⟩ h, upd_step m c hlab]
      show (rowOf (scAt m c n _) r).step _ _ _ = _
      rw [ih, hq, hk]
      rfl

/-! ## The write-back -/

/-- The result column the region leaves: each sample's row value. -/
abbrev resG (c : Dev nD) : Vec Ideal S4096x1 .f32 :=
  fun i => Cert.Spec.rowValK (featA m c) (labA m c) (wtsA m c) ⟨(i 0).val, idx2_lt0 i⟩

/-- The output window's block index at point t: the query block along the rows, zero along the one column. -/
theorem out_index : ∀ t : Fin cfg0.N, win0_5.index t (0 : Fin 2) = t.val / 8 ∧ win0_5.index t (1 : Fin 2) = 0 :=
  (by decide +kernel : ∀ t : Fin grid0.N, win0_5.index t (0 : Fin 2) = t.val / 8 ∧ win0_5.index t (1 : Fin 2) = 0)

/-- What the last key block of a query block writes back is that query block's rows of the result column. -/
theorem flushed_eq (c : Dev nD) (hlab : ∀ j : Fin 4096, (m ((c.tc : Thread nD τ).loc main_arg1) (ix1 j)).toNat < 32)
    (t : Fin cfg0.N) (hf : (cfg0.win 5).flush t = true) :
    (dats m 0 c).flushed 5 t = ((cfg0.win 5).blk t).view.read (Elt Ideal) (resG m c) := by
  have h7 : t.val % 8 = 7 := (flush0_5 t).mp hf
  have hN : t.val < 32 := N_eq ▸ t.isLt
  obtain ⟨e0, e1⟩ := out_index t
  show (cfg0.win 5).cut (grid0.coords t) ((dats m 0 c).after 5 t) = _
  rw [after0_5]
  funext y
  rw [View.read_apply]
  have hy0 : (y 0).val < 1024 := (y 0).isLt
  have hy1 : (y 1).val < 1 := (y 1).isLt
  have e : (cfg0.win 5).xinj (grid0.coords t) y = ix2 (⟨(y 0).val, hy0⟩ : Fin 1024) (0 : Fin 1) := by
    funext a
    match a with
    | ⟨0, _⟩ => rfl
    | ⟨1, _⟩ => exact Fin.ext (by show (y 1).val = 0; omega)
  show (scAt m c t.val t.isLt).out ((cfg0.win 5).xinj (grid0.coords t) y) = _
  rw [e, out_row, row_after m c hlab t.val t.isLt, h7]
  have hq : qRow ⟨t.val, t.isLt⟩ (⟨(y 0).val, hy0⟩ : Fin 1024)
      = ⟨((((cfg0.win 5).blk t).view.emb y) 0).val, idx2_lt0 (((cfg0.win 5).blk t).view.emb y)⟩ := by
    apply Fin.ext
    show min (t.val / 8 * 1024 + (y 0).val) 4095 = win0_5.index t (0 : Fin 2) * 1024 + 1 * (y 0).val
    rw [e0]
    omega
  rw [hq]
  rfl

/-- An index of the result column is in point t's block iff each coordinate is in the block's range on its axis. -/
theorem mem_blk_out (t : Fin cfg0.N) (i : S4096x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v13).slice (win0_5.rect t)).set ↔ _
  rw [View.set_slice_whole, Rect.mem_set_unit]
  exact Iff.rfl

/-- Every row of the result column is written back by the last key block of its query block. -/
theorem out_cover (i : S4096x1.Idx) :
    ∃ t : Fin cfg0.N, (cfg0.win 5).flush t = true ∧ i ∈ ((cfg0.win 5).blk t).view.set := by
  have h0 : (i 0).val < 4096 := (i 0).isLt
  have h1 : (i 1).val < 1 := (i 1).isLt
  have hN : cfg0.N = 32 := N_0
  have ht : (i 0).val / 1024 * 8 + 7 < cfg0.N := by omega
  obtain ⟨e0, e1⟩ := out_index ⟨(i 0).val / 1024 * 8 + 7, ht⟩
  refine ⟨⟨(i 0).val / 1024 * 8 + 7, ht⟩, (flush0_5 _).mpr (by show ((i 0).val / 1024 * 8 + 7) % 8 = 7; omega), ?_⟩
  rw [mem_blk_out]
  intro a
  match a with
  | ⟨0, _⟩ =>
    show win0_5.index _ (0 : Fin 2) * 1024 ≤ (i 0).val ∧ (i 0).val < win0_5.index _ (0 : Fin 2) * 1024 + 1024
    rw [e0]
    show ((i 0).val / 1024 * 8 + 7) / 8 * 1024 ≤ (i 0).val ∧ (i 0).val < ((i 0).val / 1024 * 8 + 7) / 8 * 1024 + 1024
    omega
  | ⟨1, _⟩ =>
    show win0_5.index _ (1 : Fin 2) * 1 ≤ (i 1).val ∧ (i 1).val < win0_5.index _ (1 : Fin 2) * 1 + 1
    rw [e1]
    omega

/-- So the region leaves the result column at the row values. -/
theorem outArr_eq (c : Dev nD) (hlab : ∀ j : Fin 4096, (m ((c.tc : Thread nD τ).loc main_arg1) (ix1 j)).toNat < 32) :
    outArr m c = resG m c :=
  (dats m 0 c).arrAt_eq_of_cover 5 (resG m c) (fun t hf => flushed_eq m c hlab t hf) out_cover

theorem out_value (c : Dev nD) (hlab : ∀ j : Fin 4096, (m ((c.tc : Thread nD τ).loc main_arg1) (ix1 j)).toNat < 32) (i : Fin 4096) :
    (outArr m c : Vec Ideal S4096x1 .f32) (ix2 i 0) = Cert.Spec.rowValK (featA m c) (labA m c) (wtsA m c) i := by
  rw [outArr_eq m c hlab]

/-! ## The result -/

theorem ker_result (c : Dev nD) (hlab : ∀ j : Fin 4096, (m ((c.tc : Thread nD τ).loc main_arg1) (ix1 j)).toNat < 32) :
    V₅ m c (Proc.devRef .tc main_v17) = fun _ => Cert.Spec.lossK (featA m c) (labA m c) (wtsA m c) := by
  rw [tail_eq m c]
  funext _
  unfold Cert.Spec.lossK
  exact congrArg Cert.Spec.negMean (funext fun i => out_value m c hlab i)

end Cert.KernelIdeal.Hand

end
-- ==== Proof.RefRun.lean ====
/-
  The reference's run and its read-at-an-index lemmas, brought into scope for the modules that read the
  reference's result index by index.
-/
import proofs.«431488_j42425686950476_1_alg».proof.Proof.Gen.ReferenceIdeal.Run
import proofs.«431488_j42425686950476_1_alg».proof.Proof.Gen.ReferenceIdeal.Read
-- ==== Proof.RefValue1.lean ====
/-
  The reference's intermediate arrays read at an index, each as a quantity of the loss: the softmax of a row of
  class scores, the factor that removes the diagonal, the positive-pair mask, the class weight a sample gives to
  another sample's label (a gather of softmax columns), and the scaled similarity of two samples.
-/
import proofs.«431488_j42425686950476_1_alg».proof.Proof.RefRun
import proofs.«431488_j42425686950476_1_alg».proof.Proof.Spec
import proofs.«431488_j42425686950476_1_alg».proof.Proof.Consts
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.ShloMosaic.StableHlo
open Idealize.ShloMosaic.ValueIdx

/-! ## The temperature -/

/-- Dividing by that word is multiplying by its exact reciprocal. -/
theorem div_temp (x : EReal) : Ideal.div x (Ideal.ofBits .f32 0x3D8F5C29#32) = x * Cert.Spec.invT := by
  rw [Cert.Consts.ofBits_temperature, Ideal.div_coe (by norm_num)]
  unfold Cert.Spec.invT
  norm_num

/-! ## Index bookkeeping: a column index [i, 0] of a row i, and a row's index with a coordinate put back -/

/-- A class-score row's index with class k put back is [i, k]. -/
theorem lift32 (h : S4096x32.Reduces [1] S4096) (i : Fin 4096) (k : Fin (S4096x32.size 1)) :
    h.lift (ix1 i) k = ix2 i (⟨k.val, k.isLt⟩ : Fin 32) := by
  funext c; apply Fin.ext
  fin_cases c <;> rfl

/-- A maximum-reduce of a [4096, 32] array over its second axis, at row i: the fold of max from the initial value
    over the row's 32 entries. -/
theorem rowMax32 (x : S4096x32.Idx → Ideal .f32) (init : S_.Idx → Ideal .f32) (i : Fin 4096) :
    Host.reduce (FloatOps.maximumf (F := Ideal) (φ := .f32)) x init Gen.reducesTo_S4096x32_S4096_d1 Gen.h_S_ (ix1 i)
      = (Finset.univ : Finset (Fin 32)).fold max (init (Shape.Idx.first Gen.h_S_)) (fun c => x (ix2 i c)) := by
  have h : S4096x32.Reduces [1] S4096 := by decide
  rw [Host.reduce_eq_fold_single (FloatOps.maximumf (F := Ideal) (φ := .f32)) x init Gen.reducesTo_S4096x32_S4096_d1 h Gen.h_S_]
  have hf : (x ∘ h.lift (ix1 i)) = fun k : Fin 32 => x (ix2 i k) := funext fun k => congrArg x (lift32 h i k)
  rw [hf]
  rfl

/-! ## The softmax of the class scores -/

section Softmax
variable (x2 : (⟨S4096x32, .f32⟩ : BufTy).Contents (Elt Ideal))

/-- The maximum-reduce over the classes, at sample i: the fold of max from minus infinity over the row. -/
theorem v0_at (i : Fin 4096) :
    Read.val_main_v0 (F := Ideal) x2 (ix1 i)
      = (Finset.univ : Finset (Fin 32)).fold max ⊥ (fun c => x2 (ix2 i c)) := by
  unfold Read.val_main_v0
  refine (rowMax32 x2 (Read.val_main_cst (F := Ideal)) i).trans ?_
  have e0 : Read.val_main_cst (F := Ideal) (Shape.Idx.first Gen.h_S_) = (⊥ : EReal) := Cert.Consts.ofBits_neg_inf
  rw [e0]

/-- The shifted maximum the reference subtracts, at sample i. -/
theorem v2_at (i : Fin 4096) :
    Read.val_main_v2 (F := Ideal) x2 (ix1 i)
      = max ⊥ ((Finset.univ : Finset (Fin 32)).fold max ⊥ (fun c => x2 (ix2 i c))) := by
  rw [Read.val_main_v2_apply, Read.val_main_v1_apply, Read.val_main_cst_0_apply, v0_at]
  simp only [Ideal.maximumf_def, Ideal.ofBits_def, Cert.Consts.ofBits_neg_inf]

/-- … broadcast along the classes. -/
theorem v4_at (i : Fin 4096) (c : Fin 32) :
    Read.val_main_v4 (F := Ideal) x2 (ix2 i c)
      = max ⊥ ((Finset.univ : Finset (Fin 32)).fold max ⊥ (fun c => x2 (ix2 i c))) := by
  have e : Read.idx_main_v3 (Read.idx_main_v4 (ix2 i c)) = ix1 i := by
    funext a; match a with | ⟨0, _⟩ => rfl
  rw [Read.val_main_v4_apply, Read.val_main_v3_apply, e, v2_at]

/-- The exponential of a shifted class score. -/
theorem v6_at (i : Fin 4096) (c : Fin 32) :
    Read.val_main_v6 (F := Ideal) x2 (ix2 i c)
      = Ideal.exp (x2 (ix2 i c) - max ⊥ ((Finset.univ : Finset (Fin 32)).fold max ⊥ (fun c => x2 (ix2 i c)))) := by
  rw [Read.val_main_v6_apply, Read.val_main_v5_apply, v4_at]
  simp only [Ideal.hostUnary_exp_def, Ideal.subf_def]

/-- The sum of those exponentials over the classes, at sample i. -/
theorem v7_at (i : Fin 4096) :
    Read.val_main_v7 (F := Ideal) x2 (ix1 i)
      = 0 + ∑ c' : Fin 32, Ideal.exp (x2 (ix2 i c') - max ⊥ ((Finset.univ : Finset (Fin 32)).fold max ⊥ (fun c => x2 (ix2 i c)))) := by
  rw [Read.val_main_v7_apply, Read.val_main_cst_1_apply]
  simp only [Ideal.ofBits_def, Ideal.ofBits_zero_f32]
  refine congrArg (0 + ·) (Finset.sum_congr rfl fun k _ => ?_)
  have e : Read.idx_main_v7 (ix1 i) k = ix2 i k := by
    funext a; match a with | ⟨0, _⟩ => rfl | ⟨1, _⟩ => rfl
  rw [e, v6_at]

/-- THE SOFTMAX: the class weights of sample i at class c. -/
theorem smx_at (i : Fin 4096) (c : Fin 32) :
    Read.val_main_v10 (F := Ideal) x2 (ix2 i c) = Cert.Spec.smx (Cert.Spec.wtsOf x2 i) c := by
  have e : Read.idx_main_v8 (Read.idx_main_v9 (ix2 i c)) = ix1 i := by
    funext a; match a with | ⟨0, _⟩ => rfl
  rw [Read.val_main_v10_apply, Read.val_main_v9_apply, Read.val_main_v8_apply, e, v7_at, v6_at]
  rfl

end Softmax

/-! ## The factor that removes the diagonal -/

/-- Two sample numbers are equal exactly when their 32-bit words are. -/
theorem ofNat_eq_iff (i j : Fin 4096) : BitVec.ofNat 32 i.val = BitVec.ofNat 32 j.val ↔ i = j := by
  constructor
  · intro h
    have := congrArg BitVec.toNat h
    simp only [BitVec.toNat_ofNat] at this
    exact Fin.ext (by have := i.isLt; have := j.isLt; omega)
  · rintro rfl; rfl

/-- A one-bit word as a float: 1 when set, 0 when clear. -/
theorem uitofp_bit (p : Prop) [Decidable p] :
    FloatOps.uitofp (F := Ideal) .f32 (BitVec.ofBool (decide p)) = if p then (1 : EReal) else 0 := by
  by_cases hp : p
  · simp [hp, FloatOps.uitofp]
  · simp [hp, FloatOps.uitofp]

/-- In the extended reals one minus one is zero. -/
theorem one_sub_one : (1 : EReal) - 1 = 0 := by
  rw [← EReal.coe_one, ← EReal.coe_sub, sub_self, EReal.coe_zero]

/-- 1 - [i = j]: one off the diagonal, zero on it. -/
theorem offd_at (i j : Fin 4096) :
    Read.val_main_v24 (F := Ideal) (ix2 i j) = Cert.Spec.offd i j := by
  rw [Read.val_main_v24_apply, Read.val_main_v23_apply, Read.val_main_cst_2_apply, Read.val_main_v22_apply,
    Read.val_main_v21_apply, Read.val_main_v20_apply, Read.val_main_v17_apply, Read.val_main_v18_apply,
    Read.val_main_v19_apply, Read.val_main_c_apply]
  have hc : IntOp.cmpi .eq (IntOp.addi (BitVec.ofNat 32 ((ix2 i j : S4096x4096.Idx) 0).val) 0#32)
      (BitVec.ofNat 32 ((ix2 i j : S4096x4096.Idx) 1).val) = BitVec.ofBool (decide (i = j)) := by
    show BitVec.ofBool (BitVec.ofNat 32 i.val + 0#32 == BitVec.ofNat 32 j.val) = _
    rw [BitVec.add_zero]
    congr 1
    rw [Bool.eq_iff_iff]
    simp only [beq_iff_eq, decide_eq_true_eq]
    exact ofNat_eq_iff i j
  rw [hc, uitofp_bit]
  simp only [Ideal.subf_def, Ideal.ofBits_def, Cert.Consts.ofBits_one]
  unfold Cert.Spec.offd
  by_cases h : i = j
  · rw [if_pos h, if_pos h, one_sub_one]
  · rw [if_neg h, if_neg h, sub_zero]

/-! ## The positive-pair mask -/

section Mask
variable (x1 : (⟨S4096, .i32⟩ : BufTy).Contents (Elt Ideal))

/-- In range, two label words are equal exactly when their classes are. -/
theorem labOf_eq_iff {a b : BitVec 32} (ha : a.toNat < 32) (hb : b.toNat < 32) :
    Cert.Spec.labOf a = Cert.Spec.labOf b ↔ a = b := by
  constructor
  · intro h
    have := congrArg Fin.val h
    simp only [Cert.Spec.labOf] at this
    exact BitVec.eq_of_toNat_eq (by omega)
  · rintro rfl; rfl

/-- [l_i = l_j] off the diagonal. -/
theorem mk_at (hlab : ∀ j : Fin 4096, (x1 (ix1 j)).toNat < 32) (i j : Fin 4096) :
    Read.val_main_v25 (F := Ideal) x1 (ix2 i j) = Cert.Spec.mkS (Cert.Spec.labsOf x1) i j := by
  have e1 : Read.idx_main_v11 (Read.idx_main_v13 (ix2 i j)) = ix1 i := by
    funext a; match a with | ⟨0, _⟩ => rfl
  have e2 : Read.idx_main_v12 (Read.idx_main_v14 (ix2 i j)) = ix1 j := by
    funext a; match a with | ⟨0, _⟩ => rfl
  rw [Read.val_main_v25_apply, offd_at, Read.val_main_v16_apply, Read.val_main_v15_apply, Read.val_main_v13_apply,
    Read.val_main_v14_apply, Read.val_main_v11_apply, Read.val_main_v12_apply, e1, e2]
  have hc : IntOp.cmpi .eq (x1 (ix1 i)) (x1 (ix1 j)) = BitVec.ofBool (decide (x1 (ix1 i) = x1 (ix1 j))) := by
    show BitVec.ofBool (x1 (ix1 i) == x1 (ix1 j)) = _
    congr 1
  rw [hc, uitofp_bit]
  simp only [Ideal.mulf_def]
  unfold Cert.Spec.mkS Cert.Spec.labsOf
  by_cases h : x1 (ix1 i) = x1 (ix1 j)
  · rw [if_pos h, if_pos ((labOf_eq_iff (hlab i) (hlab j)).mpr h)]
  · rw [if_neg h, if_neg (fun h' => h ((labOf_eq_iff (hlab i) (hlab j)).mp h'))]

end Mask

/-! ## The class weight a sample gives to another sample's label: a gather of softmax columns -/

section Gather

/-- The gather's operand index on the sample axis: the result's row. -/
theorem gather_ax0 (idx : IVec S4096x1 32) (i j : Fin 4096) :
    (gather_S4096x32_S4096x1_S4096x4096_0_1_n_n_1_1_40961.operandIdx (ix2 i j : S4096x4096.Idx) idx 0).val = i.val := by
  show gather_S4096x32_S4096x1_S4096x4096_0_1_n_n_1_1_40961.start (ix2 i j : S4096x4096.Idx) idx 0
      + gather_S4096x32_S4096x1_S4096x4096_0_1_n_n_1_1_40961.batchCoord (ix2 i j : S4096x4096.Idx) 0
      + gather_S4096x32_S4096x1_S4096x4096_0_1_n_n_1_1_40961.offCoord (ix2 i j : S4096x4096.Idx) 0 = i.val
  rw [GatherDims.batchCoord_eq_zero _ _ _ List.not_mem_nil]
  have hs : gather_S4096x32_S4096x1_S4096x4096_0_1_n_n_1_1_40961.start (ix2 i j : S4096x4096.Idx) idx 0 = 0 := by
    unfold GatherDims.start
    rw [dif_neg (show ¬(0 : Fin S4096x32.rank) ∈ gather_S4096x32_S4096x1_S4096x4096_0_1_n_n_1_1_40961.startIndexMap by decide)]
  have ho : gather_S4096x32_S4096x1_S4096x4096_0_1_n_n_1_1_40961.offCoord (ix2 i j : S4096x4096.Idx) 0 = i.val := by
    unfold GatherDims.offCoord
    rw [dif_pos (show (0 : Fin S4096x32.rank) ∈ gather_S4096x32_S4096x1_S4096x4096_0_1_n_n_1_1_40961.sKept by decide)]
    rfl
  rw [hs, ho]
  omega

/-- The gather's operand index on the class axis: the start index of the result's column, read signed and clamped
    into the 32 classes. -/
theorem gather_ax1 (idx : IVec S4096x1 32) (i j : Fin 4096) :
    (gather_S4096x32_S4096x1_S4096x4096_0_1_n_n_1_1_40961.operandIdx (ix2 i j : S4096x4096.Idx) idx 1).val
      = min (idx (ix2 j (0 : Fin 1))).toInt.toNat 31 := by
  show gather_S4096x32_S4096x1_S4096x4096_0_1_n_n_1_1_40961.start (ix2 i j : S4096x4096.Idx) idx 1
      + gather_S4096x32_S4096x1_S4096x4096_0_1_n_n_1_1_40961.batchCoord (ix2 i j : S4096x4096.Idx) 1
      + gather_S4096x32_S4096x1_S4096x4096_0_1_n_n_1_1_40961.offCoord (ix2 i j : S4096x4096.Idx) 1 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin S4096x32.rank) ∈ gather_S4096x32_S4096x1_S4096x4096_0_1_n_n_1_1_40961.startIndexMap
    from List.mem_singleton.mpr rfl)]
  have hsi : gather_S4096x32_S4096x1_S4096x4096_0_1_n_n_1_1_40961.siIdx (ix2 i j : S4096x4096.Idx)
      ⟨List.idxOf (1 : Fin S4096x32.rank) gather_S4096x32_S4096x1_S4096x4096_0_1_n_n_1_1_40961.startIndexMap,
        List.idxOf_lt_length_iff.2 (List.mem_singleton.mpr rfl)⟩ = (ix2 j (0 : Fin 1) : S4096x1.Idx) := by
    funext b; refine Fin.ext ?_
    match b with
    | ⟨0, _⟩ => rfl
    | ⟨1, _⟩ => rfl
  rw [hsi]
  rfl

/-- THE GATHER READ AT (i, j): row i of the operand at the class the start index of column j names, clamped. -/
theorem gather_at (x : S4096x32.Idx → EReal) (idx : IVec S4096x1 32) (i j : Fin 4096) :
    Host.gather gather_S4096x32_S4096x1_S4096x4096_0_1_n_n_1_1_40961 x idx (ix2 i j)
      = x (ix2 i (⟨min (idx (ix2 j (0 : Fin 1))).toInt.toNat 31, by omega⟩ : Fin 32)) := by
  unfold Host.gather
  congr 1
  funext a
  refine Fin.ext ?_
  match a with
  | ⟨0, _⟩ => exact gather_ax0 idx i j
  | ⟨1, _⟩ => exact gather_ax1 idx i j

variable (x1 : (⟨S4096, .i32⟩ : BufTy).Contents (Elt Ideal)) (x2 : (⟨S4096x32, .f32⟩ : BufTy).Contents (Elt Ideal))

/-- A label word in range is not negative as a signed word. -/
theorem toInt_of_lt {a : BitVec 32} (ha : a.toNat < 32) : a.toInt = (a.toNat : Int) :=
  BitVec.toInt_eq_toNat_of_lt (by omega)

/-- The gather's start indices at [j, 0]: the label word of sample j (a negative word would be shifted by 32: none
    is, in range). -/
theorem v31_at (hlab : ∀ j : Fin 4096, (x1 (ix1 j)).toNat < 32) (j : Fin 4096) :
    Read.val_main_v31 (F := Ideal) x1 (ix2 j (0 : Fin 1)) = x1 (ix1 j) := by
  have e : Read.idx_main_v31 (ix2 j (0 : Fin 1)) = ix1 j := by
    funext a; match a with | ⟨0, _⟩ => rfl
  rw [Read.val_main_v31_apply, e, Read.val_main_v30_apply, Read.val_main_v27_apply, Read.val_main_v26_apply,
    Read.val_main_c_3_apply]
  have hc : IntOp.cmpi .slt (x1 (ix1 j)) 0#32 = 0#1 := by
    show BitVec.ofBool ((x1 (ix1 j)).slt 0#32) = 0#1
    have : (x1 (ix1 j)).slt 0#32 = false := by
      rw [← Bool.not_eq_true, BitVec.slt_iff_toInt_lt, toInt_of_lt (hlab j)]
      simp
    rw [this]; rfl
  rw [hc, select_zero]

/-- THE CLASS WEIGHT: the softmax of sample i at the class of sample j's label. -/
theorem w_at (hlab : ∀ j : Fin 4096, (x1 (ix1 j)).toNat < 32) (i j : Fin 4096) :
    Read.val_main_v32 (F := Ideal) x1 x2 (ix2 i j)
      = Cert.Spec.smx (Cert.Spec.wtsOf x2 i) (Cert.Spec.labsOf x1 j) := by
  have ec : (⟨min (Read.val_main_v31 (F := Ideal) x1 (ix2 j (0 : Fin 1))).toInt.toNat 31, by omega⟩ : Fin 32)
      = Cert.Spec.labsOf x1 j := by
    refine Fin.ext ?_
    show min (Read.val_main_v31 (F := Ideal) x1 (ix2 j (0 : Fin 1))).toInt.toNat 31 = (x1 (ix1 j)).toNat % 32
    have := hlab j
    rw [v31_at x1 hlab j, toInt_of_lt this, Int.toNat_natCast]
    omega
  unfold Read.val_main_v32
  rw [gather_at, ec, smx_at]

end Gather

/-! ## The scaled similarity -/

/-- <f_i, f_j> divided by the temperature word. -/
theorem sim_at (x0 : (⟨S4096x1024, .f32⟩ : BufTy).Contents (Elt Ideal)) (i j : Fin 4096) :
    Read.val_main_v38 (F := Ideal) x0 (ix2 i j) = Cert.Spec.sim (Cert.Spec.featOf x0) i j := by
  rw [Read.val_main_v38_apply, Read.val_main_v37_apply, Read.val_main_cst_5_apply, Read.val_main_v36_apply]
  simp only [Ideal.hostDivf_def, Ideal.ofBits_def, div_temp]
  unfold Cert.Spec.sim Cert.Spec.featOf
  refine congrArg (· * Cert.Spec.invT) (Finset.sum_congr rfl fun k _ => ?_)
  have el : Read.lidx_main_v36 (ix2 i j) k = ix2 i k := by
    funext a; match a with | ⟨0, _⟩ => rfl | ⟨1, _⟩ => rfl
  have er : Read.idx_main_v35 (Read.ridx_main_v36 (ix2 i j) k) = ix2 j k := by
    funext a; match a with | ⟨0, _⟩ => rfl | ⟨1, _⟩ => rfl
  rw [Read.val_main_v35_apply, el, er]

end Cert.ReferenceIdeal.RefValue

end
-- ==== Proof.RefValue.lean ====
/-
  The reference's result is the loss: each sample's row value assembled from the row maximum of the scaled
  similarities, the normaliser, the weighted sum of log-probabilities over the positive pairs and their count; then
  minus the mean of the 4096 row values.
-/
import proofs.«431488_j42425686950476_1_alg».proof.Proof.RefValue1

noncomputable section

namespace Cert.ReferenceIdeal.RefValue

open Cert.ReferenceIdeal Cert.ReferenceIdeal.Gen Idealize.ShloMosaic Idealize.ShloMosaic.TcCoe Idealize.ShloMosaic.StableHlo
open Idealize.ShloMosaic.ValueIdx

/-! ## A maximum over a row of 4096 -/

/-- A row's index of a [4096, 4096] array with column k put back is [i, k]. -/
theorem lift4096 (h : S4096x4096.Reduces [1] S4096) (i : Fin 4096) (k : Fin (S4096x4096.size 1)) :
    h.lift (ix1 i) k = ix2 i (⟨k.val, k.isLt⟩ : Fin 4096) := by
  funext c; apply Fin.ext
  fin_cases c <;> rfl

/-- A maximum-reduce of a [4096, 4096] array over its second axis, at row i: the fold of max from the initial value
    over the row's 4096 entries. -/
theorem rowMax4096 (x : S4096x4096.Idx → Ideal .f32) (init : S_.Idx → Ideal .f32) (i : Fin 4096) :
    Host.reduce (FloatOps.maximumf (F := Ideal) (φ := .f32)) x init Gen.reducesTo_S4096x4096_S4096_d1 Gen.h_S_ (ix1 i)
      = (Finset.univ : Finset (Fin 4096)).fold max (init (Shape.Idx.first Gen.h_S_)) (fun c => x (ix2 i c)) := by
  have h : S4096x4096.Reduces [1] S4096 := by decide
  rw [Host.reduce_eq_fold_single (FloatOps.maximumf (F := Ideal) (φ := .f32)) x init Gen.reducesTo_S4096x4096_S4096_d1 h Gen.h_S_]
  have hf : (x ∘ h.lift (ix1 i)) = fun k : Fin 4096 => x (ix2 i k) := funext fun k => congrArg x (lift4096 h i k)
  rw [hf]
  rfl

/-! ## One sample's row -/

section Row
variable (x0 : (⟨S4096x1024, .f32⟩ : BufTy).Contents (Elt Ideal)) (x1 : (⟨S4096, .i32⟩ : BufTy).Contents (Elt Ideal))
  (x2 : (⟨S4096x32, .f32⟩ : BufTy).Contents (Elt Ideal))

/-- Sample i's scaled similarities to every sample. -/
abbrev simRow (i : Fin 4096) : Fin 4096 → EReal := Cert.Spec.sim (Cert.Spec.featOf x0) i
/-- The weights sample i gives to every sample's class, off the diagonal. -/
abbrev wmRow (i : Fin 4096) : Fin 4096 → EReal := Cert.Spec.wmS (Cert.Spec.labsOf x1) (Cert.Spec.wtsOf x2) i
/-- Sample i's positive pairs. -/
abbrev mkRow (i : Fin 4096) : Fin 4096 → EReal := Cert.Spec.mkS (Cert.Spec.labsOf x1) i
/-- The largest similarity in sample i's row. -/
abbrev rowTop (i : Fin 4096) : EReal := (Finset.univ : Finset (Fin 4096)).fold max ⊥ (simRow x0 i)
/-- Sample i's normaliser. -/
abbrev rowNorm (i : Fin 4096) : EReal :=
  0 + ∑ j' : Fin 4096, Ideal.exp (simRow x0 i j' - rowTop x0 i) * wmRow x1 x2 i j'

/-- The maximum-reduce of the similarities, at sample i. -/
theorem v39_at (i : Fin 4096) : Read.val_main_v39 (F := Ideal) x0 (ix1 i) = rowTop x0 i := by
  unfold Read.val_main_v39
  refine (rowMax4096 (Read.val_main_v38 (F := Ideal) x0) (Read.val_main_cst_6 (F := Ideal)) i).trans ?_
  have e0 : Read.val_main_cst_6 (F := Ideal) (Shape.Idx.first Gen.h_S_) = (⊥ : EReal) := Cert.Consts.ofBits_neg_inf
  have hf : (fun c : Fin 4096 => Read.val_main_v38 (F := Ideal) x0 (ix2 i c)) = simRow x0 i :=
    funext fun c => sim_at x0 i c
  rw [e0, hf]

/-- A similarity less its row's maximum. -/
theorem v42_at (i j : Fin 4096) :
    Read.val_main_v42 (F := Ideal) x0 (ix2 i j) = simRow x0 i j - rowTop x0 i := by
  have e : Read.idx_main_v40 (Read.idx_main_v41 (ix2 i j)) = ix1 i := by
    funext a; match a with | ⟨0, _⟩ => rfl
  rw [Read.val_main_v42_apply, Read.val_main_v41_apply, Read.val_main_v40_apply, e, v39_at, sim_at]
  all_goals rfl

variable (hlab : ∀ j : Fin 4096, (x1 (ix1 j)).toNat < 32)
include hlab

/-- The class weight off the diagonal. -/
theorem v33_at (i j : Fin 4096) : Read.val_main_v33 (F := Ideal) x1 x2 (ix2 i j) = wmRow x1 x2 i j := by
  rw [Read.val_main_v33_apply, w_at x1 x2 hlab, offd_at]
  all_goals rfl

/-- The class weight on the positive pairs. -/
theorem v34_at (i j : Fin 4096) :
    Read.val_main_v34 (F := Ideal) x1 x2 (ix2 i j) = wmRow x1 x2 i j * mkRow x1 i j := by
  rw [Read.val_main_v34_apply, v33_at x1 x2 hlab, mk_at x1 hlab]
  all_goals rfl

/-- A term of the normaliser. -/
theorem v44_at (i j : Fin 4096) :
    Read.val_main_v44 (F := Ideal) x0 x1 x2 (ix2 i j)
      = Ideal.exp (simRow x0 i j - rowTop x0 i) * wmRow x1 x2 i j := by
  rw [Read.val_main_v44_apply, Read.val_main_v43_apply, v42_at, v33_at x1 x2 hlab]
  all_goals rfl

/-- The normaliser of sample i. -/
theorem v45_at (i : Fin 4096) : Read.val_main_v45 (F := Ideal) x0 x1 x2 (ix1 i) = rowNorm x0 x1 x2 i := by
  rw [Read.val_main_v45_apply, Read.val_main_cst_7_apply]
  simp only [Ideal.ofBits_def, Cert.Consts.ofBits_zero]
  refine congrArg (0 + ·) (Finset.sum_congr rfl fun k _ => ?_)
  have e : Read.idx_main_v45 (ix1 i) k = ix2 i k := by
    funext a; match a with | ⟨0, _⟩ => rfl | ⟨1, _⟩ => rfl
  rw [e, v44_at x0 x1 x2 hlab]

/-- Its logarithm, along the row. -/
theorem v48_at (i j : Fin 4096) :
    Read.val_main_v48 (F := Ideal) x0 x1 x2 (ix2 i j) = Ideal.log (rowNorm x0 x1 x2 i) := by
  have e : Read.idx_main_v46 (Read.idx_main_v48 (ix2 i j)) = ix1 i := by
    funext a; match a with | ⟨0, _⟩ => rfl
  rw [Read.val_main_v48_apply, Read.val_main_v47_apply, Read.val_main_v46_apply, e, v45_at x0 x1 x2 hlab]
  all_goals rfl

/-- A term of the weighted sum of log-probabilities. -/
theorem v50_at (i j : Fin 4096) :
    Read.val_main_v50 (F := Ideal) x0 x1 x2 (ix2 i j)
      = (wmRow x1 x2 i j * mkRow x1 i j)
          * ((simRow x0 i j - rowTop x0 i) - Ideal.log (rowNorm x0 x1 x2 i)) := by
  rw [Read.val_main_v50_apply, v34_at x1 x2 hlab, Read.val_main_v49_apply, v42_at, v48_at x0 x1 x2 hlab]
  all_goals rfl

/-- The weighted sum of log-probabilities over sample i's positive pairs. -/
theorem v51_at (i : Fin 4096) :
    Read.val_main_v51 (F := Ideal) x0 x1 x2 (ix1 i)
      = 0 + ∑ j : Fin 4096, (wmRow x1 x2 i j * mkRow x1 i j)
          * ((simRow x0 i j - rowTop x0 i) - Ideal.log (rowNorm x0 x1 x2 i)) := by
  rw [Read.val_main_v51_apply, Read.val_main_cst_8_apply]
  simp only [Ideal.ofBits_def, Cert.Consts.ofBits_zero]
  refine congrArg (0 + ·) (Finset.sum_congr rfl fun k _ => ?_)
  have e : Read.idx_main_v51 (ix1 i) k = ix2 i k := by
    funext a; match a with | ⟨0, _⟩ => rfl | ⟨1, _⟩ => rfl
  rw [e, v50_at x0 x1 x2 hlab]

/-- The number of sample i's positive pairs. -/
theorem v52_at (i : Fin 4096) :
    Read.val_main_v52 (F := Ideal) x1 (ix1 i) = 0 + ∑ j : Fin 4096, mkRow x1 i j := by
  rw [Read.val_main_v52_apply, Read.val_main_cst_9_apply]
  simp only [Ideal.ofBits_def, Cert.Consts.ofBits_zero]
  refine congrArg (0 + ·) (Finset.sum_congr rfl fun k _ => ?_)
  have e : Read.idx_main_v52 (ix1 i) k = ix2 i k := by
    funext a; match a with | ⟨0, _⟩ => rfl | ⟨1, _⟩ => rfl
  rw [e, mk_at x1 hlab]

/-- SAMPLE i'S ROW VALUE. -/
theorem v53_at (i : Fin 4096) :
    Read.val_main_v53 (F := Ideal) x0 x1 x2 (ix1 i)
      = Cert.Spec.rowVal (Cert.Spec.featOf x0) (Cert.Spec.labsOf x1) (Cert.Spec.wtsOf x2) i := by
  rw [Read.val_main_v53_apply, v51_at x0 x1 x2 hlab, v52_at x1 hlab]
  all_goals rfl

/-! ## Minus the mean -/

/-- A sample number and the rank-1 index it names. -/
def idxEquiv1 : S4096.Idx ≃ Fin 4096 where
  toFun i := i 0
  invFun a := ix1 a
  left_inv i := (eq_ix1 i).symm
  right_inv _ := rfl

/-- THE LOSS: the reference's last stage, at its one index. -/
theorem loss_at (idx : S_.Idx) :
    Read.val_main_v56 (F := Ideal) x0 x1 x2 idx
      = Cert.Spec.loss (Cert.Spec.featOf x0) (Cert.Spec.labsOf x1) (Cert.Spec.wtsOf x2) := by
  rw [Read.val_main_v56_apply, Read.val_main_v55_apply, Read.val_main_cst_11_apply, Read.val_main_v54_apply,
    Read.val_main_cst_10_apply]
  simp only [Ideal.ofBits_def, Cert.Consts.ofBits_zero]
  have hs : (∑ j : S4096.Idx, Read.val_main_v53 (F := Ideal) x0 x1 x2 j)
      = ∑ i : Fin 4096, Cert.Spec.rowVal (Cert.Spec.featOf x0) (Cert.Spec.labsOf x1) (Cert.Spec.wtsOf x2) i := by
    refine (Equiv.sum_comp idxEquiv1.symm _).symm.trans ?_
    exact Finset.sum_congr rfl fun i _ => v53_at x0 x1 x2 hlab i
  rw [hs]
  all_goals rfl

end Row

/-! ## The run's result -/

/-- The reference's result, under labels in range, is the loss of the three argument arrays. -/
theorem ref_result (m : (ℓ : Loc nD τ sig) → Buf (Elt Ideal) ℓ) (c : Dev nD)
    (hlab : ∀ j : Fin 4096, (m ((c.tc : Thread nD τ).loc main_arg1) (ValueIdx.ix1 j)).toNat < 32) :
    Cert.ReferenceIdeal.Value.res_out0 (F := Ideal) m c
      = fun _ => Cert.Spec.loss (Cert.Spec.featOf (m ((c.tc : Thread nD τ).loc main_arg0)))
          (Cert.Spec.labsOf (m ((c.tc : Thread nD τ).loc main_arg1)))
          (Cert.Spec.wtsOf (m ((c.tc : Thread nD τ).loc main_arg2))) := by
  funext idx
  show Cert.ReferenceIdeal.Value.res_main_v56 (F := Ideal) m c idx = _
  rw [Read.val_main_v56_eq]
  exact loss_at _ _ _ hlab idx

end Cert.ReferenceIdeal.RefValue

end
-- ==== Proof.PreFacts.lean ====
import proofs.«431488_j42425686950476_1_alg».proof.Pre_finite_inputs
import proofs.«431488_j42425686950476_1_alg».proof.Proof.Gen.Pre_finite_inputs
import proofs.«431488_j42425686950476_1_alg».proof.Proof.Spec
import Idealize.ShloMosaic.Lib.ReduceAll
import Idealize.ShloMosaic.Lib.StableHlo.Predicate
import Idealize.ShloMosaic.Lib.ValueIdx

noncomputable section

namespace Cert.PreFacts

open Idealize.ShloMosaic

/-- The scalar shape has one index. -/
local instance : Subsingleton Cert.Pre_finite_inputs.S_.Idx := ⟨fun a b => funext fun d => d.elim0⟩

/-- An extended real whose absolute value is below +∞ is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- A 32-bit word that, read signed, is at least 0 and below 32 has a value below 32. -/
theorem toNat_lt_of_signed (l : BitVec 32) (h0 : IntOp.cmpi .sge l 0#32 = 1#1) (h1 : IntOp.cmpi .slt l 32#32 = 1#1) :
    l.toNat < 32 := by
  simp only [IntOp.cmpi, StableHlo.Predicate.ofBool_eq_one_iff, BitVec.sle, BitVec.slt, decide_eq_true_eq] at h0 h1
  have e0 : (0#32 : BitVec 32).toInt = 0 := by decide
  have e32 : (32#32 : BitVec 32).toInt = 32 := by decide
  rw [e0] at h0
  rw [e32] at h1
  rw [BitVec.toInt_eq_toNat_cond] at h0 h1
  have hl := l.isLt
  split at h0 <;> omega

/-- Under the precondition every feature and every class score is a real number and every label, read as a
    natural number, is below 32: the three all-reductions by `and` give each element's comparison, the float one says
    the absolute value is below +∞, the integer pair says the signed word lies in [0, 32). -/
theorem of_pre (x0 : FVec Ideal Cert.Pre_finite_inputs.S4096x1024 .f32) (x1 : IVec Cert.Pre_finite_inputs.S4096 32)
    (x2 : FVec Ideal Cert.Pre_finite_inputs.S4096x32 .f32)
    (h : Cert.Pre_finite_inputs.fn (F := Ideal) x0 x1 x2 = fun _ => 1#1) :
    (∀ (i : Fin 4096) (d : Fin 1024), ∃ r : ℝ, Cert.Spec.featOf x0 i d = (r : EReal))
    ∧ (∀ (i : Fin 4096) (c : Fin 32), ∃ r : ℝ, Cert.Spec.wtsOf x2 i c = (r : EReal))
    ∧ (∀ j : Fin 4096, (x1 (ValueIdx.ix1 j)).toNat < 32) := by
  have e := congrFun h ValueIdx.ix0
  dsimp only [Cert.Pre_finite_inputs.fn] at e
  change IntOp.andi (IntOp.andi _ _) _ = 1#1 at e
  obtain ⟨e12, e3⟩ := IntOp.andi_eq_one.1 e
  obtain ⟨e1, e2⟩ := IntOp.andi_eq_one.1 e12
  refine ⟨fun i d => ?_, fun i c => ?_, fun j => ?_⟩
  · exact real_of_abs_lt_top _ (Host.reduce_andi_all _ _ _ _ _ e1 (ValueIdx.ix2 i d))
  · exact real_of_abs_lt_top _ (Host.reduce_andi_all _ _ _ _ _ e2 (ValueIdx.ix2 i c))
  · have ej := Host.reduce_andi_all _ _ _ _ _ e3 (ValueIdx.ix1 j)
    change IntOp.andi (IntOp.cmpi .sge (x1 (ValueIdx.ix1 j)) 0#32) (IntOp.cmpi .slt (x1 (ValueIdx.ix1 j)) 32#32) = 1#1 at ej
    obtain ⟨ea, eb⟩ := IntOp.andi_eq_one.1 ej
    exact toNat_lt_of_signed _ ea eb

end Cert.PreFacts

end
-- ==== Proof.RowMath.lean ====
/-
  The two arrangements of a row value agree on real data.

  A row of 4096 real scores s_j, nonnegative real weights wm_j (one of them positive) and real masks mk_j is
  accumulated either at once (the maximum M of the whole row first, then Z = sum_j exp(s_j - M) wm_j and the masked
  sum of (s_j - M) - log Z) or over eight blocks of 512 columns with a running maximum. After k >= 1 blocks the running
  maximum is the real maximum M_k of the columns met so far and the running normaliser is
  sum exp(s_j - M_k) wm_j over those columns: when the maximum grows from M_k to M_{k+1} every term is multiplied by
  exp(M_k - M_{k+1}), and exp(s_j - M_k) exp(M_k - M_{k+1}) = exp(s_j - M_{k+1}). Before the first block the maximum is
  minus infinity and the normaliser 0, so the first block just starts the sum. The eight blocks are the whole row, and
  (A - M W) - log Z * W = sum_j wm_j mk_j ((s_j - M) - log Z) by distributing the sum.
-/
import proofs.«431488_j42425686950476_1_alg».proof.Proof.Spec
import Mathlib.Data.EReal.Basic
import Mathlib.Data.EReal.Operations
import Mathlib.Data.EReal.Inv
import Mathlib.Analysis.SpecialFunctions.Exp
import Mathlib.Analysis.SpecialFunctions.Log.Basic
import Mathlib.Algebra.BigOperators.Fin
import Mathlib.Algebra.BigOperators.Ring.Finset
import Mathlib.Algebra.BigOperators.Group.Finset.Basic
import Mathlib.Algebra.Order.BigOperators.Group.Finset
import Mathlib.Data.Fintype.BigOperators
import Mathlib.Data.Finset.Lattice.Fold
import Mathlib.Data.Finset.Fold

noncomputable section

namespace Cert.Spec

open Idealize.ShloMosaic

/-! ## Coercions, sums and maxima -/

/-- The coercion of a finite real sum is the sum of the coercions. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- Folding the maximum from minus infinity is the supremum. -/
theorem fold_max_eq_sup {ι : Type*} (t : Finset ι) (f : ι → EReal) :
    t.fold max ⊥ f = t.sup f := by
  rfl

/-- The supremum of finitely many reals, at least one, is one of them: a real. -/
theorem sup_coe_real {ι : Type*} (t : Finset ι) (ht : t.Nonempty) (f : ι → ℝ) :
    ∃ M : ℝ, t.sup (fun i => (f i : EReal)) = (M : EReal) := by
  obtain ⟨i, _, hi⟩ := Finset.exists_mem_eq_sup t ht (fun i => (f i : EReal))
  exact ⟨f i, hi⟩

/-- One term of a normaliser, on reals. -/
theorem exp_sub_mul (a M w : ℝ) :
    Ideal.exp ((a : EReal) - (M : EReal)) * (w : EReal) = ((Real.exp (a - M) * w : ℝ) : EReal) := by
  rw [← EReal.coe_sub, Ideal.exp_coe, ← EReal.coe_mul]

/-! ## The running quantities on real blocks -/

section blocks
variable (sb wb mb : ℕ → Fin 512 → ℝ)

/-- The running quantities after `k` blocks of real data. -/
def aft (k : ℕ) : RowSt :=
  RowSt.after (fun k j => (sb k j : EReal)) (fun k j => (wb k j : EReal)) (fun k j => (mb k j : EReal)) k

theorem aft_succ (k : ℕ) :
    aft sb wb mb (k + 1) = (aft sb wb mb k).step (fun j => (sb k j : EReal)) (fun j => (wb k j : EReal))
      (fun j => (mb k j : EReal)) := rfl

theorem step_z_eq (st : RowSt) (s w m : Fin 512 → EReal) :
    (st.step s w m).z = st.z * Ideal.exp (st.mx - (st.step s w m).mx)
      + ∑ j : Fin 512, Ideal.exp (s j - (st.step s w m).mx) * w j := rfl

/-- The running maximum is the supremum over the blocks met so far. -/
theorem aft_mx (k : ℕ) :
    (aft sb wb mb k).mx
      = (Finset.range k).sup (fun k' => (Finset.univ : Finset (Fin 512)).sup (fun j => (sb k' j : EReal))) := by
  induction k with
  | zero => rfl
  | succ k ih =>
    rw [aft_succ]
    show max (aft sb wb mb k).mx ((Finset.univ : Finset (Fin 512)).fold max ⊥ (fun j => (sb k j : EReal))) = _
    rw [ih, fold_max_eq_sup, Finset.range_add_one, Finset.sup_insert, max_comm]

/-- After at least one block the running maximum is a real. -/
theorem aft_mx_real (k : ℕ) : ∃ M : ℝ, (aft sb wb mb (k + 1)).mx = (M : EReal) := by
  rw [aft_mx]
  obtain ⟨k', _, hk'⟩ := Finset.exists_mem_eq_sup (Finset.range (k + 1)) ⟨0, by simp⟩
    (fun k' => (Finset.univ : Finset (Fin 512)).sup (fun j => (sb k' j : EReal)))
  obtain ⟨M, hM⟩ := sup_coe_real Finset.univ ⟨0, Finset.mem_univ _⟩ (sb k')
  exact ⟨M, hk'.trans hM⟩

/-- The weighted masked sum of scores. -/
theorem aft_a (k : ℕ) :
    (aft sb wb mb k).a
      = ((∑ k' ∈ Finset.range k, ∑ j : Fin 512, (wb k' j * mb k' j) * sb k' j : ℝ) : EReal) := by
  induction k with
  | zero => simp [aft, RowSt.after, RowSt.init]
  | succ k ih =>
    rw [aft_succ]
    show (aft sb wb mb k).a + ∑ j : Fin 512, ((wb k j : EReal) * (mb k j : EReal)) * (sb k j : EReal) = _
    rw [ih, Finset.sum_range_succ, EReal.coe_add, coe_sum Finset.univ]
    simp only [EReal.coe_mul]

/-- The weighted masked count. -/
theorem aft_w (k : ℕ) :
    (aft sb wb mb k).w = ((∑ k' ∈ Finset.range k, ∑ j : Fin 512, wb k' j * mb k' j : ℝ) : EReal) := by
  induction k with
  | zero => simp [aft, RowSt.after, RowSt.init]
  | succ k ih =>
    rw [aft_succ]
    show (aft sb wb mb k).w + ∑ j : Fin 512, (wb k j : EReal) * (mb k j : EReal) = _
    rw [ih, Finset.sum_range_succ, EReal.coe_add, coe_sum Finset.univ]
    simp only [EReal.coe_mul]

/-- The masked count. -/
theorem aft_mm (k : ℕ) :
    (aft sb wb mb k).mm = ((∑ k' ∈ Finset.range k, ∑ j : Fin 512, mb k' j : ℝ) : EReal) := by
  induction k with
  | zero => simp [aft, RowSt.after, RowSt.init]
  | succ k ih =>
    rw [aft_succ]
    show (aft sb wb mb k).mm + ∑ j : Fin 512, (mb k j : EReal) = _
    rw [ih, Finset.sum_range_succ, EReal.coe_add, coe_sum Finset.univ]

/-- The running normaliser is the normaliser of the columns met so far at the running maximum. -/
theorem aft_z (k : ℕ) (M : ℝ) (hM : (aft sb wb mb (k + 1)).mx = (M : EReal)) :
    (aft sb wb mb (k + 1)).z
      = ((∑ k' ∈ Finset.range (k + 1), ∑ j : Fin 512, Real.exp (sb k' j - M) * wb k' j : ℝ) : EReal) := by
  induction k generalizing M with
  | zero =>
    rw [aft_succ] at hM ⊢
    rw [step_z_eq, hM]
    show (0 : EReal) * _ + _ = _
    rw [zero_mul, zero_add, Finset.sum_range_one, coe_sum Finset.univ]
    exact Finset.sum_congr rfl fun j _ => exp_sub_mul _ _ _
  | succ k ih =>
    obtain ⟨M0, hM0⟩ := aft_mx_real sb wb mb k
    have hz := ih M0 hM0
    rw [aft_succ sb wb mb (k + 1)] at hM ⊢
    rw [step_z_eq, hM, hz, hM0, ← EReal.coe_sub, Ideal.exp_coe, ← EReal.coe_mul]
    have hblk : ∑ j : Fin 512, Ideal.exp ((sb (k + 1) j : EReal) - (M : EReal)) * (wb (k + 1) j : EReal)
        = ((∑ j : Fin 512, Real.exp (sb (k + 1) j - M) * wb (k + 1) j : ℝ) : EReal) := by
      rw [coe_sum Finset.univ]
      exact Finset.sum_congr rfl fun j _ => exp_sub_mul _ _ _
    rw [hblk, ← EReal.coe_add, Finset.sum_range_succ _ (k + 1)]
    congr 2
    rw [Finset.sum_mul]
    refine Finset.sum_congr rfl fun k' _ => ?_
    rw [Finset.sum_mul]
    refine Finset.sum_congr rfl fun j _ => ?_
    rw [mul_right_comm, ← Real.exp_add]
    congr 2
    ring

end blocks

/-! ## The eight blocks are the whole row -/

/-- Block and column in the block against column in the row. -/
def colEquiv : Fin 8 × Fin 512 ≃ Fin 4096 where
  toFun p := ⟨p.1.val * 512 + p.2.val, by have := p.1.isLt; have := p.2.isLt; omega⟩
  invFun i := (⟨i.val / 512, by have := i.isLt; omega⟩, ⟨i.val % 512, by omega⟩)
  left_inv p := by
    have := p.1.isLt; have := p.2.isLt
    ext <;> simp <;> omega
  right_inv i := by
    ext; simp; omega

theorem col_eq (p : Fin 8 × Fin 512) : col p.1.val p.2 = colEquiv p := by
  have := p.1.isLt; have := p.2.isLt
  ext
  simp only [col, colEquiv, Equiv.coe_fn_mk]
  omega

/-- A sum over the eight blocks is the sum over the row. -/
theorem sum_blocks {β : Type*} [AddCommMonoid β] (f : Fin 4096 → β) :
    ∑ k ∈ Finset.range 8, ∑ j : Fin 512, f (col k j) = ∑ i : Fin 4096, f i :=
  calc ∑ k ∈ Finset.range 8, ∑ j : Fin 512, f (col k j)
      = ∑ k : Fin 8, ∑ j : Fin 512, f (col k.val j) :=
        (Fin.sum_univ_eq_sum_range (fun k => ∑ j : Fin 512, f (col k j)) 8).symm
    _ = ∑ p : Fin 8 × Fin 512, f (col p.1.val p.2) :=
        (Fintype.sum_prod_type' (fun (k : Fin 8) (j : Fin 512) => f (col k.val j))).symm
    _ = ∑ i : Fin 4096, f i := Fintype.sum_equiv colEquiv _ _ (fun p => by rw [col_eq])

/-- The supremum over the eight blocks is the supremum over the row. -/
theorem sup_blocks (f : Fin 4096 → EReal) :
    (Finset.range 8).sup (fun k => (Finset.univ : Finset (Fin 512)).sup (fun j => f (col k j)))
      = (Finset.univ : Finset (Fin 4096)).sup f := by
  apply le_antisymm
  · exact Finset.sup_le fun k _ => Finset.sup_le fun j _ => Finset.le_sup (Finset.mem_univ _)
  · refine Finset.sup_le fun i _ => ?_
    have hi := i.isLt
    have hk : i.val / 512 < 8 := by omega
    have hj : i.val % 512 < 512 := by omega
    have hcol : col (i.val / 512) ⟨i.val % 512, hj⟩ = i := by
      ext
      simp only [col]
      omega
    calc f i = f (col (i.val / 512) ⟨i.val % 512, hj⟩) := by rw [hcol]
      _ ≤ (Finset.univ : Finset (Fin 512)).sup (fun j => f (col (i.val / 512) j)) :=
          Finset.le_sup (f := fun j => f (col (i.val / 512) j)) (Finset.mem_univ _)
      _ ≤ _ := Finset.le_sup (f := fun k => (Finset.univ : Finset (Fin 512)).sup (fun j => f (col k j)))
          (Finset.mem_range.mpr hk)

/-! ## The row on real data -/

section row
variable (sr wr mr : Fin 4096 → ℝ)

/-- The running quantities after `k` blocks of a real row. -/
def rowAft (k : ℕ) : RowSt :=
  aft (fun k j => sr (col k j)) (fun k j => wr (col k j)) (fun k j => mr (col k j)) k

theorem row_a : (rowAft sr wr mr 8).a = ((∑ i, (wr i * mr i) * sr i : ℝ) : EReal) :=
  (aft_a _ _ _ 8).trans (congrArg Real.toEReal (sum_blocks (fun i => (wr i * mr i) * sr i)))

theorem row_w : (rowAft sr wr mr 8).w = ((∑ i, wr i * mr i : ℝ) : EReal) :=
  (aft_w _ _ _ 8).trans (congrArg Real.toEReal (sum_blocks (fun i => wr i * mr i)))

theorem row_mm : (rowAft sr wr mr 8).mm = ((∑ i, mr i : ℝ) : EReal) :=
  (aft_mm _ _ _ 8).trans (congrArg Real.toEReal (sum_blocks (fun i => mr i)))

theorem row_mx : (rowAft sr wr mr 8).mx = (Finset.univ : Finset (Fin 4096)).sup (fun j => (sr j : EReal)) :=
  (aft_mx _ _ _ 8).trans (sup_blocks (fun j => (sr j : EReal)))

theorem row_z (M : ℝ) (hM : (rowAft sr wr mr 8).mx = (M : EReal)) :
    (rowAft sr wr mr 8).z = ((∑ i, Real.exp (sr i - M) * wr i : ℝ) : EReal) :=
  (aft_z _ _ _ 7 M hM).trans (congrArg Real.toEReal (sum_blocks (fun i => Real.exp (sr i - M) * wr i)))

/-- Distributing the masked sum: (A - M W) - L W = sum_j wm_j mk_j ((s_j - M) - L). -/
theorem close_identity (M L : ℝ) :
    ((∑ i, (wr i * mr i) * sr i) - M * ∑ i, wr i * mr i) - L * ∑ i, wr i * mr i
      = ∑ i, (wr i * mr i) * ((sr i - M) - L) := by
  rw [Finset.mul_sum, Finset.mul_sum, ← Finset.sum_sub_distrib, ← Finset.sum_sub_distrib]
  exact Finset.sum_congr rfl fun i _ => by ring

end row

/-- The kernel's arrangement of a row value is the reference's: real scores, nonnegative real weights with one
    positive, real masks. -/
theorem kerRow_eq_refRow (s wm mk : Fin 4096 → EReal)
    (hs : ∀ j, ∃ r : ℝ, s j = (r : EReal))
    (hwm : ∀ j, ∃ r : ℝ, 0 ≤ r ∧ wm j = (r : EReal))
    (hmk : ∀ j, ∃ r : ℝ, mk j = (r : EReal))
    (hpos : ∃ j, 0 < wm j) :
    kerRow s wm mk = refRow s wm mk := by
  choose sr hsr using hs
  choose wr hwr0 hwr using hwm
  choose mr hmr using hmk
  obtain rfl : s = fun j => (sr j : EReal) := funext hsr
  obtain rfl : wm = fun j => (wr j : EReal) := funext hwr
  obtain rfl : mk = fun j => (mr j : EReal) := funext hmr
  obtain ⟨j0, hj0⟩ := hpos
  have hj0' : 0 < wr j0 := EReal.coe_pos.mp hj0
  -- the row's maximum is a real
  obtain ⟨M, hsup⟩ := sup_coe_real Finset.univ ⟨j0, Finset.mem_univ _⟩ sr
  have hM : (rowAft sr wr mr 8).mx = (M : EReal) := (row_mx sr wr mr).trans hsup
  have hfold : (Finset.univ : Finset (Fin 4096)).fold max ⊥ (fun j => (sr j : EReal)) = (M : EReal) := by
    rw [fold_max_eq_sup, hsup]
  -- the normaliser is a positive real, so its logarithm is a real
  have hZpos : 0 < ∑ i, Real.exp (sr i - M) * wr i :=
    Finset.sum_pos' (fun i _ => mul_nonneg (Real.exp_pos _).le (hwr0 i))
      ⟨j0, Finset.mem_univ _, mul_pos (Real.exp_pos _) hj0'⟩
  have hlog : Ideal.log ((∑ i, Real.exp (sr i - M) * wr i : ℝ) : EReal)
      = ((Real.log (∑ i, Real.exp (sr i - M) * wr i) : ℝ) : EReal) := by
    rw [Ideal.log_coe, if_neg (not_le.mpr hZpos)]
  have hZ : (0 : EReal) + ∑ j' : Fin 4096, Ideal.exp ((sr j' : EReal) - (M : EReal)) * (wr j' : EReal)
      = ((∑ i, Real.exp (sr i - M) * wr i : ℝ) : EReal) := by
    rw [zero_add, coe_sum Finset.univ]
    exact Finset.sum_congr rfl fun j _ => exp_sub_mul _ _ _
  have hker : kerRow (fun j => (sr j : EReal)) (fun j => (wr j : EReal)) (fun j => (mr j : EReal))
      = (rowAft sr wr mr 8).close := rfl
  -- the numerator and the denominator of the reference's quotient
  have hnum : (0 : EReal) + ∑ j : Fin 4096, ((wr j : EReal) * (mr j : EReal))
        * (((sr j : EReal) - (M : EReal)) - ((Real.log (∑ i, Real.exp (sr i - M) * wr i) : ℝ) : EReal))
      = (((∑ i, (wr i * mr i) * sr i : ℝ) : EReal) - (M : EReal) * ((∑ i, wr i * mr i : ℝ) : EReal))
        - ((Real.log (∑ i, Real.exp (sr i - M) * wr i) : ℝ) : EReal) * ((∑ i, wr i * mr i : ℝ) : EReal) := by
    rw [zero_add, ← EReal.coe_mul, ← EReal.coe_sub, ← EReal.coe_mul, ← EReal.coe_sub, close_identity,
      coe_sum Finset.univ]
    refine Finset.sum_congr rfl fun j _ => ?_
    rw [EReal.coe_mul, EReal.coe_mul, EReal.coe_sub, EReal.coe_sub]
  have hden : (0 : EReal) + ∑ j : Fin 4096, (mr j : EReal) = ((∑ i, mr i : ℝ) : EReal) := by
    rw [zero_add, coe_sum Finset.univ]
  rw [hker, RowSt.close, hM, row_z sr wr mr M hM, row_a, row_w, row_mm, hlog]
  unfold refRow
  rw [hfold, hZ, hlog, hnum, hden]

/-! ## The class weights and the similarities are real -/

/-- A softmax row of real scores is positive and real. -/
theorem smx_pos (x : Fin 32 → EReal) (hx : ∀ c, ∃ r : ℝ, x c = (r : EReal)) (c : Fin 32) :
    ∃ r : ℝ, 0 < r ∧ smx x c = (r : EReal) := by
  choose xr hxr using hx
  obtain rfl : x = fun c => (xr c : EReal) := funext hxr
  obtain ⟨m, hm⟩ := sup_coe_real Finset.univ ⟨0, Finset.mem_univ _⟩ xr
  have hfold : max (⊥ : EReal) ((Finset.univ : Finset (Fin 32)).fold max ⊥ (fun c => (xr c : EReal))) = (m : EReal) := by
    rw [fold_max_eq_sup, hm]
    exact max_eq_right bot_le
  have hD : 0 < ∑ c' : Fin 32, Real.exp (xr c' - m) :=
    Finset.sum_pos (fun c' _ => Real.exp_pos _) ⟨0, Finset.mem_univ _⟩
  have hden : (0 : EReal) + ∑ c' : Fin 32, Ideal.exp ((xr c' : EReal) - (m : EReal))
      = ((∑ c' : Fin 32, Real.exp (xr c' - m) : ℝ) : EReal) := by
    rw [zero_add, coe_sum Finset.univ]
    exact Finset.sum_congr rfl fun c' _ => by rw [← EReal.coe_sub, Ideal.exp_coe]
  refine ⟨Real.exp (xr c - m) * (1 / ∑ c' : Fin 32, Real.exp (xr c' - m)),
    mul_pos (Real.exp_pos _) (one_div_pos.mpr hD), ?_⟩
  unfold smx
  rw [hfold, hden, Ideal.div_coe hD.ne', ← EReal.coe_sub, Ideal.exp_coe, ← EReal.coe_mul]

/-- A scaled inner product of real feature rows is real. -/
theorem sim_real (feat : Fin 4096 → Fin 1024 → EReal) (hf : ∀ i d, ∃ r : ℝ, feat i d = (r : EReal))
    (i j : Fin 4096) : ∃ r : ℝ, sim feat i j = (r : EReal) := by
  choose fr hfr using hf
  refine ⟨(∑ d : Fin 1024, fr i d * fr j d) * (134217728 / 9395241 : ℝ), ?_⟩
  unfold sim invT
  rw [EReal.coe_mul, coe_sum Finset.univ]
  congr 1
  exact Finset.sum_congr rfl fun d _ => by rw [hfr, hfr, EReal.coe_mul]

end Cert.Spec

end
-- ==== Proof.Bridge.lean ====
/-
  Under the precondition the two arrangements of a row agree, hence the two losses.

  With every feature and class score a real number, each scaled similarity is real, each gathered weight is a
  positive softmax entry times 0 or 1, each positive-pair indicator is 0 or 1, and some off-diagonal column carries a
  positive weight (there is more than one sample): the hypotheses under which the blockwise accumulation with a
  running maximum equals the whole-row form.
-/
import proofs.«431488_j42425686950476_1_alg».proof.Proof.RowMath

noncomputable section

namespace Cert.Spec

theorem offd_real (i j : Fin 4096) : ∃ r : ℝ, 0 ≤ r ∧ offd i j = (r : EReal) := by
  unfold offd
  by_cases h : i = j
  · exact ⟨0, le_refl _, by rw [if_pos h]; rfl⟩
  · exact ⟨1, zero_le_one, by rw [if_neg h]; rfl⟩

theorem lossK_eq_loss (feat : Fin 4096 → Fin 1024 → EReal) (lab : Fin 4096 → Fin 32) (wts : Fin 4096 → Fin 32 → EReal)
    (hf : ∀ i d, ∃ r : ℝ, feat i d = (r : EReal)) (hw : ∀ i c, ∃ r : ℝ, wts i c = (r : EReal)) :
    lossK feat lab wts = loss feat lab wts := by
  unfold lossK loss
  congr 1
  funext i
  unfold rowValK rowVal
  refine kerRow_eq_refRow _ _ _ (sim_real feat hf i) ?_ ?_ ?_
  · intro j
    obtain ⟨r, hr, hs⟩ := smx_pos (wts i) (hw i) (lab j)
    obtain ⟨e, he, ho⟩ := offd_real i j
    exact ⟨r * e, mul_nonneg hr.le he, by unfold wmS; rw [hs, ho, EReal.coe_mul]⟩
  · intro j
    obtain ⟨e, _, ho⟩ := offd_real i j
    unfold mkS
    by_cases h : lab i = lab j
    · exact ⟨1 * e, by rw [if_pos h, ho, EReal.coe_mul]; rfl⟩
    · exact ⟨0 * e, by rw [if_neg h, ho, EReal.coe_mul]; rfl⟩
  · -- a column other than the diagonal one
    have hne : ∃ j : Fin 4096, i ≠ j := by
      by_cases h0 : i = ⟨0, by decide⟩
      · exact ⟨⟨1, by decide⟩, by rw [h0]; decide⟩
      · exact ⟨⟨0, by decide⟩, h0⟩
    obtain ⟨j, hij⟩ := hne
    obtain ⟨r, hr, hs⟩ := smx_pos (wts i) (hw i) (lab j)
    refine ⟨j, ?_⟩
    unfold wmS offd
    rw [hs, if_neg hij, mul_one]
    exact_mod_cast hr

end Cert.Spec

end
-- ==== Proof.lean ====
/-
  The certificate: a supervised contrastive loss with per-sample class weights, computed by a kernel that walks the
  4096 x 4096 similarity matrix in 1024 x 512 tiles with a running row maximum, against the whole-matrix reference.

  Frames: each program terminates without fault and leaves its three argument arrays unchanged — the two kernels by
  the run of @main as host stretches around one kernel region (every window's buffer accounted for at every grid
  point, the five running columns carried from point to point), the reference by its run as a list of host operations.
  The idealization's one rewrite names the reciprocal of the temperature: the kernel multiplies by the binary32
  value of 1 / 0.07, which is the rounding of the exact reciprocal of the binary32 value of 0.07 the reference divides by.
  Equivalence over the extended reals, under finite features and class scores and labels among the 32 classes: both
  programs compute minus the mean over the samples of
      ( sum_j wm_ij mk_ij ((s_ij - M_i) - log Z_i) ) / ( sum_j mk_ij ),
  the reference with M_i and Z_i taken over the whole row, the kernel accumulating over eight column blocks with the
  normaliser rescaled whenever the running maximum grows and closing as (A - M W - log Z * W) / MM; the two agree
  because exp turns the shift of the maximum into a factor and finite sums of reals distribute. The kernel's label
  equality and class-weight gather are contractions against one-hot rows, which for labels among the classes select
  exactly one term.
-/
import proofs.«431488_j42425686950476_1_alg».proof.Defs
import proofs.«431488_j42425686950476_1_alg».proof.Proof.Gen.Kernel
import proofs.«431488_j42425686950476_1_alg».proof.Proof.Gen.KernelIdeal
import proofs.«431488_j42425686950476_1_alg».proof.Proof.Gen.ReferenceIdeal
import proofs.«431488_j42425686950476_1_alg».proof.Proof.Gen.Pre_finite_inputs
import proofs.«431488_j42425686950476_1_alg».proof.Proof.BKLaunch
import proofs.«431488_j42425686950476_1_alg».proof.Proof.KLaunch
import proofs.«431488_j42425686950476_1_alg».proof.Proof.KValue
import proofs.«431488_j42425686950476_1_alg».proof.Proof.RefValue
import proofs.«431488_j42425686950476_1_alg».proof.Proof.PreFacts
import proofs.«431488_j42425686950476_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ =>
  (θ_run Cert.Kernel.defs _ _).mono (fun _ h c => (h c).2) (Cert.Kernel.Hand.run_main (F := Bits) m ρ)

theorem frame_ki : Cert.frame_KernelIdeal := fun m ρ _ =>
  (θ_run Cert.KernelIdeal.defs _ _).mono (fun _ h c => (h c).2) (Cert.KernelIdeal.Hand.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

/-- The one rewrite: the named reciprocal of the temperature denotes 134217728 / 9395241 at the ideal instance. -/
theorem preserves : Cert.preserves_Kernel_KernelIdeal :=
  IdealRules.named_const.statement Cert.KernelIdeal.κ "inv_temp" .f32 0x41649249#32 ((134217728 / 9395241 : ℝ) : EReal) rfl

/-- Both results are the loss of the common argument arrays. -/
theorem algebraic : Cert.algebraic_KernelIdeal_ReferenceIdeal := by
  intro m ρ m' ρ' hpre hagree
  refine ⟨fun c => fun _ => Cert.Spec.loss (Cert.KernelIdeal.Hand.featA m c) (Cert.KernelIdeal.Hand.labA m c) (Cert.KernelIdeal.Hand.wtsA m c), ?_, ?_⟩
  · refine (θ_run Cert.KernelIdeal.defs _ _).mono (fun _ h c => ⟨(h c).1.trans ?_, (h c).2⟩)
      (Cert.KernelIdeal.Hand.run_main (F := Ideal) m ρ)
    obtain ⟨hf, hw, hl⟩ := Cert.PreFacts.of_pre _ _ _ (hpre c)
    rw [Cert.KernelIdeal.Hand.ker_result m c hl]
    funext _
    exact Cert.Spec.lossK_eq_loss _ _ _ hf hw
  · refine (θ_run Cert.ReferenceIdeal.defs _ _).mono (fun _ h c => ⟨(h c).1.trans ?_, (h c).2⟩)
      (Cert.ReferenceIdeal.Value.run (F := Ideal) m' ρ')
    obtain ⟨_, _, hl⟩ := Cert.PreFacts.of_pre _ _ _ (hpre c)
    have hl' : ∀ j : Fin 4096, (m' ((c.tc : Thread Cert.ReferenceIdeal.nD Cert.ReferenceIdeal.τ).loc Cert.ReferenceIdeal.main_arg1) (ValueIdx.ix1 j)).toNat < 32 := by
      intro j; rw [(hagree c).2.1]; exact hl j
    refine (Cert.ReferenceIdeal.RefValue.ref_result m' c hl').trans ?_
    rw [(hagree c).1, (hagree c).2.1, (hagree c).2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
